-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x500 : Shape := ⟨2, ![256, 500]⟩
abbrev S2560x500 : Shape := ⟨2, ![2560, 500]⟩
abbrev S25600x500 : Shape := ⟨2, ![25600, 500]⟩
abbrev S1280x500 : Shape := ⟨2, ![1280, 500]⟩
abbrev S12800x500 : Shape := ⟨2, ![12800, 500]⟩
abbrev S128000x500 : Shape := ⟨2, ![128000, 500]⟩
abbrev S1000x256 : Shape := ⟨2, ![1000, 256]⟩
abbrev S512x128 : Shape := ⟨2, ![512, 128]⟩
abbrev S_ : Shape := ⟨0, ![]⟩

class Facts : Prop where
  bcast_S_S256x500 : S_.BroadcastsInDim S256x500 (![] : Fin 0 → Fin S256x500.rank)
  reducesTo_S256x500_S_d0_1 : S256x500.ReducesTo [0, 1] S_
  h_S_ : 0 < S_.numel
  bcast_S_S2560x500 : S_.BroadcastsInDim S2560x500 (![] : Fin 0 → Fin S2560x500.rank)
  reducesTo_S2560x500_S_d0_1 : S2560x500.ReducesTo [0, 1] S_
  bcast_S_S25600x500 : S_.BroadcastsInDim S25600x500 (![] : Fin 0 → Fin S25600x500.rank)
  reducesTo_S25600x500_S_d0_1 : S25600x500.ReducesTo [0, 1] S_
  bcast_S_S1280x500 : S_.BroadcastsInDim S1280x500 (![] : Fin 0 → Fin S1280x500.rank)
  reducesTo_S1280x500_S_d0_1 : S1280x500.ReducesTo [0, 1] S_
  bcast_S_S12800x500 : S_.BroadcastsInDim S12800x500 (![] : Fin 0 → Fin S12800x500.rank)
  reducesTo_S12800x500_S_d0_1 : S12800x500.ReducesTo [0, 1] S_
  bcast_S_S128000x500 : S_.BroadcastsInDim S128000x500 (![] : Fin 0 → Fin S128000x500.rank)
  reducesTo_S128000x500_S_d0_1 : S128000x500.ReducesTo [0, 1] S_
  bcast_S_S1000x256 : S_.BroadcastsInDim S1000x256 (![] : Fin 0 → Fin S1000x256.rank)
  reducesTo_S1000x256_S_d0_1 : S1000x256.ReducesTo [0, 1] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  main_v53

def fn_part2 {F : FTy → Type} [FloatOps F] (main_arg7 : FVec F S12800x500 .f32) (main_arg8 : FVec F S128000x500 .f32) (main_arg9 : FVec F S1000x256 .f32) (main_arg10 : FVec F S512x128 .f32) (main_v33 : IVec S_ 1) : IVec S_ 1 :=
  let main_v34 : FVec F S12800x500 .f32 := Host.absf main_arg7
  let main_cst_12 : FVec F S_ .f32 := constant S_ .f32 0x7F800000#32
  let main_v35 : FVec F S12800x500 .f32 := broadcastInDim S12800x500 ![] bcast_S_S12800x500 main_cst_12
  let main_v36 : IVec S12800x500 1 := cmpf .olt main_v34 main_v35
  let main_c_13 : IVec S_ 1 := constantI S_ 1 1#1
  let main_v37 : IVec S_ 1 := (fun x v => Host.reduce IntOp.andi x v reducesTo_S12800x500_S_d0_1 h_S_) main_v36 main_c_13
  let main_v38 : IVec S_ 1 := andi main_v33 main_v37
  let main_v39 : FVec F S128000x500 .f32 := Host.absf main_arg8
  let main_cst_14 : FVec F S_ .f32 := constant S_ .f32 0x7F800000#32
  let main_v40 : FVec F S128000x500 .f32 := broadcastInDim S128000x500 ![] bcast_S_S128000x500 main_cst_14
  let main_v41 : IVec S128000x500 1 := cmpf .olt main_v39 main_v40
  let main_c_15 : IVec S_ 1 := constantI S_ 1 1#1
  let main_v42 : IVec S_ 1 := (fun x v => Host.reduce IntOp.andi x v reducesTo_S128000x500_S_d0_1 h_S_) main_v41 main_c_15
  let main_v43 : IVec S_ 1 := andi main_v38 main_v42
  let main_v44 : FVec F S1000x256 .f32 := Host.absf main_arg9
  let main_cst_16 : FVec F S_ .f32 := constant S_ .f32 0x7F800000#32
  let main_v45 : FVec F S1000x256 .f32 := broadcastInDim S1000x256 ![] bcast_S_S1000x256 main_cst_16
  let main_v46 : IVec S1000x256 1 := cmpf .olt main_v44 main_v45
  let main_c_17 : IVec S_ 1 := constantI S_ 1 1#1
  let main_v47 : IVec S_ 1 := (fun x v => Host.reduce IntOp.andi x v reducesTo_S1000x256_S_d0_1 h_S_) main_v46 main_c_17
  let main_v48 : IVec S_ 1 := andi main_v43 main_v47
  let main_v49 : FVec F S512x128 .f32 := Host.absf main_arg10
  let main_cst_18 : FVec F S_ .f32 := constant S_ .f32 0x7F800000#32
  let main_v50 : FVec F S512x128 .f32 := broadcastInDim S512x128 ![] bcast_S_S512x128 main_cst_18
  fn_part3 (F := F) main_v48 main_v49 main_v50

def fn_part1 {F : FTy → Type} [FloatOps F] (main_arg4 : FVec F S2560x500 .f32) (main_arg5 : FVec F S25600x500 .f32) (main_arg6 : FVec F S1280x500 .f32) (main_arg7 : FVec F S12800x500 .f32) (main_arg8 : FVec F S128000x500 .f32) (main_arg9 : FVec F S1000x256 .f32) (main_arg10 : FVec F S512x128 .f32) (main_v13 : IVec S_ 1) (main_v16 : IVec S256x500 1) : IVec S_ 1 :=
  let main_c_5 : IVec S_ 1 := constantI S_ 1 1#1
  let main_v17 : IVec S_ 1 := (fun x v => Host.reduce IntOp.andi x v reducesTo_S256x500_S_d0_1 h_S_) main_v16 main_c_5
  let main_v18 : IVec S_ 1 := andi main_v13 main_v17
  let main_v19 : FVec F S2560x500 .f32 := Host.absf main_arg4
  let main_cst_6 : FVec F S_ .f32 := constant S_ .f32 0x7F800000#32
  let main_v20 : FVec F S2560x500 .f32 := broadcastInDim S2560x500 ![] bcast_S_S2560x500 main_cst_6
  let main_v21 : IVec S2560x500 1 := cmpf .olt main_v19 main_v20
  let main_c_7 : IVec S_ 1 := constantI S_ 1 1#1
  let main_v22 : IVec S_ 1 := (fun x v => Host.reduce IntOp.andi x v reducesTo_S2560x500_S_d0_1 h_S_) main_v21 main_c_7
  let main_v23 : IVec S_ 1 := andi main_v18 main_v22
  let main_v24 : FVec F S25600x500 .f32 := Host.absf main_arg5
  let main_cst_8 : FVec F S_ .f32 := constant S_ .f32 0x7F800000#32
  let main_v25 : FVec F S25600x500 .f32 := broadcastInDim S25600x500 ![] bcast_S_S25600x500 main_cst_8
  let main_v26 : IVec S25600x500 1 := cmpf .olt main_v24 main_v25
  let main_c_9 : IVec S_ 1 := constantI S_ 1 1#1
  let main_v27 : IVec S_ 1 := (fun x v => Host.reduce IntOp.andi x v reducesTo_S25600x500_S_d0_1 h_S_) main_v26 main_c_9
  let main_v28 : IVec S_ 1 := andi main_v23 main_v27
  let main_v29 : FVec F S1280x500 .f32 := Host.absf main_arg6
  let main_cst_10 : FVec F S_ .f32 := constant S_ .f32 0x7F800000#32
  let main_v30 : FVec F S1280x500 .f32 := broadcastInDim S1280x500 ![] bcast_S_S1280x500 main_cst_10
  let main_v31 : IVec S1280x500 1 := cmpf .olt main_v29 main_v30
  let main_c_11 : IVec S_ 1 := constantI S_ 1 1#1
  let main_v32 : IVec S_ 1 := (fun x v => Host.reduce IntOp.andi x v reducesTo_S1280x500_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x500 .f32) (main_arg1 : FVec F S2560x500 .f32) (main_arg2 : FVec F S25600x500 .f32) (main_arg3 : FVec F S256x500 .f32) (main_arg4 : FVec F S2560x500 .f32) (main_arg5 : FVec F S25600x500 .f32) (main_arg6 : FVec F S1280x500 .f32) (main_arg7 : FVec F S12800x500 .f32) (main_arg8 : FVec F S128000x500 .f32) (main_arg9 : FVec F S1000x256 .f32) (main_arg10 : FVec F S512x128 .f32) : IVec S_ 1 :=
  let main_v0 : FVec F S256x500 .f32 := Host.absf main_arg0
  let main_cst : FVec F S_ .f32 := constant S_ .f32 0x7F800000#32
  let main_v1 : FVec F S256x500 .f32 := broadcastInDim S256x500 ![] bcast_S_S256x500 main_cst
  let main_v2 : IVec S256x500 1 := cmpf .olt main_v0 main_v1
  let main_c : IVec S_ 1 := constantI S_ 1 1#1
  let main_v3 : IVec S_ 1 := (fun x v => Host.reduce IntOp.andi x v reducesTo_S256x500_S_d0_1 h_S_) main_v2 main_c
  let main_v4 : FVec F S2560x500 .f32 := Host.absf main_arg1
  let main_cst_0 : FVec F S_ .f32 := constant S_ .f32 0x7F800000#32
  let main_v5 : FVec F S2560x500 .f32 := broadcastInDim S2560x500 ![] bcast_S_S2560x500 main_cst_0
  let main_v6 : IVec S2560x500 1 := cmpf .olt main_v4 main_v5
  let main_c_1 : IVec S_ 1 := constantI S_ 1 1#1
  let main_v7 : IVec S_ 1 := (fun x v => Host.reduce IntOp.andi x v reducesTo_S2560x500_S_d0_1 h_S_) main_v6 main_c_1
  let main_v8 : IVec S_ 1 := andi main_v3 main_v7
  let main_v9 : FVec F S25600x500 .f32 := Host.absf main_arg2
  let main_cst_2 : FVec F S_ .f32 := constant S_ .f32 0x7F800000#32
  let main_v10 : FVec F S25600x500 .f32 := broadcastInDim S25600x500 ![] bcast_S_S25600x500 main_cst_2
  let main_v11 : IVec S25600x500 1 := cmpf .olt main_v9 main_v10
  let main_c_3 : IVec S_ 1 := constantI S_ 1 1#1
  let main_v12 : IVec S_ 1 := (fun x v => Host.reduce IntOp.andi x v reducesTo_S25600x500_S_d0_1 h_S_) main_v11 main_c_3
  let main_v13 : IVec S_ 1 := andi main_v8 main_v12
  let main_v14 : FVec F S256x500 .f32 := Host.absf main_arg3
  let main_cst_4 : FVec F S_ .f32 := constant S_ .f32 0x7F800000#32
  let main_v15 : FVec F S256x500 .f32 := broadcastInDim S256x500 ![] bcast_S_S256x500 main_cst_4
  let main_v16 : IVec S256x500 1 := cmpf .olt main_v14 main_v15
  fn_part1 (F := F) main_arg4 main_arg5 main_arg6 main_arg7 main_arg8 main_arg9 main_arg10 main_v13 main_v16
-- ==== Kernel.lean ====
abbrev S256x500 : Shape := ⟨2, ![256, 500]⟩
abbrev S2560x500 : Shape := ⟨2, ![2560, 500]⟩
abbrev S25600x500 : Shape := ⟨2, ![25600, 500]⟩
abbrev S1280x500 : Shape := ⟨2, ![1280, 500]⟩
abbrev S12800x500 : Shape := ⟨2, ![12800, 500]⟩
abbrev S128000x500 : Shape := ⟨2, ![128000, 500]⟩
abbrev S1000x256 : Shape := ⟨2, ![1000, 256]⟩
abbrev S512x128 : Shape := ⟨2, ![512, 128]⟩
abbrev S256x10x500 : Shape := ⟨3, ![256, 10, 500]⟩
abbrev S256x256 : Shape := ⟨2, ![256, 256]⟩
abbrev S256x1000 : Shape := ⟨2, ![256, 1000]⟩
abbrev S1280x10x500 : Shape := ⟨3, ![1280, 10, 500]⟩
abbrev S1280x256 : Shape := ⟨2, ![1280, 256]⟩
abbrev S640x500 : Shape := ⟨2, ![640, 500]⟩
abbrev S640x10x500 : Shape := ⟨3, ![640, 10, 500]⟩
abbrev S640x256 : Shape := ⟨2, ![640, 256]⟩
abbrev S640x1000 : Shape := ⟨2, ![640, 1000]⟩
abbrev S2560x10x500 : Shape := ⟨3, ![2560, 10, 500]⟩
abbrev S2560x256 : Shape := ⟨2, ![2560, 256]⟩
abbrev S12800x10x500 : Shape := ⟨3, ![12800, 10, 500]⟩
abbrev S12800x256 : Shape := ⟨2, ![12800, 256]⟩
abbrev S256x10x256 : Shape := ⟨3, ![256, 10, 256]⟩
abbrev S256x128 : Shape := ⟨2, ![256, 128]⟩
abbrev S256x512 : Shape := ⟨2, ![256, 512]⟩
abbrev S1280x10x256 : Shape := ⟨3, ![1280, 10, 256]⟩
abbrev S1280x128 : Shape := ⟨2, ![1280, 128]⟩
abbrev S1280x512 : Shape := ⟨2, ![1280, 512]⟩

abbrev nBuf : Space → Nat
  | .hbm => 29
  | .vmem => 48
  | .smem => 0
  | _ => 0

abbrev bufTy : (tb : Table) → Fin (tcTables nBuf tb) → BufTy
  | .hbm, ⟨0, _⟩ => ⟨S256x500, .f32⟩
  | .hbm, ⟨1, _⟩ => ⟨S2560x500, .f32⟩
  | .hbm, ⟨2, _⟩ => ⟨S25600x500, .f32⟩
  | .hbm, ⟨3, _⟩ => ⟨S256x500, .f32⟩
  | .hbm, ⟨4, _⟩ => ⟨S2560x500, .f32⟩
  | .hbm, ⟨5, _⟩ => ⟨S25600x500, .f32⟩
  | .hbm, ⟨6, _⟩ => ⟨S1280x500, .f32⟩
  | .hbm, ⟨7, _⟩ => ⟨S12800x500, .f32⟩
  | .hbm, ⟨8, _⟩ => ⟨S128000x500, .f32⟩
  | .hbm, ⟨9, _⟩ => ⟨S1000x256, .f32⟩
  | .hbm, ⟨10, _⟩ => ⟨S512x128, .f32⟩
  | .hbm, ⟨11, _⟩ => ⟨S256x10x500, .f32⟩
  | .hbm, ⟨12, _⟩ => ⟨S256x256, .f32⟩
  | .hbm, ⟨13, _⟩ => ⟨S256x10x500, .f32⟩
  | .hbm, ⟨14, _⟩ => ⟨S256x256, .f32⟩
  | .hbm, ⟨15, _⟩ => ⟨S1280x10x500, .f32⟩
  | .hbm, ⟨16, _⟩ => ⟨S1280x256, .f32⟩
  | .hbm, ⟨17, _⟩ => ⟨S2560x10x500, .f32⟩
  | .hbm, ⟨18, _⟩ => ⟨S2560x256, .f32⟩
  | .hbm, ⟨19, _⟩ => ⟨S2560x10x500, .f32⟩
  | .hbm, ⟨20, _⟩ => ⟨S2560x256, .f32⟩
  | .hbm, ⟨21, _⟩ => ⟨S12800x10x500, .f32⟩
  | .hbm, ⟨22, _⟩ => ⟨S12800x256, .f32⟩
  | .hbm, ⟨23, _⟩ => ⟨S256x10x256, .f32⟩
  | .hbm, ⟨24, _⟩ => ⟨S256x128, .f32⟩
  | .hbm, ⟨25, _⟩ => ⟨S256x10x256, .f32⟩
  | .hbm, ⟨26, _⟩ => ⟨S256x128, .f32⟩
  | .hbm, ⟨27, _⟩ => ⟨S1280x10x256, .f32⟩
  | .hbm, ⟨28, _⟩ => ⟨S1280x128, .f32⟩
  | .local _ .vmem, ⟨0, _⟩ => ⟨S256x500, .f32⟩
  | .local _ .vmem, ⟨1, _⟩ => ⟨S256x10x500, .f32⟩
  | .local _ .vmem, ⟨2, _⟩ => ⟨S1000x256, .f32⟩
  | .local _ .vmem, ⟨3, _⟩ => ⟨S256x256, .f32⟩
  | .local _ .vmem, ⟨4, _⟩ => ⟨S256x500, .f32⟩
  | .local _ .vmem, ⟨5, _⟩ => ⟨S256x10x500, .f32⟩
  | .local _ .vmem, ⟨6, _⟩ => ⟨S1000x256, .f32⟩
  | .local _ .vmem, ⟨7, _⟩ => ⟨S256x256, .f32⟩
  | .local _ .vmem, ⟨8, _⟩ => ⟨S640x500, .f32⟩
  | .local _ .vmem, ⟨9, _⟩ => ⟨S640x500, .f32⟩
  | .local _ .vmem, ⟨10, _⟩ => ⟨S640x10x500, .f32⟩
  | .local _ .vmem, ⟨11, _⟩ => ⟨S640x10x500, .f32⟩
  | .local _ .vmem, ⟨12, _⟩ => ⟨S1000x256, .f32⟩
  | .local _ .vmem, ⟨13, _⟩ => ⟨S640x256, .f32⟩
  | .local _ .vmem, ⟨14, _⟩ => ⟨S640x256, .f32⟩
  | .local _ .vmem, ⟨15, _⟩ => ⟨S640x500, .f32⟩
  | .local _ .vmem, ⟨16, _⟩ => ⟨S640x500, .f32⟩
  | .local _ .vmem, ⟨17, _⟩ => ⟨S640x10x500, .f32⟩
  | .local _ .vmem, ⟨18, _⟩ => ⟨S640x10x500, .f32⟩
  | .local _ .vmem, ⟨19, _⟩ => ⟨S1000x256, .f32⟩
  | .local _ .vmem, ⟨20, _⟩ => ⟨S640x256, .f32⟩
  | .local _ .vmem, ⟨21, _⟩ => ⟨S640x256, .f32⟩
  | .local _ .vmem, ⟨22, _⟩ => ⟨S640x500, .f32⟩
  | .local _ .vmem, ⟨23, _⟩ => ⟨S640x500, .f32⟩
  | .local _ .vmem, ⟨24, _⟩ => ⟨S640x10x500, .f32⟩
  | .local _ .vmem, ⟨25, _⟩ => ⟨S640x10x500, .f32⟩
  | .local _ .vmem, ⟨26, _⟩ => ⟨S1000x256, .f32⟩
  | .local _ .vmem, ⟨27, _⟩ => ⟨S640x256, .f32⟩
  | .local _ .vmem, ⟨28, _⟩ => ⟨S640x256, .f32⟩
  | .local _ .vmem, ⟨29, _⟩ => ⟨S640x500, .f32⟩
  | .local _ .vmem, ⟨30, _⟩ => ⟨S640x500, .f32⟩
  | .local _ .vmem, ⟨31, _⟩ => ⟨S640x10x500, .f32⟩
  | .local _ .vmem, ⟨32, _⟩ => ⟨S640x10x500, .f32⟩
  | .local _ .vmem, ⟨33, _⟩ => ⟨S1000x256, .f32⟩
  | .local _ .vmem, ⟨34, _⟩ => ⟨S640x256, .f32⟩
  | .local _ .vmem, ⟨35, _⟩ => ⟨S640x256, .f32⟩
  | .local _ .vmem, ⟨36, _⟩ => ⟨S256x256, .f32⟩
  | .local _ .vmem, ⟨37, _⟩ => ⟨S256x10x256, .f32⟩
  | .local _ .vmem, ⟨38, _⟩ => ⟨S512x128, .f32⟩
  | .local _ .vmem, ⟨39, _⟩ => ⟨S256x128, .f32⟩
  | .local _ .vmem, ⟨40, _⟩ => ⟨S256x256, .f32⟩
  | .local _ .vmem, ⟨41, _⟩ => ⟨S256x10x256, .f32⟩
  | .local _ .vmem, ⟨42, _⟩ => ⟨S512x128, .f32⟩
  | .local _ .vmem, ⟨43, _⟩ => ⟨S256x128, .f32⟩
  | .local _ .vmem, ⟨44, _⟩ => ⟨S1280x256, .f32⟩
  | .local _ .vmem, ⟨45, _⟩ => ⟨S1280x10x256, .f32⟩
  | .local _ .vmem, ⟨46, _⟩ => ⟨S512x128, .f32⟩
  | .local _ .vmem, ⟨47, _⟩ => ⟨S1280x128, .f32⟩
  | _, _ => ⟨S256x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem2_0 : DmaSem sig := 38
abbrev cc6_sem3_0 : DmaSem sig := 39
abbrev cc7_sem0_0 : DmaSem sig := 40
abbrev cc7_sem1_0 : DmaSem sig := 41
abbrev cc7_sem2_0 : DmaSem sig := 42
abbrev cc7_sem3_0 : DmaSem sig := 43
abbrev cc8_sem0_0 : DmaSem sig := 44
abbrev cc8_sem1_0 : DmaSem sig := 45
abbrev cc8_sem2_0 : DmaSem sig := 46
abbrev cc8_sem3_0 : DmaSem sig := 47

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x500 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x10x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x500 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x10x500 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1000x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x500 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S640x10x500 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1000x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S640x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S640x500 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S640x10x500 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1000x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S640x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S640x500 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S640x10x500 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1000x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S640x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S640x500 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S640x10x500 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1000x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S640x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S256x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S256x10x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S256x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x10x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S512x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S1280x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1280x10x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S512x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1280x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

class Facts₀ : Prop where
  shapeCasts_S2560x500_S256x10x500 : S2560x500.ShapeCasts S256x10x500
  inb_S256x10x500_S256x10x500_0_0_0 : ∀ a, (![0, 0, 0] : Fin 3 → Nat) a + S256x10x500.size a ≤ S256x10x500.size a
  h_S256x10x500 : 0 < S256x10x500.numel
  shapeCasts_S256x10x500_S256x10x500 : S256x10x500.ShapeCasts S256x10x500
  reduces_S256x10x500_S256x500 : S256x10x500.Reduces [1] S256x500
  inb_S256x500_S256x500_0_0 : ∀ a, (![0, 0] : Fin 2 → Nat) a + S256x500.size a ≤ S256x500.size a
  h_S256x500 : 0 < S256x500.numel
  concatenates_S256x500_S256x500_S256x1000_d1 : Shape.Concatenates [S256x500, S256x500] S256x1000 1
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  shapeCasts_S12800x500_S1280x10x500 : S12800x500.ShapeCasts S1280x10x500
  inb_S640x10x500_S640x10x500_0_0_0 : ∀ a, (![0, 0, 0] : Fin 3 → Nat) a + S640x10x500.size a ≤ S640x10x500.size a
  h_S640x10x500 : 0 < S640x10x500.numel
  shapeCasts_S640x10x500_S640x10x500 : S640x10x500.ShapeCasts S640x10x500
  reduces_S640x10x500_S640x500 : S640x10x500.Reduces [1] S640x500
  inb_S640x500_S640x500_0_0 : ∀ a, (![0, 0] : Fin 2 → Nat) a + S640x500.size a ≤ S640x500.size a
  h_S640x500 : 0 < S640x500.numel
  concatenates_S640x500_S640x500_S640x1000_d1 : Shape.Concatenates [S640x500, S640x500] S640x1000 1
  inb_S640x256_S640x256_0_0 : ∀ a, (![0, 0] : Fin 2 → Nat) a + S640x256.size a ≤ S640x256.size a
  h_S640x256 : 0 < S640x256.numel
  shapeCasts_S25600x500_S2560x10x500 : S25600x500.ShapeCasts S2560x10x500
  shapeCasts_S128000x500_S12800x10x500 : S128000x500.ShapeCasts S12800x10x500
  shapeCasts_S2560x256_S256x10x256 : S2560x256.ShapeCasts S256x10x256
  inb_S256x10x256_S256x10x256_0_0_0 : ∀ a, (![0, 0, 0] : Fin 3 → Nat) a + S256x10x256.size a ≤ S256x10x256.size a
  h_S256x10x256 : 0 < S256x10x256.numel
  shapeCasts_S256x10x256_S256x10x256 : S256x10x256.ShapeCasts S256x10x256
  reduces_S256x10x256_S256x256 : S256x10x256.Reduces [1] S256x256
  shapeCasts_S256x256_S256x256 : S256x256.ShapeCasts S256x256
  concatenates_S256x256_S256x256_S256x512_d1 : Shape.Concatenates [S256x256, S256x256] S256x512 1
  inb_S512x128_S512x128_0_0 : ∀ a, (![0, 0] : Fin 2 → Nat) a + S512x128.size a ≤ S512x128.size a
  h_S512x128 : 0 < S512x128.numel
  inb_S256x128_S256x128_0_0 : ∀ a, (![0, 0] : Fin 2 → Nat) a + S256x128.size a ≤ S256x128.size a
  h_S256x128 : 0 < S256x128.numel
  shapeCasts_S12800x256_S1280x10x256 : S12800x256.ShapeCasts S1280x10x256
  inb_S1280x10x256_S1280x10x256_0_0_0 : ∀ a, (![0, 0, 0] : Fin 3 → Nat) a + S1280x10x256.size a ≤ S1280x10x256.size a
  h_S1280x10x256 : 0 < S1280x10x256.numel
  shapeCasts_S1280x10x256_S1280x10x256 : S1280x10x256.ShapeCasts S1280x10x256
  reduces_S1280x10x256_S1280x256 : S1280x10x256.Reduces [1] S1280x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  concatenates_S1280x256_S1280x256_S1280x512_d1 : Shape.Concatenates [S1280x256, S1280x256] S1280x512 1
  inb_S1280x128_S1280x128_0_0 : ∀ a, (![0, 0] : Fin 2 → Nat) a + S1280x128.size a ≤ S1280x128.size a
  h_S1280x128 : 0 < S1280x128.numel
  dot_S256x1000_S1000x256_S256x256_1_0_0_1_n_n_wf : DotDims.WF S256x1000 S1000x256 S256x256 [1] [0] [0] [1] [] []
  dot_S640x1000_S1000x256_S640x256_1_0_0_1_n_n_wf : DotDims.WF S640x1000 S1000x256 S640x256 [1] [0] [0] [1] [] []
  dot_S256x512_S512x128_S256x128_1_0_0_1_n_n_wf : DotDims.WF S256x512 S512x128 S256x128 [1] [0] [0] [1] [] []
  dot_S1280x512_S512x128_S1280x128_1_0_0_1_n_n_wf : DotDims.WF S1280x512 S512x128 S1280x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x500.size a ≤ S256x500.size a
  hwx0_0 : ∀ i : grid0.Coords, EltTy.bits .f32 = 32 ∨ (Rect.block (s := S256x500) S256x500.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x10x500.size a ≤ S256x10x500.size a
  hwx0_1 : ∀ i : grid0.Coords, EltTy.bits .f32 = 32 ∨ (Rect.block (s := S256x10x500) S256x10x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S1000x256.size a
  hwx0_2 : ∀ i : grid0.Coords, EltTy.bits .f32 = 32 ∨ (Rect.block (s := S1000x256) S1000x256.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x500.size a ≤ S256x500.size a
  hwx1_0 : ∀ i : grid1.Coords, EltTy.bits .f32 = 32 ∨ (Rect.block (s := S256x500) S256x500.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S256x10x500.size a ≤ S256x10x500.size a
  hwx1_1 : ∀ i : grid1.Coords, EltTy.bits .f32 = 32 ∨ (Rect.block (s := S256x10x500) S256x10x500.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S1000x256.size a
  hwx1_2 : ∀ i : grid1.Coords, EltTy.bits .f32 = 32 ∨ (Rect.block (s := S1000x256) S1000x256.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S640x500.size a ≤ S1280x500.size a
  hwx2_0 : ∀ i : grid2.Coords, EltTy.bits .f32 = 32 ∨ (Rect.block (s := S1280x500) S640x500.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S640x10x500.size a ≤ S1280x10x500.size a
  hwx2_1 : ∀ i : grid2.Coords, EltTy.bits .f32 = 32 ∨ (Rect.block (s := S1280x10x500) S640x10x500.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S1000x256.size a
  hwx2_2 : ∀ i : grid2.Coords, EltTy.bits .f32 = 32 ∨ (Rect.block (s := S1000x256) S1000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S640x256.size a ≤ S1280x256.size a
  hwx2_3 : ∀ i : grid2.Coords, EltTy.bits .f32 = 32 ∨ (Rect.block (s := S1280x256) S640x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S640x500.size a ≤ S2560x500.size a
  hwx3_0 : ∀ i : grid3.Coords, EltTy.bits .f32 = 32 ∨ (Rect.block (s := S2560x500) S640x500.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S640x10x500.size a ≤ S2560x10x500.size a
  hwx3_1 : ∀ i : grid3.Coords, EltTy.bits .f32 = 32 ∨ (Rect.block (s := S2560x10x500) S640x10x500.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S1000x256.size a
  hwx3_2 : ∀ i : grid3.Coords, EltTy.bits .f32 = 32 ∨ (Rect.block (s := S1000x256) S1000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S640x256.size a ≤ S2560x256.size a
  hwx3_3 : ∀ i : grid3.Coords, EltTy.bits .f32 = 32 ∨ (Rect.block (s := S2560x256) S640x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S640x500.size a ≤ S2560x500.size a
  hwx4_0 : ∀ i : grid4.Coords, EltTy.bits .f32 = 32 ∨ (Rect.block (s := S2560x500) S640x500.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S640x10x500.size a ≤ S2560x10x500.size a
  hwx4_1 : ∀ i : grid4.Coords, EltTy.bits .f32 = 32 ∨ (Rect.block (s := S2560x10x500) S640x10x500.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S1000x256.size a
  hwx4_2 : ∀ i : grid4.Coords, EltTy.bits .f32 = 32 ∨ (Rect.block (s := S1000x256) S1000x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S640x256.size a ≤ S2560x256.size a
  hwx4_3 : ∀ i : grid4.Coords, EltTy.bits .f32 = 32 ∨ (Rect.block (s := S2560x256) S640x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S640x500.size a ≤ S12800x500.size a
  hwx5_0 : ∀ i : grid5.Coords, EltTy.bits .f32 = 32 ∨ (Rect.block (s := S12800x500) S640x500.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S640x10x500.size a ≤ S12800x10x500.size a
  hwx5_1 : ∀ i : grid5.Coords, EltTy.bits .f32 = 32 ∨ (Rect.block (s := S12800x10x500) S640x10x500.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S1000x256.size a
  hwx5_2 : ∀ i : grid5.Coords, EltTy.bits .f32 = 32 ∨ (Rect.block (s := S1000x256) S1000x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S640x256.size a ≤ S12800x256.size a
  hwx5_3 : ∀ i : grid5.Coords, EltTy.bits .f32 = 32 ∨ (Rect.block (s := S12800x256) S640x256.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S256x256.size a ≤ S256x256.size a
  hwx6_0 : ∀ i : grid6.Coords, EltTy.bits .f32 = 32 ∨ (Rect.block (s := S256x256) S256x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S256x10x256.size a ≤ S256x10x256.size a
  hwx6_1 : ∀ i : grid6.Coords, EltTy.bits .f32 = 32 ∨ (Rect.block (s := S256x10x256) S256x10x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S256x256.size a ≤ S256x256.size a
  hwx7_0 : ∀ i : grid7.Coords, EltTy.bits .f32 = 32 ∨ (Rect.block (s := S256x256) S256x256.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S256x10x256.size a ≤ S256x10x256.size a
  hwx7_1 : ∀ i : grid7.Coords, EltTy.bits .f32 = 32 ∨ (Rect.block (s := S256x10x256) S256x10x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S512x128.size a
  hwx7_2 : ∀ i : grid7.Coords, EltTy.bits .f32 = 32 ∨ (Rect.block (s := S512x128) S512x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S256x128.size a ≤ S256x128.size a
  hwx7_3 : ∀ i : grid7.Coords, EltTy.bits .f32 = 32 ∨ (Rect.block (s := S256x128) S256x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1280x256.size a ≤ S1280x256.size a
  hwx8_0 : ∀ i : grid8.Coords, EltTy.bits .f32 = 32 ∨ (Rect.block (s := S1280x256) S1280x256.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1280x10x256.size a ≤ S1280x10x256.size a
  hwx8_1 : ∀ i : grid8.Coords, EltTy.bits .f32 = 32 ∨ (Rect.block (s := S1280x10x256) S1280x10x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S512x128.size a ≤ S512x128.size a
  hwx8_2 : ∀ i : grid8.Coords, EltTy.bits .f32 = 32 ∨ (Rect.block (s := S512x128) S512x128.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S1280x128.size a ≤ S1280x128.size a
  hwx8_3 : ∀ i : grid8.Coords, EltTy.bits .f32 = 32 ∨ (Rect.block (s := S1280x128) S1280x128.size (cc8_transform_3 i) (hinb8_3 i)).WholeWords (EltTy.packing .f32)

variable [Facts₀]

def dot_S256x1000_S1000x256_S256x256_1_0_0_1_n_n : DotDims S256x1000 S1000x256 S256x256 where
  lhsContracting := [1]
  rhsContracting := [0]
  lhsNonContracting := [0]
  rhsNonContracting := [1]
  lhsBatch := []
  rhsBatch := []
  wf := dot_S256x1000_S1000x256_S256x256_1_0_0_1_n_n_wf
def dot_S640x1000_S1000x256_S640x256_1_0_0_1_n_n : DotDims S640x1000 S1000x256 S640x256 where
  lhsContracting := [1]
  rhsContracting := [0]
  lhsNonContracting := [0]
  rhsNonContracting := [1]
  lhsBatch := []
  rhsBatch := []
  wf := dot_S640x1000_S1000x256_S640x256_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S1280x512_S512x128_S1280x128_1_0_0_1_n_n : DotDims S1280x512 S512x128 S1280x128 where
  lhsContracting := [1]
  rhsContracting := [0]
  lhsNonContracting := [0]
  rhsNonContracting := [1]
  lhsBatch := []
  rhsBatch := []
  wf := dot_S1280x512_S512x128_S1280x128_1_0_0_1_n_n_wf

abbrev win0_0 : Pipeline.Window sig grid0 :=
  Pipeline.Window.ofSpec (Memref.whole main_arg0) S256x500.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x10x500.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S256x500.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x10x500.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x256.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg6) S640x500.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S640x10x500.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S640x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S640x500.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S640x10x500.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1000x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S640x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg4) S640x500.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S640x10x500.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S1000x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S640x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg7) S640x500.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S640x10x500.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S1000x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11) S640x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v1) S256x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v12) S256x10x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S512x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v13) S256x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v3) S256x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v14) S256x10x256.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S512x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v15) S256x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v5) S1280x256.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v16) S1280x10x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_arg10) S512x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v17) S1280x128.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S256x500 : Shape := ⟨2, ![256, 500]⟩
abbrev S2560x500 : Shape := ⟨2, ![2560, 500]⟩
abbrev S25600x500 : Shape := ⟨2, ![25600, 500]⟩
abbrev S1280x500 : Shape := ⟨2, ![1280, 500]⟩
abbrev S12800x500 : Shape := ⟨2, ![12800, 500]⟩
abbrev S128000x500 : Shape := ⟨2, ![128000, 500]⟩
abbrev S1000x256 : Shape := ⟨2, ![1000, 256]⟩
abbrev S512x128 : Shape := ⟨2, ![512, 128]⟩
abbrev S256x10x500 : Shape := ⟨3, ![256, 10, 500]⟩
abbrev S_ : Shape := ⟨0, ![]⟩
abbrev S256x1000 : Shape := ⟨2, ![256, 1000]⟩
abbrev S256x256 : Shape := ⟨2, ![256, 256]⟩
abbrev S1280x10x500 : Shape := ⟨3, ![1280, 10, 500]⟩
abbrev S1280x1000 : Shape := ⟨2, ![1280, 1000]⟩
abbrev S1280x256 : Shape := ⟨2, ![1280, 256]⟩
abbrev S2560x10x500 : Shape := ⟨3, ![2560, 10, 500]⟩
abbrev S2560x1000 : Shape := ⟨2, ![2560, 1000]⟩
abbrev S2560x256 : Shape := ⟨2, ![2560, 256]⟩
abbrev S12800x10x500 : Shape := ⟨3, ![12800, 10, 500]⟩
abbrev S12800x1000 : Shape := ⟨2, ![12800, 1000]⟩
abbrev S12800x256 : Shape := ⟨2, ![12800, 256]⟩
abbrev S256x10x256 : Shape := ⟨3, ![256, 10, 256]⟩
abbrev S256x512 : Shape := ⟨2, ![256, 512]⟩
abbrev S256x128 : Shape := ⟨2, ![256, 128]⟩
abbrev S1280x10x256 : Shape := ⟨3, ![1280, 10, 256]⟩
abbrev S1280x512 : Shape := ⟨2, ![1280, 512]⟩
abbrev S1280x128 : Shape := ⟨2, ![1280, 128]⟩

abbrev nBuf : Space → Nat
  | .hbm => 110
  | .vmem => 0
  | .smem => 0
  | _ => 0

abbrev bufTy : (tb : Table) → Fin (tcTables nBuf tb) → BufTy
  | .hbm, ⟨0, _⟩ => ⟨S256x500, .f32⟩
  | .hbm, ⟨1, _⟩ => ⟨S2560x500, .f32⟩
  | .hbm, ⟨2, _⟩ => ⟨S25600x500, .f32⟩
  | .hbm, ⟨3, _⟩ => ⟨S256x500, .f32⟩
  | .hbm, ⟨4, _⟩ => ⟨S2560x500, .f32⟩
  | .hbm, ⟨5, _⟩ => ⟨S25600x500, .f32⟩
  | .hbm, ⟨6, _⟩ => ⟨S1280x500, .f32⟩
  | .hbm, ⟨7, _⟩ => ⟨S12800x500, .f32⟩
  | .hbm, ⟨8, _⟩ => ⟨S128000x500, .f32⟩
  | .hbm, ⟨9, _⟩ => ⟨S1000x256, .f32⟩
  | .hbm, ⟨10, _⟩ => ⟨S512x128, .f32⟩
  | .hbm, ⟨11, _⟩ => ⟨S256x10x500, .f32⟩
  | .hbm, ⟨12, _⟩ => ⟨S_, .f32⟩
  | .hbm, ⟨13, _⟩ => ⟨S256x500, .f32⟩
  | .hbm, ⟨14, _⟩ => ⟨S_, .f32⟩
  | .hbm, ⟨15, _⟩ => ⟨S256x500, .f32⟩
  | .hbm, ⟨16, _⟩ => ⟨S256x500, .f32⟩
  | .hbm, ⟨17, _⟩ => ⟨S256x1000, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x10x500, .f32⟩
  | .hbm, ⟨23, _⟩ => ⟨S_, .f32⟩
  | .hbm, ⟨24, _⟩ => ⟨S256x500, .f32⟩
  | .hbm, ⟨25, _⟩ => ⟨S_, .f32⟩
  | .hbm, ⟨26, _⟩ => ⟨S256x500, .f32⟩
  | .hbm, ⟨27, _⟩ => ⟨S256x500, .f32⟩
  | .hbm, ⟨28, _⟩ => ⟨S256x1000, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S1280x10x500, .f32⟩
  | .hbm, ⟨34, _⟩ => ⟨S_, .f32⟩
  | .hbm, ⟨35, _⟩ => ⟨S1280x500, .f32⟩
  | .hbm, ⟨36, _⟩ => ⟨S_, .f32⟩
  | .hbm, ⟨37, _⟩ => ⟨S1280x500, .f32⟩
  | .hbm, ⟨38, _⟩ => ⟨S1280x500, .f32⟩
  | .hbm, ⟨39, _⟩ => ⟨S1280x1000, .f32⟩
  | .hbm, ⟨40, _⟩ => ⟨S1280x256, .f32⟩
  | .hbm, ⟨41, _⟩ => ⟨S_, .f32⟩
  | .hbm, ⟨42, _⟩ => ⟨S1280x256, .f32⟩
  | .hbm, ⟨43, _⟩ => ⟨S1280x256, .f32⟩
  | .hbm, ⟨44, _⟩ => ⟨S2560x10x500, .f32⟩
  | .hbm, ⟨45, _⟩ => ⟨S_, .f32⟩
  | .hbm, ⟨46, _⟩ => ⟨S2560x500, .f32⟩
  | .hbm, ⟨47, _⟩ => ⟨S_, .f32⟩
  | .hbm, ⟨48, _⟩ => ⟨S2560x500, .f32⟩
  | .hbm, ⟨49, _⟩ => ⟨S2560x500, .f32⟩
  | .hbm, ⟨50, _⟩ => ⟨S2560x1000, .f32⟩
  | .hbm, ⟨51, _⟩ => ⟨S2560x256, .f32⟩
  | .hbm, ⟨52, _⟩ => ⟨S_, .f32⟩
  | .hbm, ⟨53, _⟩ => ⟨S2560x256, .f32⟩
  | .hbm, ⟨54, _⟩ => ⟨S2560x256, .f32⟩
  | .hbm, ⟨55, _⟩ => ⟨S2560x10x500, .f32⟩
  | .hbm, ⟨56, _⟩ => ⟨S_, .f32⟩
  | .hbm, ⟨57, _⟩ => ⟨S2560x500, .f32⟩
  | .hbm, ⟨58, _⟩ => ⟨S_, .f32⟩
  | .hbm, ⟨59, _⟩ => ⟨S2560x500, .f32⟩
  | .hbm, ⟨60, _⟩ => ⟨S2560x500, .f32⟩
  | .hbm, ⟨61, _⟩ => ⟨S2560x1000, .f32⟩
  | .hbm, ⟨62, _⟩ => ⟨S2560x256, .f32⟩
  | .hbm, ⟨63, _⟩ => ⟨S_, .f32⟩
  | .hbm, ⟨64, _⟩ => ⟨S2560x256, .f32⟩
  | .hbm, ⟨65, _⟩ => ⟨S2560x256, .f32⟩
  | .hbm, ⟨66, _⟩ => ⟨S12800x10x500, .f32⟩
  | .hbm, ⟨67, _⟩ => ⟨S_, .f32⟩
  | .hbm, ⟨68, _⟩ => ⟨S12800x500, .f32⟩
  | .hbm, ⟨69, _⟩ => ⟨S_, .f32⟩
  | .hbm, ⟨70, _⟩ => ⟨S12800x500, .f32⟩
  | .hbm, ⟨71, _⟩ => ⟨S12800x500, .f32⟩
  | .hbm, ⟨72, _⟩ => ⟨S12800x1000, .f32⟩
  | .hbm, ⟨73, _⟩ => ⟨S12800x256, .f32⟩
  | .hbm, ⟨74, _⟩ => ⟨S_, .f32⟩
  | .hbm, ⟨75, _⟩ => ⟨S12800x256, .f32⟩
  | .hbm, ⟨76, _⟩ => ⟨S12800x256, .f32⟩
  | .hbm, ⟨77, _⟩ => ⟨S256x10x256, .f32⟩
  | .hbm, ⟨78, _⟩ => ⟨S_, .f32⟩
  | .hbm, ⟨79, _⟩ => ⟨S256x256, .f32⟩
  | .hbm, ⟨80, _⟩ => ⟨S_, .f32⟩
  | .hbm, ⟨81, _⟩ => ⟨S256x256, .f32⟩
  | .hbm, ⟨82, _⟩ => ⟨S256x256, .f32⟩
  | .hbm, ⟨83, _⟩ => ⟨S256x512, .f32⟩
  | .hbm, ⟨84, _⟩ => ⟨S256x128, .f32⟩
  | .hbm, ⟨85, _⟩ => ⟨S_, .f32⟩
  | .hbm, ⟨86, _⟩ => ⟨S256x128, .f32⟩
  | .hbm, ⟨87, _⟩ => ⟨S256x128, .f32⟩
  | .hbm, ⟨88, _⟩ => ⟨S256x10x256, .f32⟩
  | .hbm, ⟨89, _⟩ => ⟨S_, .f32⟩
  | .hbm, ⟨90, _⟩ => ⟨S256x256, .f32⟩
  | .hbm, ⟨91, _⟩ => ⟨S_, .f32⟩
  | .hbm, ⟨92, _⟩ => ⟨S256x256, .f32⟩
  | .hbm, ⟨93, _⟩ => ⟨S256x256, .f32⟩
  | .hbm, ⟨94, _⟩ => ⟨S256x512, .f32⟩
  | .hbm, ⟨95, _⟩ => ⟨S256x128, .f32⟩
  | .hbm, ⟨96, _⟩ => ⟨S_, .f32⟩
  | .hbm, ⟨97, _⟩ => ⟨S256x128, .f32⟩
  | .hbm, ⟨98, _⟩ => ⟨S256x128, .f32⟩
  | .hbm, ⟨99, _⟩ => ⟨S1280x10x256, .f32⟩
  | .hbm, ⟨100, _⟩ => ⟨S_, .f32⟩
  | .hbm, ⟨101, _⟩ => ⟨S1280x256, .f32⟩
  | .hbm, ⟨102, _⟩ => ⟨S_, .f32⟩
  | .hbm, ⟨103, _⟩ => ⟨S1280x256, .f32⟩
  | .hbm, ⟨104, _⟩ => ⟨S1280x256, .f32⟩
  | .hbm, ⟨105, _⟩ => ⟨S1280x512, .f32⟩
  | .hbm, ⟨106, _⟩ => ⟨S1280x128, .f32⟩
  | .hbm, ⟨107, _⟩ => ⟨S_, .f32⟩
  | .hbm, ⟨108, _⟩ => ⟨S1280x128, .f32⟩
  | .hbm, ⟨109, _⟩ => ⟨S1280x128, .f32⟩
  | _, _ => ⟨S256x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call3_cst : Ref sig .tc := ⟨.hbm, 52, rfl⟩
abbrev main_call3_v0 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call4_cst : Ref sig .tc := ⟨.hbm, 63, rfl⟩
abbrev main_call4_v0 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call5_cst : Ref sig .tc := ⟨.hbm, 74, rfl⟩
abbrev main_call5_v0 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_v43 : Ref sig .tc := ⟨.hbm, 79, rfl⟩
abbrev main_cst_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call6_cst : Ref sig .tc := ⟨.hbm, 85, rfl⟩
abbrev main_call6_v0 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call7_cst : Ref sig .tc := ⟨.hbm, 96, rfl⟩
abbrev main_call7_v0 : Ref sig .tc := ⟨.hbm, 97, rfl⟩
abbrev main_v55 : Ref sig .tc := ⟨.hbm, 98, rfl⟩
abbrev main_v56 : Ref sig .tc := ⟨.hbm, 99, rfl⟩
abbrev main_cst_15 : Ref sig .tc := ⟨.hbm, 100, rfl⟩
abbrev main_v57 : Ref sig .tc := ⟨.hbm, 101, rfl⟩
abbrev main_cst_16 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call8_cst : Ref sig .tc := ⟨.hbm, 107, rfl⟩
abbrev main_call8_v0 : Ref sig .tc := ⟨.hbm, 108, rfl⟩
abbrev main_v62 : Ref sig .tc := ⟨.hbm, 109, rfl⟩

abbrev nD : Nat := 1
abbrev τ : Topo := Topo.v7x

variable {F : FTy → Type} [FloatOps F]

class Facts₀ : Prop where
  shapeCasts_S2560x500_S256x10x500 : S2560x500.ShapeCasts S256x10x500
  reducesTo_S256x10x500_S256x500_d1 : S256x10x500.ReducesTo [1] S256x500
  h_S_ : 0 < S_.numel
  bcast_S_S256x500 : S_.BroadcastsInDim S256x500 (![] : Fin 0 → Fin S256x500.rank)
  concatenates_S256x500_S256x500_S256x1000_d1 : Shape.Concatenates [S256x500, S256x500] S256x1000 1
  bcast_S_S256x256 : S_.BroadcastsInDim S256x256 (![] : Fin 0 → Fin S256x256.rank)
  shapeCasts_S12800x500_S1280x10x500 : S12800x500.ShapeCasts S1280x10x500
  reducesTo_S1280x10x500_S1280x500_d1 : S1280x10x500.ReducesTo [1] S1280x500
  bcast_S_S1280x500 : S_.BroadcastsInDim S1280x500 (![] : Fin 0 → Fin S1280x500.rank)
  concatenates_S1280x500_S1280x500_S1280x1000_d1 : Shape.Concatenates [S1280x500, S1280x500] S1280x1000 1
  bcast_S_S1280x256 : S_.BroadcastsInDim S1280x256 (![] : Fin 0 → Fin S1280x256.rank)
  shapeCasts_S25600x500_S2560x10x500 : S25600x500.ShapeCasts S2560x10x500
  reducesTo_S2560x10x500_S2560x500_d1 : S2560x10x500.ReducesTo [1] S2560x500
  bcast_S_S2560x500 : S_.BroadcastsInDim S2560x500 (![] : Fin 0 → Fin S2560x500.rank)
  concatenates_S2560x500_S2560x500_S2560x1000_d1 : Shape.Concatenates [S2560x500, S2560x500] S2560x1000 1
  bcast_S_S2560x256 : S_.BroadcastsInDim S2560x256 (![] : Fin 0 → Fin S2560x256.rank)
  shapeCasts_S128000x500_S12800x10x500 : S128000x500.ShapeCasts S12800x10x500
  reducesTo_S12800x10x500_S12800x500_d1 : S12800x10x500.ReducesTo [1] S12800x500
  bcast_S_S12800x500 : S_.BroadcastsInDim S12800x500 (![] : Fin 0 → Fin S12800x500.rank)
  concatenates_S12800x500_S12800x500_S12800x1000_d1 : Shape.Concatenates [S12800x500, S12800x500] S12800x1000 1
  bcast_S_S12800x256 : S_.BroadcastsInDim S12800x256 (![] : Fin 0 → Fin S12800x256.rank)
  shapeCasts_S2560x256_S256x10x256 : S2560x256.ShapeCasts S256x10x256
  reducesTo_S256x10x256_S256x256_d1 : S256x10x256.ReducesTo [1] S256x256
  concatenates_S256x256_S256x256_S256x512_d1 : Shape.Concatenates [S256x256, S256x256] S256x512 1
  bcast_S_S256x128 : S_.BroadcastsInDim S256x128 (![] : Fin 0 → Fin S256x128.rank)
  shapeCasts_S12800x256_S1280x10x256 : S12800x256.ShapeCasts S1280x10x256
  reducesTo_S1280x10x256_S1280x256_d1 : S1280x10x256.ReducesTo [1] S1280x256
  concatenates_S1280x256_S1280x256_S1280x512_d1 : Shape.Concatenates [S1280x256, S1280x256] S1280x512 1
  bcast_S_S1280x128 : S_.BroadcastsInDim S1280x128 (![] : Fin 0 → Fin S1280x128.rank)
  dot_S256x1000_S1000x256_S256x256_1_0_0_1_n_n_wf : DotDims.WF S256x1000 S1000x256 S256x256 [1] [0] [0] [1] [] []
  dot_S1280x1000_S1000x256_S1280x256_1_0_0_1_n_n_wf : DotDims.WF S1280x1000 S1000x256 S1280x256 [1] [0] [0] [1] [] []
  dot_S2560x1000_S1000x256_S2560x256_1_0_0_1_n_n_wf : DotDims.WF S2560x1000 S1000x256 S2560x256 [1] [0] [0] [1] [] []
  dot_S12800x1000_S1000x256_S12800x256_1_0_0_1_n_n_wf : DotDims.WF S12800x1000 S1000x256 S12800x256 [1] [0] [0] [1] [] []
  dot_S256x512_S512x128_S256x128_1_0_0_1_n_n_wf : DotDims.WF S256x512 S512x128 S256x128 [1] [0] [0] [1] [] []
  dot_S1280x512_S512x128_S1280x128_1_0_0_1_n_n_wf : DotDims.WF S1280x512 S512x128 S1280x128 [1] [0] [0] [1] [] []

variable [Facts₀]

def dot_S256x1000_S1000x256_S256x256_1_0_0_1_n_n : DotDims S256x1000 S1000x256 S256x256 where
  lhsContracting := [1]
  rhsContracting := [0]
  lhsNonContracting := [0]
  rhsNonContracting := [1]
  lhsBatch := []
  rhsBatch := []
  wf := dot_S256x1000_S1000x256_S256x256_1_0_0_1_n_n_wf
def dot_S1280x1000_S1000x256_S1280x256_1_0_0_1_n_n : DotDims S1280x1000 S1000x256 S1280x256 where
  lhsContracting := [1]
  rhsContracting := [0]
  lhsNonContracting := [0]
  rhsNonContracting := [1]
  lhsBatch := []
  rhsBatch := []
  wf := dot_S1280x1000_S1000x256_S1280x256_1_0_0_1_n_n_wf
def dot_S2560x1000_S1000x256_S2560x256_1_0_0_1_n_n : DotDims S2560x1000 S1000x256 S2560x256 where
  lhsContracting := [1]
  rhsContracting := [0]
  lhsNonContracting := [0]
  rhsNonContracting := [1]
  lhsBatch := []
  rhsBatch := []
  wf := dot_S2560x1000_S1000x256_S2560x256_1_0_0_1_n_n_wf
def dot_S12800x1000_S1000x256_S12800x256_1_0_0_1_n_n : DotDims S12800x1000 S1000x256 S12800x256 where
  lhsContracting := [1]
  rhsContracting := [0]
  lhsNonContracting := [0]
  rhsNonContracting := [1]
  lhsBatch := []
  rhsBatch := []
  wf := dot_S12800x1000_S1000x256_S12800x256_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S1280x512_S512x128_S1280x128_1_0_0_1_n_n : DotDims S1280x512 S512x128 S1280x128 where
  lhsContracting := [1]
  rhsContracting := [0]
  lhsNonContracting := [0]
  rhsNonContracting := [1]
  lhsBatch := []
  rhsBatch := []
  wf := dot_S1280x512_S512x128_S1280x128_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Spec.lean ====
/-
  One mean-aggregator layer read at an entry, at the ideal instance.

  A layer takes a node's own feature row `s` (length `d`), the rows `x a` of its `n` sampled neighbours and a
  weight matrix `w` with `K = d + d` rows, and returns, in column `j`,

      max (∑ k < K, (s ‖ mean) k * w k j) 0,        mean k' = (∑ a < n, x a k') / 10,

  where `s ‖ mean` is the row `s` followed by the neighbours' mean row. Over the extended reals the kernel's body
  (a lane sum over the neighbour axis, a division by the literal ten, a concatenation along the feature axis, a
  matrix product into a zero accumulator after a change of float format, a maximum with zero) and the host's
  spelling of the same layer (a reduce-add from zero, a division by the broadcast ten, the same concatenation, a
  `dot_general`, a maximum with the broadcast zero) both read, at row `p` and column `j`, as this one function of
  row `p` of their operands: nothing but the order of writing differs, so no law of arithmetic is used.
-/
import Idealize.ShloMosaic.Lib.ValueIdx
import Idealize.ShloMosaic.Lib.Pipeline.Value
import Idealize.ShloMosaic.Lib.IdealHost
import Idealize.ShloMosaic.PureOps.Ideal.Laws
import proofs.«107810_j58789512348198_1_alg».proof.Proof.LibDot2

noncomputable section

namespace Cert.Sage

open Idealize.ShloMosaic Idealize.ShloMosaic.ValueIdx

/-- The neighbour count ten, as the float word both programs divide by. -/
def ten : EReal := Ideal.ofBits .f32 0x41200000#32

/-- Entry `k` of the row `s ‖ mean`: the node's own entry for `k < d`, the neighbours' mean of entry `k - d` after. -/
def catRow {n d : Nat} (s : Fin d → EReal) (x : Fin n → Fin d → EReal) (k : Nat) : EReal :=
  if h : k < d then s ⟨k, h⟩
  else if h' : k - d < d then Ideal.div (∑ a : Fin n, x a ⟨k - d, h'⟩) ten
  else 0

/-- One output row of the layer, column `j`. -/
def rowLayer {n d K o : Nat} (s : Fin d → EReal) (x : Fin n → Fin d → EReal) (w : Fin K → Fin o → EReal) (j : Fin o) : EReal :=
  max (∑ k : Fin K, catRow s x k.val * w k j) 0

/-- Two arrays of `d` columns concatenated along the column axis, read at `(p, k)`: the first array for `k < d`, the
    second at column `k - d` after. -/
theorem concat_at {R d K : Nat} (hK : K = d + d)
    (hcat : Shape.Concatenates [(⟨2, ![R, d]⟩ : Shape), ⟨2, ![R, d]⟩] ⟨2, ![R, K]⟩ 1)
    (u v : (⟨2, ![R, d]⟩ : Shape).Idx → EReal) (p : Fin R) (k : Fin K) :
    concatenate (⟨2, ![R, K]⟩ : Shape) 1 [⟨⟨2, ![R, d]⟩, u⟩, ⟨⟨2, ![R, d]⟩, v⟩] hcat (ix2 p k)
      = if h : k.val < d then u (ix2 p ⟨k.val, h⟩)
        else if h' : k.val - d < d then v (ix2 p ⟨k.val - d, h'⟩) else 0 := by
  by_cases h : k.val < d
  · rw [dif_pos h]
    exact concatenate_pair_apply_left 1 u v hcat (ix2 p k) rfl (ix2 p ⟨k.val, h⟩)
      (fun b => by match b with | ⟨0, _⟩ => rfl | ⟨1, _⟩ => rfl)
  · have h' : k.val - d < d := by have := k.isLt; omega
    rw [dif_neg h, dif_pos h']
    exact concatenate_pair_apply_right 1 u v hcat (ix2 p k) rfl rfl (ix2 p ⟨k.val - d, h'⟩)
      (fun b hb => by
        match b with
        | ⟨0, _⟩ => rfl
        | ⟨1, _⟩ => exact absurd rfl hb)
      (by show (k.val - d) + d = k.val; omega)

/-- The kernel's neighbour mean at `(p, k)`: the lane sum over the neighbour axis, divided by ten. -/
theorem kmean_at {R n d : Nat} (hred : Shape.Reduces (⟨3, ![R, n, d]⟩ : Shape) [1] ⟨2, ![R, d]⟩)
    (hφ : FKind.Formats FTy.f32) (hacc : (0x00000000#32 : BitVec FTy.f32.bits) = FKind.add.neutral .f32 hφ)
    (x : FVec Ideal ⟨3, ![R, n, d]⟩ .f32) (p : Fin R) (k : Fin d) :
    divf (multiReduction .add [1] ⟨2, ![R, d]⟩ x 0x00000000#32 hred hφ hacc)
        (broadcast ⟨2, ![R, d]⟩ (Scalar.ofBits (F := Ideal) .f32 0x41200000#32)) (ix2 p k)
      = Ideal.div (∑ a : Fin n, x (ix3 p a k)) ten := by
  rw [divf_apply, Ideal.multiReduction_add_single]
  refine congrArg₂ Ideal.div (Finset.sum_congr rfl fun a _ => congrArg x (funext fun c => Fin.ext ?_)) rfl
  match c with
  | ⟨0, _⟩ => rfl
  | ⟨1, _⟩ => rfl
  | ⟨2, _⟩ => rfl

/-- The host's neighbour mean at `(p, k)`: the reduce-add from zero over the neighbour axis, divided by the
    broadcast ten. -/
theorem hmean_at {R n d : Nat} (hTo : Shape.ReducesTo (⟨3, ![R, n, d]⟩ : Shape) [1] ⟨2, ![R, d]⟩)
    (hred : Shape.Reduces (⟨3, ![R, n, d]⟩ : Shape) [1] ⟨2, ![R, d]⟩)
    (hu : 0 < (⟨0, ![]⟩ : Shape).numel) (hb : (⟨0, ![]⟩ : Shape).BroadcastsInDim ⟨2, ![R, d]⟩ ![])
    (x : FVec Ideal ⟨3, ![R, n, d]⟩ .f32) (p : Fin R) (k : Fin d) :
    Host.divf (Host.reduceAdd x (constant (F := Ideal) ⟨0, ![]⟩ .f32 0x00000000#32) hTo hu)
        (broadcastInDim ⟨2, ![R, d]⟩ ![] hb (constant (F := Ideal) ⟨0, ![]⟩ .f32 0x41200000#32)) (ix2 p k)
      = Ideal.div (∑ a : Fin n, x (ix3 p a k)) ten := by
  show Ideal.div (Ideal.hostReduceAdd hTo x (Ideal.ofBits .f32 0x00000000#32) (ix2 p k))
      (broadcastInDim ⟨2, ![R, d]⟩ ![] hb (constant (F := Ideal) ⟨0, ![]⟩ .f32 0x41200000#32) (ix2 p k)) = _
  rw [Ideal.hostReduceAdd_single hTo hred, broadcastInDim_scalar_apply, Ideal.ofBits_zero_f32, zero_add]
  refine congrArg₂ Ideal.div (Finset.sum_congr rfl fun a _ => congrArg x (funext fun c => Fin.ext ?_)) rfl
  match c with
  | ⟨0, _⟩ => rfl
  | ⟨1, _⟩ => rfl
  | ⟨2, _⟩ => rfl

/-- The kernel's product and rectifier at `(p, j)`: the operands' change of float format is the identity, the
    product into the zero accumulator the plain sum over the contracted axis. -/
theorem kdot_relu_at {R K o : Nat} (D : DotDims ⟨2, ![R, K]⟩ ⟨2, ![K, o]⟩ ⟨2, ![R, o]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (hlt : FTy.bf16.bits < FTy.f32.bits)
    (C : FVec Ideal ⟨2, ![R, K]⟩ .f32) (w : FVec Ideal ⟨2, ![K, o]⟩ .f32) (p : Fin R) (j : Fin o) :
    maximumf (matmul D none (truncf .bf16 C hlt) (truncf .bf16 w hlt) (constant (F := Ideal) ⟨2, ![R, o]⟩ .f32 0x00000000#32))
        (broadcast ⟨2, ![R, o]⟩ (Scalar.ofBits (F := Ideal) .f32 0x00000000#32)) (ix2 p j)
      = max (∑ a : Fin K, C (ix2 p a) * w (ix2 a j)) 0 := by
  rw [maximumf_apply, Cert.Lib.Dot2.matmul_zero_ix2 D none hr hs hl0 hl1 hr0 hr1]
  exact congrArg (max _) Ideal.ofBits_zero_f32

/-- The host's product and rectifier at `(p, j)`. -/
theorem hdot_relu_at {R K o : Nat} (D : DotDims ⟨2, ![R, K]⟩ ⟨2, ![K, o]⟩ ⟨2, ![R, o]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (hb : (⟨0, ![]⟩ : Shape).BroadcastsInDim ⟨2, ![R, o]⟩ ![])
    (C : FVec Ideal ⟨2, ![R, K]⟩ .f32) (w : FVec Ideal ⟨2, ![K, o]⟩ .f32) (p : Fin R) (j : Fin o) :
    maximumf (Host.dotGeneral D none C w)
        (broadcastInDim ⟨2, ![R, o]⟩ ![] hb (constant (F := Ideal) ⟨0, ![]⟩ .f32 0x00000000#32)) (ix2 p j)
      = max (∑ a : Fin K, C (ix2 p a) * w (ix2 a j)) 0 := by
  rw [maximumf_apply, broadcastInDim_scalar_apply]
  show max (FloatOps.dotGeneral D none .single C w (ix2 p j)) (Ideal.ofBits .f32 0x00000000#32) = _
  rw [Ideal.dotGeneral_apply, Cert.Lib.Dot2.contraction_ix2 D hr hs hl0 hl1 hr0 hr1, Ideal.ofBits_zero_f32]

/-- The kernel's body, as one expression of its three loaded blocks, at `(p, j)`: the layer's row function of row
    `p` of the node block and of the neighbour block, and of the weights. -/
theorem kernel_at {R n d K o : Nat} (hK : K = d + d)
    (hred : Shape.Reduces (⟨3, ![R, n, d]⟩ : Shape) [1] ⟨2, ![R, d]⟩)
    (hφ : FKind.Formats FTy.f32) (hacc : (0x00000000#32 : BitVec FTy.f32.bits) = FKind.add.neutral .f32 hφ)
    (hcat : Shape.Concatenates [(⟨2, ![R, d]⟩ : Shape), ⟨2, ![R, d]⟩] ⟨2, ![R, K]⟩ 1)
    (D : DotDims ⟨2, ![R, K]⟩ ⟨2, ![K, o]⟩ ⟨2, ![R, o]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (hlt : FTy.bf16.bits < FTy.f32.bits)
    (x0 : FVec Ideal ⟨2, ![R, d]⟩ .f32) (x1 : FVec Ideal ⟨3, ![R, n, d]⟩ .f32) (x2 : FVec Ideal ⟨2, ![K, o]⟩ .f32)
    (p : Fin R) (j : Fin o) :
    maximumf (matmul D none
          (truncf .bf16 (concatenate (⟨2, ![R, K]⟩ : Shape) 1
            [⟨⟨2, ![R, d]⟩, x0⟩,
             ⟨⟨2, ![R, d]⟩, divf (multiReduction .add [1] ⟨2, ![R, d]⟩ x1 0x00000000#32 hred hφ hacc)
                (broadcast ⟨2, ![R, d]⟩ (Scalar.ofBits (F := Ideal) .f32 0x41200000#32))⟩] hcat) hlt)
          (truncf .bf16 x2 hlt) (constant (F := Ideal) ⟨2, ![R, o]⟩ .f32 0x00000000#32))
        (broadcast ⟨2, ![R, o]⟩ (Scalar.ofBits (F := Ideal) .f32 0x00000000#32)) (ix2 p j)
      = rowLayer (fun k => x0 (ix2 p k)) (fun a k => x1 (ix3 p a k)) (fun k j => x2 (ix2 k j)) j := by
  rw [kdot_relu_at D hr hs hl0 hl1 hr0 hr1 hlt]
  unfold rowLayer
  refine congrArg (max · 0) (Finset.sum_congr rfl fun k _ => congrArg (· * _) ?_)
  rw [concat_at hK hcat]
  unfold catRow
  by_cases h : k.val < d
  · rw [dif_pos h, dif_pos h]
  · have h' : k.val - d < d := by have := k.isLt; omega
    rw [dif_neg h, dif_neg h, dif_pos h', dif_pos h', kmean_at hred hφ hacc]

/-- The host's layer, as one expression of its three operands, at `(r, j)`: the same row function of row `r`. -/
theorem ref_at {R n d K o : Nat} (hK : K = d + d)
    (hTo : Shape.ReducesTo (⟨3, ![R, n, d]⟩ : Shape) [1] ⟨2, ![R, d]⟩)
    (hred : Shape.Reduces (⟨3, ![R, n, d]⟩ : Shape) [1] ⟨2, ![R, d]⟩)
    (hu : 0 < (⟨0, ![]⟩ : Shape).numel) (hbS : (⟨0, ![]⟩ : Shape).BroadcastsInDim ⟨2, ![R, d]⟩ ![])
    (hcat : Shape.Concatenates [(⟨2, ![R, d]⟩ : Shape), ⟨2, ![R, d]⟩] ⟨2, ![R, K]⟩ 1)
    (D : DotDims ⟨2, ![R, K]⟩ ⟨2, ![K, o]⟩ ⟨2, ![R, o]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (hbO : (⟨0, ![]⟩ : Shape).BroadcastsInDim ⟨2, ![R, o]⟩ ![])
    (a : FVec Ideal ⟨2, ![R, d]⟩ .f32) (x : FVec Ideal ⟨3, ![R, n, d]⟩ .f32) (w : FVec Ideal ⟨2, ![K, o]⟩ .f32)
    (r : Fin R) (j : Fin o) :
    maximumf (Host.dotGeneral D none
          (concatenate (⟨2, ![R, K]⟩ : Shape) 1
            [⟨⟨2, ![R, d]⟩, a⟩,
             ⟨⟨2, ![R, d]⟩, Host.divf (Host.reduceAdd x (constant (F := Ideal) ⟨0, ![]⟩ .f32 0x00000000#32) hTo hu)
                (broadcastInDim ⟨2, ![R, d]⟩ ![] hbS (constant (F := Ideal) ⟨0, ![]⟩ .f32 0x41200000#32))⟩] hcat) w)
        (broadcastInDim ⟨2, ![R, o]⟩ ![] hbO (constant (F := Ideal) ⟨0, ![]⟩ .f32 0x00000000#32)) (ix2 r j)
      = rowLayer (fun k => a (ix2 r k)) (fun q k => x (ix3 r q k)) (fun k j => w (ix2 k j)) j := by
  rw [hdot_relu_at D hr hs hl0 hl1 hr0 hr1 hbO]
  unfold rowLayer
  refine congrArg (max · 0) (Finset.sum_congr rfl fun k _ => congrArg (· * _) ?_)
  rw [concat_at hK hcat]
  unfold catRow
  by_cases h : k.val < d
  · rw [dif_pos h, dif_pos h]
  · have h' : k.val - d < d := by have := k.isLt; omega
    rw [dif_neg h, dif_neg h, dif_pos h', dif_pos h', hmean_at hTo hred hu hbS]

/-- The host's spelling of one layer over whole arrays: the reduce-add of the neighbour array from zero over the
    neighbour axis, divided by the broadcast ten, concatenated after the node array along the feature axis,
    multiplied into the weights, and the maximum with the broadcast zero. -/
def hostLayer {R n d K o : Nat}
    (hTo : Shape.ReducesTo (⟨3, ![R, n, d]⟩ : Shape) [1] ⟨2, ![R, d]⟩)
    (hu : 0 < (⟨0, ![]⟩ : Shape).numel) (hbS : (⟨0, ![]⟩ : Shape).BroadcastsInDim ⟨2, ![R, d]⟩ ![])
    (hcat : Shape.Concatenates [(⟨2, ![R, d]⟩ : Shape), ⟨2, ![R, d]⟩] ⟨2, ![R, K]⟩ 1)
    (D : DotDims ⟨2, ![R, K]⟩ ⟨2, ![K, o]⟩ ⟨2, ![R, o]⟩)
    (hbO : (⟨0, ![]⟩ : Shape).BroadcastsInDim ⟨2, ![R, o]⟩ ![])
    (a : FVec Ideal ⟨2, ![R, d]⟩ .f32) (x : FVec Ideal ⟨3, ![R, n, d]⟩ .f32) (w : FVec Ideal ⟨2, ![K, o]⟩ .f32) :
    FVec Ideal ⟨2, ![R, o]⟩ .f32 :=
  maximumf (Host.dotGeneral D none
        (concatenate (⟨2, ![R, K]⟩ : Shape) 1
          [⟨⟨2, ![R, d]⟩, a⟩,
           ⟨⟨2, ![R, d]⟩, Host.divf (Host.reduceAdd x (constant (F := Ideal) ⟨0, ![]⟩ .f32 0x00000000#32) hTo hu)
              (broadcastInDim ⟨2, ![R, d]⟩ ![] hbS (constant (F := Ideal) ⟨0, ![]⟩ .f32 0x41200000#32))⟩] hcat) w)
      (broadcastInDim ⟨2, ![R, o]⟩ ![] hbO (constant (F := Ideal) ⟨0, ![]⟩ .f32 0x00000000#32))

/-- The host's layer over whole arrays at `(r, j)` is the row function of row `r` of its operands. -/
theorem hostLayer_at {R n d K o : Nat} (hK : K = d + d)
    (hTo : Shape.ReducesTo (⟨3, ![R, n, d]⟩ : Shape) [1] ⟨2, ![R, d]⟩)
    (hred : Shape.Reduces (⟨3, ![R, n, d]⟩ : Shape) [1] ⟨2, ![R, d]⟩)
    (hu : 0 < (⟨0, ![]⟩ : Shape).numel) (hbS : (⟨0, ![]⟩ : Shape).BroadcastsInDim ⟨2, ![R, d]⟩ ![])
    (hcat : Shape.Concatenates [(⟨2, ![R, d]⟩ : Shape), ⟨2, ![R, d]⟩] ⟨2, ![R, K]⟩ 1)
    (D : DotDims ⟨2, ![R, K]⟩ ⟨2, ![K, o]⟩ ⟨2, ![R, o]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (hbO : (⟨0, ![]⟩ : Shape).BroadcastsInDim ⟨2, ![R, o]⟩ ![])
    (a : FVec Ideal ⟨2, ![R, d]⟩ .f32) (x : FVec Ideal ⟨3, ![R, n, d]⟩ .f32) (w : FVec Ideal ⟨2, ![K, o]⟩ .f32)
    (r : Fin R) (j : Fin o) :
    hostLayer hTo hu hbS hcat D hbO a x w (ix2 r j)
      = rowLayer (fun k => a (ix2 r k)) (fun q k => x (ix3 r q k)) (fun k j => w (ix2 k j)) j :=
  ref_at hK hTo hred hu hbS hcat D hr hs hl0 hl1 hr0 hr1 hbO a x w r j

end Cert.Sage

end
-- ==== Proof.LayerSizes.lean ====
import proofs.«107810_j58789512348198_1_alg».proof.Proof.Gen.ReferenceIdeal.Read
import proofs.«107810_j58789512348198_1_alg».proof.Proof.Spec

set_option maxRecDepth 16384

noncomputable section

namespace Cert.Sage.Layers

open Idealize.ShloMosaic Idealize.ShloMosaic.ValueIdx
open Cert.ReferenceIdeal Cert.ReferenceIdeal.Facts₀ Cert.ReferenceIdeal.Facts Cert.Sage

/-- The layer over 256 node rows of 500 features, 256 outputs. -/
abbrev L256x500 (a : FVec Ideal S256x500 .f32) (x : FVec Ideal S256x10x500 .f32) (w : FVec Ideal S1000x256 .f32) :
    FVec Ideal S256x256 .f32 :=
  hostLayer (R := 256) (n := 10) (d := 500) (K := 1000) (o := 256) reducesTo_S256x10x500_S256x500_d1 h_S_ bcast_S_S256x500
    concatenates_S256x500_S256x500_S256x1000_d1 dot_S256x1000_S1000x256_S256x256_1_0_0_1_n_n bcast_S_S256x256 a x w

theorem L256x500_at (a : FVec Ideal S256x500 .f32) (x : FVec Ideal S256x10x500 .f32) (w : FVec Ideal S1000x256 .f32)
    (r : Fin 256) (j : Fin 256) :
    L256x500 a x w (ix2 r j) = rowLayer (fun k => a (ix2 r k)) (fun q k => x (ix3 r q k)) (fun k j => w (ix2 k j)) j :=
  hostLayer_at rfl _ (by decide) _ _ _ _ rfl rfl Read.lhs_main_v5_0 Read.lhs_main_v5_1 Read.rhs_main_v5_0 Read.rhs_main_v5_1 _ a x w r j

/-- The layer over 1280 node rows of 500 features, 256 outputs. -/
abbrev L1280x500 (a : FVec Ideal S1280x500 .f32) (x : FVec Ideal S1280x10x500 .f32) (w : FVec Ideal S1000x256 .f32) :
    FVec Ideal S1280x256 .f32 :=
  hostLayer (R := 1280) (n := 10) (d := 500) (K := 1000) (o := 256) reducesTo_S1280x10x500_S1280x500_d1 h_S_ bcast_S_S1280x500
    concatenates_S1280x500_S1280x500_S1280x1000_d1 dot_S1280x1000_S1000x256_S1280x256_1_0_0_1_n_n bcast_S_S1280x256 a x w

theorem L1280x500_at (a : FVec Ideal S1280x500 .f32) (x : FVec Ideal S1280x10x500 .f32) (w : FVec Ideal S1000x256 .f32)
    (r : Fin 1280) (j : Fin 256) :
    L1280x500 a x w (ix2 r j) = rowLayer (fun k => a (ix2 r k)) (fun q k => x (ix3 r q k)) (fun k j => w (ix2 k j)) j :=
  hostLayer_at rfl _ (by decide) _ _ _ _ rfl rfl Read.lhs_main_v19_0 Read.lhs_main_v19_1 Read.rhs_main_v19_0 Read.rhs_main_v19_1 _ a x w r j

/-- The layer over 2560 node rows of 500 features, 256 outputs. -/
abbrev L2560x500 (a : FVec Ideal S2560x500 .f32) (x : FVec Ideal S2560x10x500 .f32) (w : FVec Ideal S1000x256 .f32) :
    FVec Ideal S2560x256 .f32 :=
  hostLayer (R := 2560) (n := 10) (d := 500) (K := 1000) (o := 256) reducesTo_S2560x10x500_S2560x500_d1 h_S_ bcast_S_S2560x500
    concatenates_S2560x500_S2560x500_S2560x1000_d1 dot_S2560x1000_S1000x256_S2560x256_1_0_0_1_n_n bcast_S_S2560x256 a x w

theorem L2560x500_at (a : FVec Ideal S2560x500 .f32) (x : FVec Ideal S2560x10x500 .f32) (w : FVec Ideal S1000x256 .f32)
    (r : Fin 2560) (j : Fin 256) :
    L2560x500 a x w (ix2 r j) = rowLayer (fun k => a (ix2 r k)) (fun q k => x (ix3 r q k)) (fun k j => w (ix2 k j)) j :=
  hostLayer_at rfl _ (by decide) _ _ _ _ rfl rfl Read.lhs_main_v26_0 Read.lhs_main_v26_1 Read.rhs_main_v26_0 Read.rhs_main_v26_1 _ a x w r j

/-- The layer over 12800 node rows of 500 features, 256 outputs. -/
abbrev L12800x500 (a : FVec Ideal S12800x500 .f32) (x : FVec Ideal S12800x10x500 .f32) (w : FVec Ideal S1000x256 .f32) :
    FVec Ideal S12800x256 .f32 :=
  hostLayer (R := 12800) (n := 10) (d := 500) (K := 1000) (o := 256) reducesTo_S12800x10x500_S12800x500_d1 h_S_ bcast_S_S12800x500
    concatenates_S12800x500_S12800x500_S12800x1000_d1 dot_S12800x1000_S1000x256_S12800x256_1_0_0_1_n_n bcast_S_S12800x256 a x w

theorem L12800x500_at (a : FVec Ideal S12800x500 .f32) (x : FVec Ideal S12800x10x500 .f32) (w : FVec Ideal S1000x256 .f32)
    (r : Fin 12800) (j : Fin 256) :
    L12800x500 a x w (ix2 r j) = rowLayer (fun k => a (ix2 r k)) (fun q k => x (ix3 r q k)) (fun k j => w (ix2 k j)) j :=
  hostLayer_at rfl _ (by decide) _ _ _ _ rfl rfl Read.lhs_main_v40_0 Read.lhs_main_v40_1 Read.rhs_main_v40_0 Read.rhs_main_v40_1 _ a x w r j

/-- The layer over 256 node rows of 256 features, 128 outputs. -/
abbrev L256x256 (a : FVec Ideal S256x256 .f32) (x : FVec Ideal S256x10x256 .f32) (w : FVec Ideal S512x128 .f32) :
    FVec Ideal S256x128 .f32 :=
  hostLayer (R := 256) (n := 10) (d := 256) (K := 512) (o := 128) reducesTo_S256x10x256_S256x256_d1 h_S_ bcast_S_S256x256
    concatenates_S256x256_S256x256_S256x512_d1 dot_S256x512_S512x128_S256x128_1_0_0_1_n_n bcast_S_S256x128 a x w

theorem L256x256_at (a : FVec Ideal S256x256 .f32) (x : FVec Ideal S256x10x256 .f32) (w : FVec Ideal S512x128 .f32)
    (r : Fin 256) (j : Fin 128) :
    L256x256 a x w (ix2 r j) = rowLayer (fun k => a (ix2 r k)) (fun q k => x (ix3 r q k)) (fun k j => w (ix2 k j)) j :=
  hostLayer_at rfl _ (by decide) _ _ _ _ rfl rfl Read.lhs_main_v47_0 Read.lhs_main_v47_1 Read.rhs_main_v47_0 Read.rhs_main_v47_1 _ a x w r j

/-- The layer over 1280 node rows of 256 features, 128 outputs. -/
abbrev L1280x256 (a : FVec Ideal S1280x256 .f32) (x : FVec Ideal S1280x10x256 .f32) (w : FVec Ideal S512x128 .f32) :
    FVec Ideal S1280x128 .f32 :=
  hostLayer (R := 1280) (n := 10) (d := 256) (K := 512) (o := 128) reducesTo_S1280x10x256_S1280x256_d1 h_S_ bcast_S_S1280x256
    concatenates_S1280x256_S1280x256_S1280x512_d1 dot_S1280x512_S512x128_S1280x128_1_0_0_1_n_n bcast_S_S1280x128 a x w

theorem L1280x256_at (a : FVec Ideal S1280x256 .f32) (x : FVec Ideal S1280x10x256 .f32) (w : FVec Ideal S512x128 .f32)
    (r : Fin 1280) (j : Fin 128) :
    L1280x256 a x w (ix2 r j) = rowLayer (fun k => a (ix2 r k)) (fun q k => x (ix3 r q k)) (fun k j => w (ix2 k j)) j :=
  hostLayer_at rfl _ (by decide) _ _ _ _ rfl rfl Read.lhs_main_v61_0 Read.lhs_main_v61_1 Read.rhs_main_v61_0 Read.rhs_main_v61_1 _ a x w r j

end Cert.Sage.Layers

end
-- ==== Proof.Layers.lean ====
/-
  The host program's layers, as functions of whole arrays, and its three results as compositions of them.

  The host program applies one layer nine times: six times with the first weight matrix (1000 rows: 500 node
  features and 500 mean features), to the positive source, positive destination and negative node sets at
  hop 0 and hop 1, and three times with the second (512 rows), to the hop-0 outputs with the hop-1 outputs as
  their neighbours. Each application regroups the neighbour array ten rows per node first. (The layer at each of its
  six sizes, and its reading at an entry, are Proof/LayerSizes.lean.)
-/
import proofs.«107810_j58789512348198_1_alg».proof.Proof.LayerSizes

set_option maxRecDepth 16384

noncomputable section

namespace Cert.Sage.Layers

open Idealize.ShloMosaic Idealize.ShloMosaic.ValueIdx
open Cert.ReferenceIdeal Cert.ReferenceIdeal.Facts₀ Cert.ReferenceIdeal.Facts Cert.Sage

/-! ## The three results -/

/-- Hop 0 of a positive node set: 256 nodes, their 2560 neighbour rows regrouped ten per node. -/
abbrev hop0 (a : FVec Ideal S256x500 .f32) (b : FVec Ideal S2560x500 .f32) (w : FVec Ideal S1000x256 .f32) : FVec Ideal S256x256 .f32 :=
  L256x500 a (shapeCast S256x10x500 b shapeCasts_S2560x500_S256x10x500) w
/-- Hop 1 of a positive node set: 2560 nodes, 25600 neighbour rows. -/
abbrev hop1 (a : FVec Ideal S2560x500 .f32) (b : FVec Ideal S25600x500 .f32) (w : FVec Ideal S1000x256 .f32) : FVec Ideal S2560x256 .f32 :=
  L2560x500 a (shapeCast S2560x10x500 b shapeCasts_S25600x500_S2560x10x500) w
/-- Hop 0 of the negative node set: 1280 nodes, 12800 neighbour rows. -/
abbrev nhop0 (a : FVec Ideal S1280x500 .f32) (b : FVec Ideal S12800x500 .f32) (w : FVec Ideal S1000x256 .f32) : FVec Ideal S1280x256 .f32 :=
  L1280x500 a (shapeCast S1280x10x500 b shapeCasts_S12800x500_S1280x10x500) w
/-- Hop 1 of the negative node set: 12800 nodes, 128000 neighbour rows. -/
abbrev nhop1 (a : FVec Ideal S12800x500 .f32) (b : FVec Ideal S128000x500 .f32) (w : FVec Ideal S1000x256 .f32) : FVec Ideal S12800x256 .f32 :=
  L12800x500 a (shapeCast S12800x10x500 b shapeCasts_S128000x500_S12800x10x500) w

/-- The second layer of a positive node set: the hop-0 outputs with the hop-1 outputs as their neighbours. -/
def posResult (a0 : FVec Ideal S256x500 .f32) (a1 : FVec Ideal S2560x500 .f32) (a2 : FVec Ideal S25600x500 .f32)
    (w0 : FVec Ideal S1000x256 .f32) (w1 : FVec Ideal S512x128 .f32) : FVec Ideal S256x128 .f32 :=
  L256x256 (hop0 a0 a1 w0) (shapeCast S256x10x256 (hop1 a1 a2 w0) shapeCasts_S2560x256_S256x10x256) w1

/-- The second layer of the negative node set. -/
def negResult (a0 : FVec Ideal S1280x500 .f32) (a1 : FVec Ideal S12800x500 .f32) (a2 : FVec Ideal S128000x500 .f32)
    (w0 : FVec Ideal S1000x256 .f32) (w1 : FVec Ideal S512x128 .f32) : FVec Ideal S1280x128 .f32 :=
  L1280x256 (nhop0 a0 a1 w0) (shapeCast S1280x10x256 (nhop1 a1 a2 w0) shapeCasts_S12800x256_S1280x10x256) w1

end Cert.Sage.Layers

end
-- ==== Proof.Region0.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S256x256.Idx) (q : dot_S256x1000_S1000x256_S256x256_1_0_0_1_n_n.contr.Idx) :
    (dot_S256x1000_S1000x256_S256x256_1_0_0_1_n_n.lhsIdx i q 0).val = (i 0).val := by
  unfold DotDims.lhsIdx
  rw [dif_neg (show ¬(0 : Fin S256x1000.rank) ∈ dot_S256x1000_S1000x256_S256x256_1_0_0_1_n_n.lhsBatch by decide), dif_pos (show (0 : Fin S256x1000.rank) ∈ dot_S256x1000_S1000x256_S256x256_1_0_0_1_n_n.lhsNonContracting by decide)]
  rfl
theorem klhs_1 (i : S256x256.Idx) (q : dot_S256x1000_S1000x256_S256x256_1_0_0_1_n_n.contr.Idx) :
    (dot_S256x1000_S1000x256_S256x256_1_0_0_1_n_n.lhsIdx i q 1).val = (q ⟨0, by decide⟩).val :=
  dot_S256x1000_S1000x256_S256x256_1_0_0_1_n_n.lhsIdx_val_of_single rfl i q
theorem krhs_0 (i : S256x256.Idx) (q : dot_S256x1000_S1000x256_S256x256_1_0_0_1_n_n.contr.Idx) :
    (dot_S256x1000_S1000x256_S256x256_1_0_0_1_n_n.rhsIdx i q 0).val = (q ⟨0, by decide⟩).val :=
  dot_S256x1000_S1000x256_S256x256_1_0_0_1_n_n.rhsIdx_val_of_single rfl i q
theorem krhs_1 (i : S256x256.Idx) (q : dot_S256x1000_S1000x256_S256x256_1_0_0_1_n_n.contr.Idx) :
    (dot_S256x1000_S1000x256_S256x256_1_0_0_1_n_n.rhsIdx i q 1).val = (i 1).val := by
  unfold DotDims.rhsIdx
  rw [dif_neg (show ¬(1 : Fin S1000x256.rank) ∈ dot_S256x1000_S1000x256_S256x256_1_0_0_1_n_n.rhsBatch by decide), dif_pos (show (1 : Fin S1000x256.rank) ∈ dot_S256x1000_S1000x256_S256x256_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S256x500 .f32) (x1 : Vec Ideal S256x10x500 .f32) (x2 : Vec Ideal S1000x256 .f32)
    (p : Fin 256) (j : Fin 256) :
    k0_pay1 (F := Ideal) x1 x0 x2 (ix2 p j)
      = rowLayer (fun k => x0 (ix2 p k)) (fun a k => x1 (ix3 p a k)) (fun k j => x2 (ix2 k j)) j := by
  have hc1 : ∀ (v : Vec Ideal S256x10x500 .f32) (h : S256x10x500.ShapeCasts S256x10x500), shapeCast S256x10x500 v h = v :=
    fun v h => shapeCast_self v h
  have hc0 : ∀ (v : Vec Ideal S256x500 .f32) (h : S256x500.ShapeCasts S256x500), shapeCast S256x500 v h = v :=
    fun v h => shapeCast_self v h
  unfold k0_pay1
  rw [hc1]
  try rw [hc0]
  exact kernel_at (R := 256) (n := 10) (d := 500) (K := 1000) (o := 256) rfl reduces_S256x10x500_S256x500 (.inl rfl) rfl
    concatenates_S256x500_S256x500_S256x1000_d1 dot_S256x1000_S1000x256_S256x256_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L256x500

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The number of grid points. -/
theorem grid_n : cfg0.N = 1 := rfl

/-- Row `p` of point `t`'s blocks is row `p` of block `t` of the arrays. -/
def row (t : Fin cfg0.N) (p : Fin 256) : Fin 256 :=
  ⟨t.val * 256 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg0.N) : Vec Ideal S256x500 .f32 := iblk0 V c 0 t
abbrev neighBlk (c : Dev nD) (t : Fin cfg0.N) : Vec Ideal S256x10x500 .f32 := iblk0 V c 1 t
abbrev wBlk (c : Dev nD) (t : Fin cfg0.N) : Vec Ideal S1000x256 .f32 := iblk0 V c 2 t
abbrev selfArr (c : Dev nD) : FVec Ideal S256x500 .f32 := V c main_arg0
abbrev neighArr (c : Dev nD) : FVec Ideal S256x10x500 .f32 := V c main_v0
abbrev wArr (c : Dev nD) : FVec Ideal S1000x256 .f32 := V c main_arg9

theorem selfBlk_at (c : Dev nD) (t : Fin cfg0.N) (p : Fin 256) (k : Fin 500) :
    selfBlk V c t (ix2 p k) = selfArr V c (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 256 + 1 * p.val = t.val * 256 + p.val; omega
  | ⟨1, _⟩ => show win0_0.index t (1 : Fin 2) * 500 + 1 * k.val = k.val; omega

theorem neighBlk_at (c : Dev nD) (t : Fin cfg0.N) (p : Fin 256) (a : Fin 10) (k : Fin 500) :
    neighBlk V c t (ix3 p a k) = neighArr V c (ix3 (row t p) a k) := by
  obtain ⟨-, -, e0, e1, e2, -⟩ := idx_facts t
  show V c main_v0 (((cfg0.win 1).blk t).view.emb (ix3 p a k)) = V c main_v0 (ix3 (row t p) a k)
  refine congrArg (V c main_v0) (funext fun b => Fin.ext ?_)
  match b with
  | ⟨0, _⟩ => show win0_1.index t (0 : Fin 3) * 256 + 1 * p.val = t.val * 256 + p.val; omega
  | ⟨1, _⟩ => show win0_1.index t (1 : Fin 3) * 10 + 1 * a.val = a.val; omega
  | ⟨2, _⟩ => show win0_1.index t (2 : Fin 3) * 500 + 1 * k.val = k.val; omega

theorem wBlk_at (c : Dev nD) (t : Fin cfg0.N) (k : Fin 1000) (j : Fin 256) :
    wBlk V c t (ix2 k j) = wArr V c (ix2 k j) := by
  obtain ⟨-, -, -, -, -, e0, e1, -⟩ := idx_facts t
  show V c main_arg9 (((cfg0.win 2).blk t).view.emb (ix2 k j)) = V c main_arg9 (ix2 k j)
  refine congrArg (V c main_arg9) (funext fun b => Fin.ext ?_)
  match b with
  | ⟨0, _⟩ => show win0_2.index t (0 : Fin 2) * 1000 + 1 * k.val = k.val; omega
  | ⟨1, _⟩ => show win0_2.index t (1 : Fin 2) * 256 + 1 * j.val = j.val; omega

/-! ## What a point writes back, and the array when the region ends -/

/-- Point `t` writes back block `t` of the host's layer of the arrays the region found. -/
theorem flushed_eq (c : Dev nD) (t : Fin cfg0.N) :
    (dat0 V c).flushed 3 t
      = ((cfg0.win 3).blk t).view.read (Elt Ideal) (L (selfArr V c) (neighArr V c) (wArr V c)) := by
  show (cfg0.win 3).cut (grid0.coords t) ((dat0 V c).after 3 t) = _
  rw [after0_3]
  unfold out0_3
  rw [View.canon_unit_zero hz]
  simp only [View.ld_unit_zero (S := S256x10x500) hz3, View.ld_unit_zero (S := S256x500) hz, View.ld_unit_zero (S := S1000x256) hz]
  funext y
  obtain ⟨p, j, rfl⟩ : ∃ (p : Fin 256) (j : Fin 256), y = ix2 p j := ⟨y 0, y 1, eq_ix2 y⟩
  obtain ⟨-, -, -, -, -, -, -, e0, e1⟩ := idx_facts t
  have hemb : ((cfg0.win 3).blk t).view.emb (ix2 p j) = ix2 (row t p) j := funext fun b => Fin.ext (by
    match b with
    | ⟨0, _⟩ => show win0_3.index t (0 : Fin 2) * 256 + 1 * p.val = t.val * 256 + p.val; omega
    | ⟨1, _⟩ => show win0_3.index t (1 : Fin 2) * 256 + 1 * j.val = j.val; omega)
  show k0_pay1 (neighBlk V c t) (selfBlk V c t) (wBlk V c t) (ix2 p j)
      = L (selfArr V c) (neighArr V c) (wArr V c) (((cfg0.win 3).blk t).view.emb (ix2 p j))
  rw [hemb]
  refine (pay_at (selfBlk V c t) (neighBlk V c t) (wBlk V c t) p j).trans ?_
  refine Eq.trans ?_ (Cert.Sage.Layers.L256x500_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg0.N) (i : S256x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v1).slice (win0_3.rect t)).set ↔ _
  rw [View.set_slice_whole, Rect.mem_set_unit]
  exact Iff.rfl

/-- The blocks tile the output: a row lies in the block of the point its quotient by the block height names. -/
theorem cover (i : S256x256.Idx) :
    ∃ t : Fin cfg0.N, (cfg0.win 3).flush t = true ∧ i ∈ ((cfg0.win 3).blk t).view.set := by
  have hi0 : (i 0).val < 256 := (i 0).isLt
  have hi1 : (i 1).val < 256 := (i 1).isLt
  let t : Fin cfg0.N := ⟨(i 0).val / 256, by rw [grid_n]; omega⟩
  obtain ⟨-, -, -, -, -, -, -, e0, e1⟩ := idx_facts t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- So the output array ends holding the host's layer of the arrays the region found. -/
theorem out_eq (c : Dev nD) :
    (dat0 V c).arrAt 3 cfg0.N = L (selfArr V c) (neighArr V c) (wArr V c) :=
  (dat0 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W1 m ρ c (Proc.devRef .tc main_v0) : FVec Ideal S256x10x500 .f32)
      = shapeCast Cert.ReferenceIdeal.S256x10x500 (W0 m ρ c (Proc.devRef .tc main_arg1) : FVec Ideal S2560x500 .f32)
          Cert.ReferenceIdeal.Facts₀.shapeCasts_S2560x500_S256x10x500 := by
  show StableHlo.after hostOps0 (W0 m ρ c) (Proc.devRef .tc main_v0) = _
  dsimp only [hostOps0]
  after_results
  rfl

/-- The call writes only its output array: its inputs end as it found them, and no other buffer is one of its arrays. -/
theorem reg_keep (c : Dev nD) (b : Ref sig .tc) (hb : b ≠ main_v1) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_v0
  · subst h1; exact (W2_arr m ρ c 1).trans (((dat0 (V1 m ρ) c).arrAt_in 1 rfl _).trans (A_eq0 (V1 m ρ) c 1))
  by_cases h2 : b = main_arg9
  · subst h2; exact (W2_arr m ρ c 2).trans (((dat0 (V1 m ρ) c).arrAt_in 2 rfl _).trans (A_eq0 (V1 m ρ) c 2))
  exact W2_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W2 m ρ c (Proc.devRef .tc main_v1) : FVec Ideal S256x256 .f32)
      = L (W1 m ρ c (Proc.devRef .tc main_arg0)) (W1 m ρ c (Proc.devRef .tc main_v0)) (W1 m ρ c (Proc.devRef .tc main_arg9)) :=
  (W2_arr m ρ c 3).trans (out_eq (V1 m ρ) c)

end Cert.KernelIdeal.Region0

end
-- ==== Proof.Region1.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S256x256.Idx) (q : dot_S256x1000_S1000x256_S256x256_1_0_0_1_n_n.contr.Idx) :
    (dot_S256x1000_S1000x256_S256x256_1_0_0_1_n_n.lhsIdx i q 0).val = (i 0).val := by
  unfold DotDims.lhsIdx
  rw [dif_neg (show ¬(0 : Fin S256x1000.rank) ∈ dot_S256x1000_S1000x256_S256x256_1_0_0_1_n_n.lhsBatch by decide), dif_pos (show (0 : Fin S256x1000.rank) ∈ dot_S256x1000_S1000x256_S256x256_1_0_0_1_n_n.lhsNonContracting by decide)]
  rfl
theorem klhs_1 (i : S256x256.Idx) (q : dot_S256x1000_S1000x256_S256x256_1_0_0_1_n_n.contr.Idx) :
    (dot_S256x1000_S1000x256_S256x256_1_0_0_1_n_n.lhsIdx i q 1).val = (q ⟨0, by decide⟩).val :=
  dot_S256x1000_S1000x256_S256x256_1_0_0_1_n_n.lhsIdx_val_of_single rfl i q
theorem krhs_0 (i : S256x256.Idx) (q : dot_S256x1000_S1000x256_S256x256_1_0_0_1_n_n.contr.Idx) :
    (dot_S256x1000_S1000x256_S256x256_1_0_0_1_n_n.rhsIdx i q 0).val = (q ⟨0, by decide⟩).val :=
  dot_S256x1000_S1000x256_S256x256_1_0_0_1_n_n.rhsIdx_val_of_single rfl i q
theorem krhs_1 (i : S256x256.Idx) (q : dot_S256x1000_S1000x256_S256x256_1_0_0_1_n_n.contr.Idx) :
    (dot_S256x1000_S1000x256_S256x256_1_0_0_1_n_n.rhsIdx i q 1).val = (i 1).val := by
  unfold DotDims.rhsIdx
  rw [dif_neg (show ¬(1 : Fin S1000x256.rank) ∈ dot_S256x1000_S1000x256_S256x256_1_0_0_1_n_n.rhsBatch by decide), dif_pos (show (1 : Fin S1000x256.rank) ∈ dot_S256x1000_S1000x256_S256x256_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S256x500 .f32) (x1 : Vec Ideal S256x10x500 .f32) (x2 : Vec Ideal S1000x256 .f32)
    (p : Fin 256) (j : Fin 256) :
    k1_pay1 (F := Ideal) x1 x0 x2 (ix2 p j)
      = rowLayer (fun k => x0 (ix2 p k)) (fun a k => x1 (ix3 p a k)) (fun k j => x2 (ix2 k j)) j := by
  have hc1 : ∀ (v : Vec Ideal S256x10x500 .f32) (h : S256x10x500.ShapeCasts S256x10x500), shapeCast S256x10x500 v h = v :=
    fun v h => shapeCast_self v h
  have hc0 : ∀ (v : Vec Ideal S256x500 .f32) (h : S256x500.ShapeCasts S256x500), shapeCast S256x500 v h = v :=
    fun v h => shapeCast_self v h
  unfold k1_pay1
  rw [hc1]
  try rw [hc0]
  exact kernel_at (R := 256) (n := 10) (d := 500) (K := 1000) (o := 256) rfl reduces_S256x10x500_S256x500 (.inl rfl) rfl
    concatenates_S256x500_S256x500_S256x1000_d1 dot_S256x1000_S1000x256_S256x256_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L256x500

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The number of grid points. -/
theorem grid_n : cfg1.N = 1 := rfl

/-- Row `p` of point `t`'s blocks is row `p` of block `t` of the arrays. -/
def row (t : Fin cfg1.N) (p : Fin 256) : Fin 256 :=
  ⟨t.val * 256 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg1.N) : Vec Ideal S256x500 .f32 := iblk1 V c 0 t
abbrev neighBlk (c : Dev nD) (t : Fin cfg1.N) : Vec Ideal S256x10x500 .f32 := iblk1 V c 1 t
abbrev wBlk (c : Dev nD) (t : Fin cfg1.N) : Vec Ideal S1000x256 .f32 := iblk1 V c 2 t
abbrev selfArr (c : Dev nD) : FVec Ideal S256x500 .f32 := V c main_arg3
abbrev neighArr (c : Dev nD) : FVec Ideal S256x10x500 .f32 := V c main_v2
abbrev wArr (c : Dev nD) : FVec Ideal S1000x256 .f32 := V c main_arg9

theorem selfBlk_at (c : Dev nD) (t : Fin cfg1.N) (p : Fin 256) (k : Fin 500) :
    selfBlk V c t (ix2 p k) = selfArr V c (ix2 (row t p) k) := by
  obtain ⟨e0, e1, -⟩ := idx_facts t
  show V c main_arg3 (((cfg1.win 0).blk t).view.emb (ix2 p k)) = V c main_arg3 (ix2 (row t p) k)
  refine congrArg (V c main_arg3) (funext fun a => Fin.ext ?_)
  match a with
  | ⟨0, _⟩ => show win1_0.index t (0 : Fin 2) * 256 + 1 * p.val = t.val * 256 + p.val; omega
  | ⟨1, _⟩ => show win1_0.index t (1 : Fin 2) * 500 + 1 * k.val = k.val; omega

theorem neighBlk_at (c : Dev nD) (t : Fin cfg1.N) (p : Fin 256) (a : Fin 10) (k : Fin 500) :
    neighBlk V c t (ix3 p a k) = neighArr V c (ix3 (row t p) a k) := by
  obtain ⟨-, -, e0, e1, e2, -⟩ := idx_facts t
  show V c main_v2 (((cfg1.win 1).blk t).view.emb (ix3 p a k)) = V c main_v2 (ix3 (row t p) a k)
  refine congrArg (V c main_v2) (funext fun b => Fin.ext ?_)
  match b with
  | ⟨0, _⟩ => show win1_1.index t (0 : Fin 3) * 256 + 1 * p.val = t.val * 256 + p.val; omega
  | ⟨1, _⟩ => show win1_1.index t (1 : Fin 3) * 10 + 1 * a.val = a.val; omega
  | ⟨2, _⟩ => show win1_1.index t (2 : Fin 3) * 500 + 1 * k.val = k.val; omega

theorem wBlk_at (c : Dev nD) (t : Fin cfg1.N) (k : Fin 1000) (j : Fin 256) :
    wBlk V c t (ix2 k j) = wArr V c (ix2 k j) := by
  obtain ⟨-, -, -, -, -, e0, e1, -⟩ := idx_facts t
  show V c main_arg9 (((cfg1.win 2).blk t).view.emb (ix2 k j)) = V c main_arg9 (ix2 k j)
  refine congrArg (V c main_arg9) (funext fun b => Fin.ext ?_)
  match b with
  | ⟨0, _⟩ => show win1_2.index t (0 : Fin 2) * 1000 + 1 * k.val = k.val; omega
  | ⟨1, _⟩ => show win1_2.index t (1 : Fin 2) * 256 + 1 * j.val = j.val; omega

/-! ## What a point writes back, and the array when the region ends -/

/-- Point `t` writes back block `t` of the host's layer of the arrays the region found. -/
theorem flushed_eq (c : Dev nD) (t : Fin cfg1.N) :
    (dat1 V c).flushed 3 t
      = ((cfg1.win 3).blk t).view.read (Elt Ideal) (L (selfArr V c) (neighArr V c) (wArr V c)) := by
  show (cfg1.win 3).cut (grid1.coords t) ((dat1 V c).after 3 t) = _
  rw [after1_3]
  unfold out1_3
  rw [View.canon_unit_zero hz]
  simp only [View.ld_unit_zero (S := S256x10x500) hz3, View.ld_unit_zero (S := S256x500) hz, View.ld_unit_zero (S := S1000x256) hz]
  funext y
  obtain ⟨p, j, rfl⟩ : ∃ (p : Fin 256) (j : Fin 256), y = ix2 p j := ⟨y 0, y 1, eq_ix2 y⟩
  obtain ⟨-, -, -, -, -, -, -, e0, e1⟩ := idx_facts t
  have hemb : ((cfg1.win 3).blk t).view.emb (ix2 p j) = ix2 (row t p) j := funext fun b => Fin.ext (by
    match b with
    | ⟨0, _⟩ => show win1_3.index t (0 : Fin 2) * 256 + 1 * p.val = t.val * 256 + p.val; omega
    | ⟨1, _⟩ => show win1_3.index t (1 : Fin 2) * 256 + 1 * j.val = j.val; omega)
  show k1_pay1 (neighBlk V c t) (selfBlk V c t) (wBlk V c t) (ix2 p j)
      = L (selfArr V c) (neighArr V c) (wArr V c) (((cfg1.win 3).blk t).view.emb (ix2 p j))
  rw [hemb]
  refine (pay_at (selfBlk V c t) (neighBlk V c t) (wBlk V c t) p j).trans ?_
  refine Eq.trans ?_ (Cert.Sage.Layers.L256x500_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg1.N) (i : S256x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v3).slice (win1_3.rect t)).set ↔ _
  rw [View.set_slice_whole, Rect.mem_set_unit]
  exact Iff.rfl

/-- The blocks tile the output: a row lies in the block of the point its quotient by the block height names. -/
theorem cover (i : S256x256.Idx) :
    ∃ t : Fin cfg1.N, (cfg1.win 3).flush t = true ∧ i ∈ ((cfg1.win 3).blk t).view.set := by
  have hi0 : (i 0).val < 256 := (i 0).isLt
  have hi1 : (i 1).val < 256 := (i 1).isLt
  let t : Fin cfg1.N := ⟨(i 0).val / 256, by rw [grid_n]; omega⟩
  obtain ⟨-, -, -, -, -, -, -, e0, e1⟩ := idx_facts t
  have ht : t.val = (i 0).val / 256 := rfl
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

/-- So the output array ends holding the host's layer of the arrays the region found. -/
theorem out_eq (c : Dev nD) :
    (dat1 V c).arrAt 3 cfg1.N = L (selfArr V c) (neighArr V c) (wArr V c) :=
  (dat1 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W3 m ρ c (Proc.devRef .tc main_v2) : FVec Ideal S256x10x500 .f32)
      = shapeCast Cert.ReferenceIdeal.S256x10x500 (W2 m ρ c (Proc.devRef .tc main_arg4) : FVec Ideal S2560x500 .f32)
          Cert.ReferenceIdeal.Facts₀.shapeCasts_S2560x500_S256x10x500 := by
  show StableHlo.after hostOps1 (W2 m ρ c) (Proc.devRef .tc main_v2) = _
  dsimp only [hostOps1]
  after_results
  rfl

/-- The call writes only its output array: its inputs end as it found them, and no other buffer is one of its arrays. -/
theorem reg_keep (c : Dev nD) (b : Ref sig .tc) (hb : b ≠ main_v3) :
    W4 m ρ c (Proc.devRef .tc b) = W3 m ρ c (Proc.devRef .tc b) := by
  by_cases h0 : b = main_arg3
  · subst h0; exact (W4_arr m ρ c 0).trans (((dat1 (V3 m ρ) c).arrAt_in 0 rfl _).trans (A_eq1 (V3 m ρ) c 0))
  by_cases h1 : b = main_v2
  · subst h1; exact (W4_arr m ρ c 1).trans (((dat1 (V3 m ρ) c).arrAt_in 1 rfl _).trans (A_eq1 (V3 m ρ) c 1))
  by_cases h2 : b = main_arg9
  · subst h2; exact (W4_arr m ρ c 2).trans (((dat1 (V3 m ρ) c).arrAt_in 2 rfl _).trans (A_eq1 (V3 m ρ) c 2))
  exact W4_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W4 m ρ c (Proc.devRef .tc main_v3) : FVec Ideal S256x256 .f32)
      = L (W3 m ρ c (Proc.devRef .tc main_arg3)) (W3 m ρ c (Proc.devRef .tc main_v2)) (W3 m ρ c (Proc.devRef .tc main_arg9)) :=
  (W4_arr m ρ c 3).trans (out_eq (V3 m ρ) c)

end Cert.KernelIdeal.Region1

end
-- ==== Proof.Region2.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S640x256.Idx) (q : dot_S640x1000_S1000x256_S640x256_1_0_0_1_n_n.contr.Idx) :
    (dot_S640x1000_S1000x256_S640x256_1_0_0_1_n_n.lhsIdx i q 0).val = (i 0).val := by
  unfold DotDims.lhsIdx
  rw [dif_neg (show ¬(0 : Fin S640x1000.rank) ∈ dot_S640x1000_S1000x256_S640x256_1_0_0_1_n_n.lhsBatch by decide), dif_pos (show (0 : Fin S640x1000.rank) ∈ dot_S640x1000_S1000x256_S640x256_1_0_0_1_n_n.lhsNonContracting by decide)]
  rfl
theorem klhs_1 (i : S640x256.Idx) (q : dot_S640x1000_S1000x256_S640x256_1_0_0_1_n_n.contr.Idx) :
    (dot_S640x1000_S1000x256_S640x256_1_0_0_1_n_n.lhsIdx i q 1).val = (q ⟨0, by decide⟩).val :=
  dot_S640x1000_S1000x256_S640x256_1_0_0_1_n_n.lhsIdx_val_of_single rfl i q
theorem krhs_0 (i : S640x256.Idx) (q : dot_S640x1000_S1000x256_S640x256_1_0_0_1_n_n.contr.Idx) :
    (dot_S640x1000_S1000x256_S640x256_1_0_0_1_n_n.rhsIdx i q 0).val = (q ⟨0, by decide⟩).val :=
  dot_S640x1000_S1000x256_S640x256_1_0_0_1_n_n.rhsIdx_val_of_single rfl i q
theorem krhs_1 (i : S640x256.Idx) (q : dot_S640x1000_S1000x256_S640x256_1_0_0_1_n_n.contr.Idx) :
    (dot_S640x1000_S1000x256_S640x256_1_0_0_1_n_n.rhsIdx i q 1).val = (i 1).val := by
  unfold DotDims.rhsIdx
  rw [dif_neg (show ¬(1 : Fin S1000x256.rank) ∈ dot_S640x1000_S1000x256_S640x256_1_0_0_1_n_n.rhsBatch by decide), dif_pos (show (1 : Fin S1000x256.rank) ∈ dot_S640x1000_S1000x256_S640x256_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S640x500 .f32) (x1 : Vec Ideal S640x10x500 .f32) (x2 : Vec Ideal S1000x256 .f32)
    (p : Fin 640) (j : Fin 256) :
    k2_pay1 (F := Ideal) x1 x0 x2 (ix2 p j)
      = rowLayer (fun k => x0 (ix2 p k)) (fun a k => x1 (ix3 p a k)) (fun k j => x2 (ix2 k j)) j := by
  have hc1 : ∀ (v : Vec Ideal S640x10x500 .f32) (h : S640x10x500.ShapeCasts S640x10x500), shapeCast S640x10x500 v h = v :=
    fun v h => shapeCast_self v h
  have hc0 : ∀ (v : Vec Ideal S640x500 .f32) (h : S640x500.ShapeCasts S640x500), shapeCast S640x500 v h = v :=
    fun v h => shapeCast_self v h
  unfold k2_pay1
  rw [hc1]
  try rw [hc0]
  exact kernel_at (R := 640) (n := 10) (d := 500) (K := 1000) (o := 256) rfl reduces_S640x10x500_S640x500 (.inl rfl) rfl
    concatenates_S640x500_S640x500_S640x1000_d1 dot_S640x1000_S1000x256_S640x256_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L1280x500

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The number of grid points. -/
theorem grid_n : cfg2.N = 2 := rfl

/-- Row `p` of point `t`'s blocks is row `p` of block `t` of the arrays. -/
def row (t : Fin cfg2.N) (p : Fin 640) : Fin 1280 :=
  ⟨t.val * 640 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg2.N) : Vec Ideal S640x500 .f32 := iblk2 V c 0 t
abbrev neighBlk (c : Dev nD) (t : Fin cfg2.N) : Vec Ideal S640x10x500 .f32 := iblk2 V c 1 t
abbrev wBlk (c : Dev nD) (t : Fin cfg2.N) : Vec Ideal S1000x256 .f32 := iblk2 V c 2 t
abbrev selfArr (c : Dev nD) : FVec Ideal S1280x500 .f32 := V c main_arg6
abbrev neighArr (c : Dev nD) : FVec Ideal S1280x10x500 .f32 := V c main_v4
abbrev wArr (c : Dev nD) : FVec Ideal S1000x256 .f32 := V c main_arg9

theorem selfBlk_at (c : Dev nD) (t : Fin cfg2.N) (p : Fin 640) (k : Fin 500) :
    selfBlk V c t (ix2 p k) = selfArr V c (ix2 (row t p) k) := by
  obtain ⟨e0, e1, -⟩ := idx_facts t
  show V c main_arg6 (((cfg2.win 0).blk t).view.emb (ix2 p k)) = V c main_arg6 (ix2 (row t p) k)
  refine congrArg (V c main_arg6) (funext fun a => Fin.ext ?_)
  match a with
  | ⟨0, _⟩ => show win2_0.index t (0 : Fin 2) * 640 + 1 * p.val = t.val * 640 + p.val; omega
  | ⟨1, _⟩ => show win2_0.index t (1 : Fin 2) * 500 + 1 * k.val = k.val; omega

theorem neighBlk_at (c : Dev nD) (t : Fin cfg2.N) (p : Fin 640) (a : Fin 10) (k : Fin 500) :
    neighBlk V c t (ix3 p a k) = neighArr V c (ix3 (row t p) a k) := by
  obtain ⟨-, -, e0, e1, e2, -⟩ := idx_facts t
  show V c main_v4 (((cfg2.win 1).blk t).view.emb (ix3 p a k)) = V c main_v4 (ix3 (row t p) a k)
  refine congrArg (V c main_v4) (funext fun b => Fin.ext ?_)
  match b with
  | ⟨0, _⟩ => show win2_1.index t (0 : Fin 3) * 640 + 1 * p.val = t.val * 640 + p.val; omega
  | ⟨1, _⟩ => show win2_1.index t (1 : Fin 3) * 10 + 1 * a.val = a.val; omega
  | ⟨2, _⟩ => show win2_1.index t (2 : Fin 3) * 500 + 1 * k.val = k.val; omega

theorem wBlk_at (c : Dev nD) (t : Fin cfg2.N) (k : Fin 1000) (j : Fin 256) :
    wBlk V c t (ix2 k j) = wArr V c (ix2 k j) := by
  obtain ⟨-, -, -, -, -, e0, e1, -⟩ := idx_facts t
  show V c main_arg9 (((cfg2.win 2).blk t).view.emb (ix2 k j)) = V c main_arg9 (ix2 k j)
  refine congrArg (V c main_arg9) (funext fun b => Fin.ext ?_)
  match b with
  | ⟨0, _⟩ => show win2_2.index t (0 : Fin 2) * 1000 + 1 * k.val = k.val; omega
  | ⟨1, _⟩ => show win2_2.index t (1 : Fin 2) * 256 + 1 * j.val = j.val; omega

/-! ## What a point writes back, and the array when the region ends -/

/-- Point `t` writes back block `t` of the host's layer of the arrays the region found. -/
theorem flushed_eq (c : Dev nD) (t : Fin cfg2.N) :
    (dat2 V c).flushed 3 t
      = ((cfg2.win 3).blk t).view.read (Elt Ideal) (L (selfArr V c) (neighArr V c) (wArr V c)) := by
  show (cfg2.win 3).cut (grid2.coords t) ((dat2 V c).after 3 t) = _
  rw [after2_3]
  unfold out2_3
  rw [View.canon_unit_zero hz]
  simp only [View.ld_unit_zero (S := S640x10x500) hz3, View.ld_unit_zero (S := S640x500) hz, View.ld_unit_zero (S := S1000x256) hz]
  funext y
  obtain ⟨p, j, rfl⟩ : ∃ (p : Fin 640) (j : Fin 256), y = ix2 p j := ⟨y 0, y 1, eq_ix2 y⟩
  obtain ⟨-, -, -, -, -, -, -, e0, e1⟩ := idx_facts t
  have hemb : ((cfg2.win 3).blk t).view.emb (ix2 p j) = ix2 (row t p) j := funext fun b => Fin.ext (by
    match b with
    | ⟨0, _⟩ => show win2_3.index t (0 : Fin 2) * 640 + 1 * p.val = t.val * 640 + p.val; omega
    | ⟨1, _⟩ => show win2_3.index t (1 : Fin 2) * 256 + 1 * j.val = j.val; omega)
  show k2_pay1 (neighBlk V c t) (selfBlk V c t) (wBlk V c t) (ix2 p j)
      = L (selfArr V c) (neighArr V c) (wArr V c) (((cfg2.win 3).blk t).view.emb (ix2 p j))
  rw [hemb]
  refine (pay_at (selfBlk V c t) (neighBlk V c t) (wBlk V c t) p j).trans ?_
  refine Eq.trans ?_ (Cert.Sage.Layers.L1280x500_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg2.N) (i : S1280x256.Idx) :
    i ∈ ((cfg2.win 3).blk t).view.set ↔ ∀ a : Fin 2, win2_3.index t a * S640x256.size a ≤ (i a).val ∧ (i a).val < win2_3.index t a * S640x256.size a + S640x256.size a := by
  show i ∈ ((View.whole main_v5).slice (win2_3.rect t)).set ↔ _
  rw [View.set_slice_whole, Rect.mem_set_unit]
  exact Iff.rfl

/-- The blocks tile the output: a row lies in the block of the point its quotient by the block height names. -/
theorem cover (i : S1280x256.Idx) :
    ∃ t : Fin cfg2.N, (cfg2.win 3).flush t = true ∧ i ∈ ((cfg2.win 3).blk t).view.set := by
  have hi0 : (i 0).val < 1280 := (i 0).isLt
  have hi1 : (i 1).val < 256 := (i 1).isLt
  let t : Fin cfg2.N := ⟨(i 0).val / 640, by rw [grid_n]; omega⟩
  obtain ⟨-, -, -, -, -, -, -, e0, e1⟩ := idx_facts t
  have ht : t.val = (i 0).val / 640 := rfl
  refine ⟨t, flush2_3 t, ?_⟩
  rw [mem_blk]
  intro a
  match a with
  | ⟨0, _⟩ => show win2_3.index t (0 : Fin 2) * 640 ≤ (i 0).val ∧ (i 0).val < win2_3.index t (0 : Fin 2) * 640 + 640; omega
  | ⟨1, _⟩ => show win2_3.index t (1 : Fin 2) * 256 ≤ (i 1).val ∧ (i 1).val < win2_3.index t (1 : Fin 2) * 256 + 256; omega

/-- So the output array ends holding the host's layer of the arrays the region found. -/
theorem out_eq (c : Dev nD) :
    (dat2 V c).arrAt 3 cfg2.N = L (selfArr V c) (neighArr V c) (wArr V c) :=
  (dat2 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v4) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W5 m ρ c (Proc.devRef .tc main_v4) : FVec Ideal S1280x10x500 .f32)
      = shapeCast Cert.ReferenceIdeal.S1280x10x500 (W4 m ρ c (Proc.devRef .tc main_arg7) : FVec Ideal S12800x500 .f32)
          Cert.ReferenceIdeal.Facts₀.shapeCasts_S12800x500_S1280x10x500 := by
  show StableHlo.after hostOps2 (W4 m ρ c) (Proc.devRef .tc main_v4) = _
  dsimp only [hostOps2]
  after_results
  rfl

/-- The call writes only its output array: its inputs end as it found them, and no other buffer is one of its arrays. -/
theorem reg_keep (c : Dev nD) (b : Ref sig .tc) (hb : b ≠ main_v5) :
    W6 m ρ c (Proc.devRef .tc b) = W5 m ρ c (Proc.devRef .tc b) := by
  by_cases h0 : b = main_arg6
  · subst h0; exact (W6_arr m ρ c 0).trans (((dat2 (V5 m ρ) c).arrAt_in 0 rfl _).trans (A_eq2 (V5 m ρ) c 0))
  by_cases h1 : b = main_v4
  · subst h1; exact (W6_arr m ρ c 1).trans (((dat2 (V5 m ρ) c).arrAt_in 1 rfl _).trans (A_eq2 (V5 m ρ) c 1))
  by_cases h2 : b = main_arg9
  · subst h2; exact (W6_arr m ρ c 2).trans (((dat2 (V5 m ρ) c).arrAt_in 2 rfl _).trans (A_eq2 (V5 m ρ) c 2))
  exact W6_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W6 m ρ c (Proc.devRef .tc main_v5) : FVec Ideal S1280x256 .f32)
      = L (W5 m ρ c (Proc.devRef .tc main_arg6)) (W5 m ρ c (Proc.devRef .tc main_v4)) (W5 m ρ c (Proc.devRef .tc main_arg9)) :=
  (W6_arr m ρ c 3).trans (out_eq (V5 m ρ) c)

end Cert.KernelIdeal.Region2

end
-- ==== Proof.Region3.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S640x256.Idx) (q : dot_S640x1000_S1000x256_S640x256_1_0_0_1_n_n.contr.Idx) :
    (dot_S640x1000_S1000x256_S640x256_1_0_0_1_n_n.lhsIdx i q 0).val = (i 0).val := by
  unfold DotDims.lhsIdx
  rw [dif_neg (show ¬(0 : Fin S640x1000.rank) ∈ dot_S640x1000_S1000x256_S640x256_1_0_0_1_n_n.lhsBatch by decide), dif_pos (show (0 : Fin S640x1000.rank) ∈ dot_S640x1000_S1000x256_S640x256_1_0_0_1_n_n.lhsNonContracting by decide)]
  rfl
theorem klhs_1 (i : S640x256.Idx) (q : dot_S640x1000_S1000x256_S640x256_1_0_0_1_n_n.contr.Idx) :
    (dot_S640x1000_S1000x256_S640x256_1_0_0_1_n_n.lhsIdx i q 1).val = (q ⟨0, by decide⟩).val :=
  dot_S640x1000_S1000x256_S640x256_1_0_0_1_n_n.lhsIdx_val_of_single rfl i q
theorem krhs_0 (i : S640x256.Idx) (q : dot_S640x1000_S1000x256_S640x256_1_0_0_1_n_n.contr.Idx) :
    (dot_S640x1000_S1000x256_S640x256_1_0_0_1_n_n.rhsIdx i q 0).val = (q ⟨0, by decide⟩).val :=
  dot_S640x1000_S1000x256_S640x256_1_0_0_1_n_n.rhsIdx_val_of_single rfl i q
theorem krhs_1 (i : S640x256.Idx) (q : dot_S640x1000_S1000x256_S640x256_1_0_0_1_n_n.contr.Idx) :
    (dot_S640x1000_S1000x256_S640x256_1_0_0_1_n_n.rhsIdx i q 1).val = (i 1).val := by
  unfold DotDims.rhsIdx
  rw [dif_neg (show ¬(1 : Fin S1000x256.rank) ∈ dot_S640x1000_S1000x256_S640x256_1_0_0_1_n_n.rhsBatch by decide), dif_pos (show (1 : Fin S1000x256.rank) ∈ dot_S640x1000_S1000x256_S640x256_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S640x500 .f32) (x1 : Vec Ideal S640x10x500 .f32) (x2 : Vec Ideal S1000x256 .f32)
    (p : Fin 640) (j : Fin 256) :
    k3_pay1 (F := Ideal) x1 x0 x2 (ix2 p j)
      = rowLayer (fun k => x0 (ix2 p k)) (fun a k => x1 (ix3 p a k)) (fun k j => x2 (ix2 k j)) j := by
  have hc1 : ∀ (v : Vec Ideal S640x10x500 .f32) (h : S640x10x500.ShapeCasts S640x10x500), shapeCast S640x10x500 v h = v :=
    fun v h => shapeCast_self v h
  have hc0 : ∀ (v : Vec Ideal S640x500 .f32) (h : S640x500.ShapeCasts S640x500), shapeCast S640x500 v h = v :=
    fun v h => shapeCast_self v h
  unfold k3_pay1
  rw [hc1]
  try rw [hc0]
  exact kernel_at (R := 640) (n := 10) (d := 500) (K := 1000) (o := 256) rfl reduces_S640x10x500_S640x500 (.inl rfl) rfl
    concatenates_S640x500_S640x500_S640x1000_d1 dot_S640x1000_S1000x256_S640x256_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L2560x500

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg3.N,
    win3_0.index t (0 : Fin 2) = t.val ∧ win3_0.index t (1 : Fin 2) = 0
    ∧ win3_1.index t (0 : Fin 3) = t.val ∧ win3_1.index t (1 : Fin 3) = 0 ∧ win3_1.index t (2 : Fin 3) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The number of grid points. -/
theorem grid_n : cfg3.N = 4 := rfl

/-- Row `p` of point `t`'s blocks is row `p` of block `t` of the arrays. -/
def row (t : Fin cfg3.N) (p : Fin 640) : Fin 2560 :=
  ⟨t.val * 640 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg3.N) : Vec Ideal S640x500 .f32 := iblk3 V c 0 t
abbrev neighBlk (c : Dev nD) (t : Fin cfg3.N) : Vec Ideal S640x10x500 .f32 := iblk3 V c 1 t
abbrev wBlk (c : Dev nD) (t : Fin cfg3.N) : Vec Ideal S1000x256 .f32 := iblk3 V c 2 t
abbrev selfArr (c : Dev nD) : FVec Ideal S2560x500 .f32 := V c main_arg1
abbrev neighArr (c : Dev nD) : FVec Ideal S2560x10x500 .f32 := V c main_v6
abbrev wArr (c : Dev nD) : FVec Ideal S1000x256 .f32 := V c main_arg9

theorem selfBlk_at (c : Dev nD) (t : Fin cfg3.N) (p : Fin 640) (k : Fin 500) :
    selfBlk V c t (ix2 p k) = selfArr V c (ix2 (row t p) k) := by
  obtain ⟨e0, e1, -⟩ := idx_facts t
  show V c main_arg1 (((cfg3.win 0).blk t).view.emb (ix2 p k)) = V c main_arg1 (ix2 (row t p) k)
  refine congrArg (V c main_arg1) (funext fun a => Fin.ext ?_)
  match a with
  | ⟨0, _⟩ => show win3_0.index t (0 : Fin 2) * 640 + 1 * p.val = t.val * 640 + p.val; omega
  | ⟨1, _⟩ => show win3_0.index t (1 : Fin 2) * 500 + 1 * k.val = k.val; omega

theorem neighBlk_at (c : Dev nD) (t : Fin cfg3.N) (p : Fin 640) (a : Fin 10) (k : Fin 500) :
    neighBlk V c t (ix3 p a k) = neighArr V c (ix3 (row t p) a k) := by
  obtain ⟨-, -, e0, e1, e2, -⟩ := idx_facts t
  show V c main_v6 (((cfg3.win 1).blk t).view.emb (ix3 p a k)) = V c main_v6 (ix3 (row t p) a k)
  refine congrArg (V c main_v6) (funext fun b => Fin.ext ?_)
  match b with
  | ⟨0, _⟩ => show win3_1.index t (0 : Fin 3) * 640 + 1 * p.val = t.val * 640 + p.val; omega
  | ⟨1, _⟩ => show win3_1.index t (1 : Fin 3) * 10 + 1 * a.val = a.val; omega
  | ⟨2, _⟩ => show win3_1.index t (2 : Fin 3) * 500 + 1 * k.val = k.val; omega

theorem wBlk_at (c : Dev nD) (t : Fin cfg3.N) (k : Fin 1000) (j : Fin 256) :
    wBlk V c t (ix2 k j) = wArr V c (ix2 k j) := by
  obtain ⟨-, -, -, -, -, e0, e1, -⟩ := idx_facts t
  show V c main_arg9 (((cfg3.win 2).blk t).view.emb (ix2 k j)) = V c main_arg9 (ix2 k j)
  refine congrArg (V c main_arg9) (funext fun b => Fin.ext ?_)
  match b with
  | ⟨0, _⟩ => show win3_2.index t (0 : Fin 2) * 1000 + 1 * k.val = k.val; omega
  | ⟨1, _⟩ => show win3_2.index t (1 : Fin 2) * 256 + 1 * j.val = j.val; omega

/-! ## What a point writes back, and the array when the region ends -/

/-- Point `t` writes back block `t` of the host's layer of the arrays the region found. -/
theorem flushed_eq (c : Dev nD) (t : Fin cfg3.N) :
    (dat3 V c).flushed 3 t
      = ((cfg3.win 3).blk t).view.read (Elt Ideal) (L (selfArr V c) (neighArr V c) (wArr V c)) := by
  show (cfg3.win 3).cut (grid3.coords t) ((dat3 V c).after 3 t) = _
  rw [after3_3]
  unfold out3_3
  rw [View.canon_unit_zero hz]
  simp only [View.ld_unit_zero (S := S640x10x500) hz3, View.ld_unit_zero (S := S640x500) hz, View.ld_unit_zero (S := S1000x256) hz]
  funext y
  obtain ⟨p, j, rfl⟩ : ∃ (p : Fin 640) (j : Fin 256), y = ix2 p j := ⟨y 0, y 1, eq_ix2 y⟩
  obtain ⟨-, -, -, -, -, -, -, e0, e1⟩ := idx_facts t
  have hemb : ((cfg3.win 3).blk t).view.emb (ix2 p j) = ix2 (row t p) j := funext fun b => Fin.ext (by
    match b with
    | ⟨0, _⟩ => show win3_3.index t (0 : Fin 2) * 640 + 1 * p.val = t.val * 640 + p.val; omega
    | ⟨1, _⟩ => show win3_3.index t (1 : Fin 2) * 256 + 1 * j.val = j.val; omega)
  show k3_pay1 (neighBlk V c t) (selfBlk V c t) (wBlk V c t) (ix2 p j)
      = L (selfArr V c) (neighArr V c) (wArr V c) (((cfg3.win 3).blk t).view.emb (ix2 p j))
  rw [hemb]
  refine (pay_at (selfBlk V c t) (neighBlk V c t) (wBlk V c t) p j).trans ?_
  refine Eq.trans ?_ (Cert.Sage.Layers.L2560x500_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg3.N) (i : S2560x256.Idx) :
    i ∈ ((cfg3.win 3).blk t).view.set ↔ ∀ a : Fin 2, win3_3.index t a * S640x256.size a ≤ (i a).val ∧ (i a).val < win3_3.index t a * S640x256.size a + S640x256.size a := by
  show i ∈ ((View.whole main_v7).slice (win3_3.rect t)).set ↔ _
  rw [View.set_slice_whole, Rect.mem_set_unit]
  exact Iff.rfl

/-- The blocks tile the output: a row lies in the block of the point its quotient by the block height names. -/
theorem cover (i : S2560x256.Idx) :
    ∃ t : Fin cfg3.N, (cfg3.win 3).flush t = true ∧ i ∈ ((cfg3.win 3).blk t).view.set := by
  have hi0 : (i 0).val < 2560 := (i 0).isLt
  have hi1 : (i 1).val < 256 := (i 1).isLt
  let t : Fin cfg3.N := ⟨(i 0).val / 640, by rw [grid_n]; omega⟩
  obtain ⟨-, -, -, -, -, -, -, e0, e1⟩ := idx_facts t
  have ht : t.val = (i 0).val / 640 := rfl
  refine ⟨t, flush3_3 t, ?_⟩
  rw [mem_blk]
  intro a
  match a with
  | ⟨0, _⟩ => show win3_3.index t (0 : Fin 2) * 640 ≤ (i 0).val ∧ (i 0).val < win3_3.index t (0 : Fin 2) * 640 + 640; omega
  | ⟨1, _⟩ => show win3_3.index t (1 : Fin 2) * 256 ≤ (i 1).val ∧ (i 1).val < win3_3.index t (1 : Fin 2) * 256 + 256; omega

/-- So the output array ends holding the host's layer of the arrays the region found. -/
theorem out_eq (c : Dev nD) :
    (dat3 V c).arrAt 3 cfg3.N = L (selfArr V c) (neighArr V c) (wArr V c) :=
  (dat3 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v6) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W7 m ρ c (Proc.devRef .tc main_v6) : FVec Ideal S2560x10x500 .f32)
      = shapeCast Cert.ReferenceIdeal.S2560x10x500 (W6 m ρ c (Proc.devRef .tc main_arg2) : FVec Ideal S25600x500 .f32)
          Cert.ReferenceIdeal.Facts₀.shapeCasts_S25600x500_S2560x10x500 := by
  show StableHlo.after hostOps3 (W6 m ρ c) (Proc.devRef .tc main_v6) = _
  dsimp only [hostOps3]
  after_results
  rfl

/-- The call writes only its output array: its inputs end as it found them, and no other buffer is one of its arrays. -/
theorem reg_keep (c : Dev nD) (b : Ref sig .tc) (hb : b ≠ main_v7) :
    W8 m ρ c (Proc.devRef .tc b) = W7 m ρ c (Proc.devRef .tc b) := by
  by_cases h0 : b = main_arg1
  · subst h0; exact (W8_arr m ρ c 0).trans (((dat3 (V7 m ρ) c).arrAt_in 0 rfl _).trans (A_eq3 (V7 m ρ) c 0))
  by_cases h1 : b = main_v6
  · subst h1; exact (W8_arr m ρ c 1).trans (((dat3 (V7 m ρ) c).arrAt_in 1 rfl _).trans (A_eq3 (V7 m ρ) c 1))
  by_cases h2 : b = main_arg9
  · subst h2; exact (W8_arr m ρ c 2).trans (((dat3 (V7 m ρ) c).arrAt_in 2 rfl _).trans (A_eq3 (V7 m ρ) c 2))
  exact W8_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W8 m ρ c (Proc.devRef .tc main_v7) : FVec Ideal S2560x256 .f32)
      = L (W7 m ρ c (Proc.devRef .tc main_arg1)) (W7 m ρ c (Proc.devRef .tc main_v6)) (W7 m ρ c (Proc.devRef .tc main_arg9)) :=
  (W8_arr m ρ c 3).trans (out_eq (V7 m ρ) c)

end Cert.KernelIdeal.Region3

end
-- ==== Proof.Region4.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S640x256.Idx) (q : dot_S640x1000_S1000x256_S640x256_1_0_0_1_n_n.contr.Idx) :
    (dot_S640x1000_S1000x256_S640x256_1_0_0_1_n_n.lhsIdx i q 0).val = (i 0).val := by
  unfold DotDims.lhsIdx
  rw [dif_neg (show ¬(0 : Fin S640x1000.rank) ∈ dot_S640x1000_S1000x256_S640x256_1_0_0_1_n_n.lhsBatch by decide), dif_pos (show (0 : Fin S640x1000.rank) ∈ dot_S640x1000_S1000x256_S640x256_1_0_0_1_n_n.lhsNonContracting by decide)]
  rfl
theorem klhs_1 (i : S640x256.Idx) (q : dot_S640x1000_S1000x256_S640x256_1_0_0_1_n_n.contr.Idx) :
    (dot_S640x1000_S1000x256_S640x256_1_0_0_1_n_n.lhsIdx i q 1).val = (q ⟨0, by decide⟩).val :=
  dot_S640x1000_S1000x256_S640x256_1_0_0_1_n_n.lhsIdx_val_of_single rfl i q
theorem krhs_0 (i : S640x256.Idx) (q : dot_S640x1000_S1000x256_S640x256_1_0_0_1_n_n.contr.Idx) :
    (dot_S640x1000_S1000x256_S640x256_1_0_0_1_n_n.rhsIdx i q 0).val = (q ⟨0, by decide⟩).val :=
  dot_S640x1000_S1000x256_S640x256_1_0_0_1_n_n.rhsIdx_val_of_single rfl i q
theorem krhs_1 (i : S640x256.Idx) (q : dot_S640x1000_S1000x256_S640x256_1_0_0_1_n_n.contr.Idx) :
    (dot_S640x1000_S1000x256_S640x256_1_0_0_1_n_n.rhsIdx i q 1).val = (i 1).val := by
  unfold DotDims.rhsIdx
  rw [dif_neg (show ¬(1 : Fin S1000x256.rank) ∈ dot_S640x1000_S1000x256_S640x256_1_0_0_1_n_n.rhsBatch by decide), dif_pos (show (1 : Fin S1000x256.rank) ∈ dot_S640x1000_S1000x256_S640x256_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S640x500 .f32) (x1 : Vec Ideal S640x10x500 .f32) (x2 : Vec Ideal S1000x256 .f32)
    (p : Fin 640) (j : Fin 256) :
    k4_pay1 (F := Ideal) x1 x0 x2 (ix2 p j)
      = rowLayer (fun k => x0 (ix2 p k)) (fun a k => x1 (ix3 p a k)) (fun k j => x2 (ix2 k j)) j := by
  have hc1 : ∀ (v : Vec Ideal S640x10x500 .f32) (h : S640x10x500.ShapeCasts S640x10x500), shapeCast S640x10x500 v h = v :=
    fun v h => shapeCast_self v h
  have hc0 : ∀ (v : Vec Ideal S640x500 .f32) (h : S640x500.ShapeCasts S640x500), shapeCast S640x500 v h = v :=
    fun v h => shapeCast_self v h
  unfold k4_pay1
  rw [hc1]
  try rw [hc0]
  exact kernel_at (R := 640) (n := 10) (d := 500) (K := 1000) (o := 256) rfl reduces_S640x10x500_S640x500 (.inl rfl) rfl
    concatenates_S640x500_S640x500_S640x1000_d1 dot_S640x1000_S1000x256_S640x256_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L2560x500

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg4.N,
    win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The number of grid points. -/
theorem grid_n : cfg4.N = 4 := rfl

/-- Row `p` of point `t`'s blocks is row `p` of block `t` of the arrays. -/
def row (t : Fin cfg4.N) (p : Fin 640) : Fin 2560 :=
  ⟨t.val * 640 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg4.N) : Vec Ideal S640x500 .f32 := iblk4 V c 0 t
abbrev neighBlk (c : Dev nD) (t : Fin cfg4.N) : Vec Ideal S640x10x500 .f32 := iblk4 V c 1 t
abbrev wBlk (c : Dev nD) (t : Fin cfg4.N) : Vec Ideal S1000x256 .f32 := iblk4 V c 2 t
abbrev selfArr (c : Dev nD) : FVec Ideal S2560x500 .f32 := V c main_arg4
abbrev neighArr (c : Dev nD) : FVec Ideal S2560x10x500 .f32 := V c main_v8
abbrev wArr (c : Dev nD) : FVec Ideal S1000x256 .f32 := V c main_arg9

theorem selfBlk_at (c : Dev nD) (t : Fin cfg4.N) (p : Fin 640) (k : Fin 500) :
    selfBlk V c t (ix2 p k) = selfArr V c (ix2 (row t p) k) := by
  obtain ⟨e0, e1, -⟩ := idx_facts t
  show V c main_arg4 (((cfg4.win 0).blk t).view.emb (ix2 p k)) = V c main_arg4 (ix2 (row t p) k)
  refine congrArg (V c main_arg4) (funext fun a => Fin.ext ?_)
  match a with
  | ⟨0, _⟩ => show win4_0.index t (0 : Fin 2) * 640 + 1 * p.val = t.val * 640 + p.val; omega
  | ⟨1, _⟩ => show win4_0.index t (1 : Fin 2) * 500 + 1 * k.val = k.val; omega

theorem neighBlk_at (c : Dev nD) (t : Fin cfg4.N) (p : Fin 640) (a : Fin 10) (k : Fin 500) :
    neighBlk V c t (ix3 p a k) = neighArr V c (ix3 (row t p) a k) := by
  obtain ⟨-, -, e0, e1, e2, -⟩ := idx_facts t
  show V c main_v8 (((cfg4.win 1).blk t).view.emb (ix3 p a k)) = V c main_v8 (ix3 (row t p) a k)
  refine congrArg (V c main_v8) (funext fun b => Fin.ext ?_)
  match b with
  | ⟨0, _⟩ => show win4_1.index t (0 : Fin 3) * 640 + 1 * p.val = t.val * 640 + p.val; omega
  | ⟨1, _⟩ => show win4_1.index t (1 : Fin 3) * 10 + 1 * a.val = a.val; omega
  | ⟨2, _⟩ => show win4_1.index t (2 : Fin 3) * 500 + 1 * k.val = k.val; omega

theorem wBlk_at (c : Dev nD) (t : Fin cfg4.N) (k : Fin 1000) (j : Fin 256) :
    wBlk V c t (ix2 k j) = wArr V c (ix2 k j) := by
  obtain ⟨-, -, -, -, -, e0, e1, -⟩ := idx_facts t
  show V c main_arg9 (((cfg4.win 2).blk t).view.emb (ix2 k j)) = V c main_arg9 (ix2 k j)
  refine congrArg (V c main_arg9) (funext fun b => Fin.ext ?_)
  match b with
  | ⟨0, _⟩ => show win4_2.index t (0 : Fin 2) * 1000 + 1 * k.val = k.val; omega
  | ⟨1, _⟩ => show win4_2.index t (1 : Fin 2) * 256 + 1 * j.val = j.val; omega

/-! ## What a point writes back, and the array when the region ends -/

/-- Point `t` writes back block `t` of the host's layer of the arrays the region found. -/
theorem flushed_eq (c : Dev nD) (t : Fin cfg4.N) :
    (dat4 V c).flushed 3 t
      = ((cfg4.win 3).blk t).view.read (Elt Ideal) (L (selfArr V c) (neighArr V c) (wArr V c)) := by
  show (cfg4.win 3).cut (grid4.coords t) ((dat4 V c).after 3 t) = _
  rw [after4_3]
  unfold out4_3
  rw [View.canon_unit_zero hz]
  simp only [View.ld_unit_zero (S := S640x10x500) hz3, View.ld_unit_zero (S := S640x500) hz, View.ld_unit_zero (S := S1000x256) hz]
  funext y
  obtain ⟨p, j, rfl⟩ : ∃ (p : Fin 640) (j : Fin 256), y = ix2 p j := ⟨y 0, y 1, eq_ix2 y⟩
  obtain ⟨-, -, -, -, -, -, -, e0, e1⟩ := idx_facts t
  have hemb : ((cfg4.win 3).blk t).view.emb (ix2 p j) = ix2 (row t p) j := funext fun b => Fin.ext (by
    match b with
    | ⟨0, _⟩ => show win4_3.index t (0 : Fin 2) * 640 + 1 * p.val = t.val * 640 + p.val; omega
    | ⟨1, _⟩ => show win4_3.index t (1 : Fin 2) * 256 + 1 * j.val = j.val; omega)
  show k4_pay1 (neighBlk V c t) (selfBlk V c t) (wBlk V c t) (ix2 p j)
      = L (selfArr V c) (neighArr V c) (wArr V c) (((cfg4.win 3).blk t).view.emb (ix2 p j))
  rw [hemb]
  refine (pay_at (selfBlk V c t) (neighBlk V c t) (wBlk V c t) p j).trans ?_
  refine Eq.trans ?_ (Cert.Sage.Layers.L2560x500_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg4.N) (i : S2560x256.Idx) :
    i ∈ ((cfg4.win 3).blk t).view.set ↔ ∀ a : Fin 2, win4_3.index t a * S640x256.size a ≤ (i a).val ∧ (i a).val < win4_3.index t a * S640x256.size a + S640x256.size a := by
  show i ∈ ((View.whole main_v9).slice (win4_3.rect t)).set ↔ _
  rw [View.set_slice_whole, Rect.mem_set_unit]
  exact Iff.rfl

/-- The blocks tile the output: a row lies in the block of the point its quotient by the block height names. -/
theorem cover (i : S2560x256.Idx) :
    ∃ t : Fin cfg4.N, (cfg4.win 3).flush t = true ∧ i ∈ ((cfg4.win 3).blk t).view.set := by
  have hi0 : (i 0).val < 2560 := (i 0).isLt
  have hi1 : (i 1).val < 256 := (i 1).isLt
  let t : Fin cfg4.N := ⟨(i 0).val / 640, by rw [grid_n]; omega⟩
  obtain ⟨-, -, -, -, -, -, -, e0, e1⟩ := idx_facts t
  have ht : t.val = (i 0).val / 640 := rfl
  refine ⟨t, flush4_3 t, ?_⟩
  rw [mem_blk]
  intro a
  match a with
  | ⟨0, _⟩ => show win4_3.index t (0 : Fin 2) * 640 ≤ (i 0).val ∧ (i 0).val < win4_3.index t (0 : Fin 2) * 640 + 640; omega
  | ⟨1, _⟩ => show win4_3.index t (1 : Fin 2) * 256 ≤ (i 1).val ∧ (i 1).val < win4_3.index t (1 : Fin 2) * 256 + 256; omega

/-- So the output array ends holding the host's layer of the arrays the region found. -/
theorem out_eq (c : Dev nD) :
    (dat4 V c).arrAt 3 cfg4.N = L (selfArr V c) (neighArr V c) (wArr V c) :=
  (dat4 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v8) :
    W9 m ρ c (Proc.devRef .tc b) = W8 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W9 m ρ c (Proc.devRef .tc main_v8) : FVec Ideal S2560x10x500 .f32)
      = shapeCast Cert.ReferenceIdeal.S2560x10x500 (W8 m ρ c (Proc.devRef .tc main_arg5) : FVec Ideal S25600x500 .f32)
          Cert.ReferenceIdeal.Facts₀.shapeCasts_S25600x500_S2560x10x500 := by
  show StableHlo.after hostOps4 (W8 m ρ c) (Proc.devRef .tc main_v8) = _
  dsimp only [hostOps4]
  after_results
  rfl

/-- The call writes only its output array: its inputs end as it found them, and no other buffer is one of its arrays. -/
theorem reg_keep (c : Dev nD) (b : Ref sig .tc) (hb : b ≠ main_v9) :
    W10 m ρ c (Proc.devRef .tc b) = W9 m ρ c (Proc.devRef .tc b) := by
  by_cases h0 : b = main_arg4
  · subst h0; exact (W10_arr m ρ c 0).trans (((dat4 (V9 m ρ) c).arrAt_in 0 rfl _).trans (A_eq4 (V9 m ρ) c 0))
  by_cases h1 : b = main_v8
  · subst h1; exact (W10_arr m ρ c 1).trans (((dat4 (V9 m ρ) c).arrAt_in 1 rfl _).trans (A_eq4 (V9 m ρ) c 1))
  by_cases h2 : b = main_arg9
  · subst h2; exact (W10_arr m ρ c 2).trans (((dat4 (V9 m ρ) c).arrAt_in 2 rfl _).trans (A_eq4 (V9 m ρ) c 2))
  exact W10_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W10 m ρ c (Proc.devRef .tc main_v9) : FVec Ideal S2560x256 .f32)
      = L (W9 m ρ c (Proc.devRef .tc main_arg4)) (W9 m ρ c (Proc.devRef .tc main_v8)) (W9 m ρ c (Proc.devRef .tc main_arg9)) :=
  (W10_arr m ρ c 3).trans (out_eq (V9 m ρ) c)

end Cert.KernelIdeal.Region4

end
-- ==== Proof.Region5.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S640x256.Idx) (q : dot_S640x1000_S1000x256_S640x256_1_0_0_1_n_n.contr.Idx) :
    (dot_S640x1000_S1000x256_S640x256_1_0_0_1_n_n.lhsIdx i q 0).val = (i 0).val := by
  unfold DotDims.lhsIdx
  rw [dif_neg (show ¬(0 : Fin S640x1000.rank) ∈ dot_S640x1000_S1000x256_S640x256_1_0_0_1_n_n.lhsBatch by decide), dif_pos (show (0 : Fin S640x1000.rank) ∈ dot_S640x1000_S1000x256_S640x256_1_0_0_1_n_n.lhsNonContracting by decide)]
  rfl
theorem klhs_1 (i : S640x256.Idx) (q : dot_S640x1000_S1000x256_S640x256_1_0_0_1_n_n.contr.Idx) :
    (dot_S640x1000_S1000x256_S640x256_1_0_0_1_n_n.lhsIdx i q 1).val = (q ⟨0, by decide⟩).val :=
  dot_S640x1000_S1000x256_S640x256_1_0_0_1_n_n.lhsIdx_val_of_single rfl i q
theorem krhs_0 (i : S640x256.Idx) (q : dot_S640x1000_S1000x256_S640x256_1_0_0_1_n_n.contr.Idx) :
    (dot_S640x1000_S1000x256_S640x256_1_0_0_1_n_n.rhsIdx i q 0).val = (q ⟨0, by decide⟩).val :=
  dot_S640x1000_S1000x256_S640x256_1_0_0_1_n_n.rhsIdx_val_of_single rfl i q
theorem krhs_1 (i : S640x256.Idx) (q : dot_S640x1000_S1000x256_S640x256_1_0_0_1_n_n.contr.Idx) :
    (dot_S640x1000_S1000x256_S640x256_1_0_0_1_n_n.rhsIdx i q 1).val = (i 1).val := by
  unfold DotDims.rhsIdx
  rw [dif_neg (show ¬(1 : Fin S1000x256.rank) ∈ dot_S640x1000_S1000x256_S640x256_1_0_0_1_n_n.rhsBatch by decide), dif_pos (show (1 : Fin S1000x256.rank) ∈ dot_S640x1000_S1000x256_S640x256_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S640x500 .f32) (x1 : Vec Ideal S640x10x500 .f32) (x2 : Vec Ideal S1000x256 .f32)
    (p : Fin 640) (j : Fin 256) :
    k5_pay1 (F := Ideal) x1 x0 x2 (ix2 p j)
      = rowLayer (fun k => x0 (ix2 p k)) (fun a k => x1 (ix3 p a k)) (fun k j => x2 (ix2 k j)) j := by
  have hc1 : ∀ (v : Vec Ideal S640x10x500 .f32) (h : S640x10x500.ShapeCasts S640x10x500), shapeCast S640x10x500 v h = v :=
    fun v h => shapeCast_self v h
  have hc0 : ∀ (v : Vec Ideal S640x500 .f32) (h : S640x500.ShapeCasts S640x500), shapeCast S640x500 v h = v :=
    fun v h => shapeCast_self v h
  unfold k5_pay1
  rw [hc1]
  try rw [hc0]
  exact kernel_at (R := 640) (n := 10) (d := 500) (K := 1000) (o := 256) rfl reduces_S640x10x500_S640x500 (.inl rfl) rfl
    concatenates_S640x500_S640x500_S640x1000_d1 dot_S640x1000_S1000x256_S640x256_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L12800x500

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg5.N,
    win5_0.index t (0 : Fin 2) = t.val ∧ win5_0.index t (1 : Fin 2) = 0
    ∧ win5_1.index t (0 : Fin 3) = t.val ∧ win5_1.index t (1 : Fin 3) = 0 ∧ win5_1.index t (2 : Fin 3) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The number of grid points. -/
theorem grid_n : cfg5.N = 20 := rfl

/-- Row `p` of point `t`'s blocks is row `p` of block `t` of the arrays. -/
def row (t : Fin cfg5.N) (p : Fin 640) : Fin 12800 :=
  ⟨t.val * 640 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg5.N) : Vec Ideal S640x500 .f32 := iblk5 V c 0 t
abbrev neighBlk (c : Dev nD) (t : Fin cfg5.N) : Vec Ideal S640x10x500 .f32 := iblk5 V c 1 t
abbrev wBlk (c : Dev nD) (t : Fin cfg5.N) : Vec Ideal S1000x256 .f32 := iblk5 V c 2 t
abbrev selfArr (c : Dev nD) : FVec Ideal S12800x500 .f32 := V c main_arg7
abbrev neighArr (c : Dev nD) : FVec Ideal S12800x10x500 .f32 := V c main_v10
abbrev wArr (c : Dev nD) : FVec Ideal S1000x256 .f32 := V c main_arg9

theorem selfBlk_at (c : Dev nD) (t : Fin cfg5.N) (p : Fin 640) (k : Fin 500) :
    selfBlk V c t (ix2 p k) = selfArr V c (ix2 (row t p) k) := by
  obtain ⟨e0, e1, -⟩ := idx_facts t
  show V c main_arg7 (((cfg5.win 0).blk t).view.emb (ix2 p k)) = V c main_arg7 (ix2 (row t p) k)
  refine congrArg (V c main_arg7) (funext fun a => Fin.ext ?_)
  match a with
  | ⟨0, _⟩ => show win5_0.index t (0 : Fin 2) * 640 + 1 * p.val = t.val * 640 + p.val; omega
  | ⟨1, _⟩ => show win5_0.index t (1 : Fin 2) * 500 + 1 * k.val = k.val; omega

theorem neighBlk_at (c : Dev nD) (t : Fin cfg5.N) (p : Fin 640) (a : Fin 10) (k : Fin 500) :
    neighBlk V c t (ix3 p a k) = neighArr V c (ix3 (row t p) a k) := by
  obtain ⟨-, -, e0, e1, e2, -⟩ := idx_facts t
  show V c main_v10 (((cfg5.win 1).blk t).view.emb (ix3 p a k)) = V c main_v10 (ix3 (row t p) a k)
  refine congrArg (V c main_v10) (funext fun b => Fin.ext ?_)
  match b with
  | ⟨0, _⟩ => show win5_1.index t (0 : Fin 3) * 640 + 1 * p.val = t.val * 640 + p.val; omega
  | ⟨1, _⟩ => show win5_1.index t (1 : Fin 3) * 10 + 1 * a.val = a.val; omega
  | ⟨2, _⟩ => show win5_1.index t (2 : Fin 3) * 500 + 1 * k.val = k.val; omega

theorem wBlk_at (c : Dev nD) (t : Fin cfg5.N) (k : Fin 1000) (j : Fin 256) :
    wBlk V c t (ix2 k j) = wArr V c (ix2 k j) := by
  obtain ⟨-, -, -, -, -, e0, e1, -⟩ := idx_facts t
  show V c main_arg9 (((cfg5.win 2).blk t).view.emb (ix2 k j)) = V c main_arg9 (ix2 k j)
  refine congrArg (V c main_arg9) (funext fun b => Fin.ext ?_)
  match b with
  | ⟨0, _⟩ => show win5_2.index t (0 : Fin 2) * 1000 + 1 * k.val = k.val; omega
  | ⟨1, _⟩ => show win5_2.index t (1 : Fin 2) * 256 + 1 * j.val = j.val; omega

/-! ## What a point writes back, and the array when the region ends -/

/-- Point `t` writes back block `t` of the host's layer of the arrays the region found. -/
theorem flushed_eq (c : Dev nD) (t : Fin cfg5.N) :
    (dat5 V c).flushed 3 t
      = ((cfg5.win 3).blk t).view.read (Elt Ideal) (L (selfArr V c) (neighArr V c) (wArr V c)) := by
  show (cfg5.win 3).cut (grid5.coords t) ((dat5 V c).after 3 t) = _
  rw [after5_3]
  unfold out5_3
  rw [View.canon_unit_zero hz]
  simp only [View.ld_unit_zero (S := S640x10x500) hz3, View.ld_unit_zero (S := S640x500) hz, View.ld_unit_zero (S := S1000x256) hz]
  funext y
  obtain ⟨p, j, rfl⟩ : ∃ (p : Fin 640) (j : Fin 256), y = ix2 p j := ⟨y 0, y 1, eq_ix2 y⟩
  obtain ⟨-, -, -, -, -, -, -, e0, e1⟩ := idx_facts t
  have hemb : ((cfg5.win 3).blk t).view.emb (ix2 p j) = ix2 (row t p) j := funext fun b => Fin.ext (by
    match b with
    | ⟨0, _⟩ => show win5_3.index t (0 : Fin 2) * 640 + 1 * p.val = t.val * 640 + p.val; omega
    | ⟨1, _⟩ => show win5_3.index t (1 : Fin 2) * 256 + 1 * j.val = j.val; omega)
  show k5_pay1 (neighBlk V c t) (selfBlk V c t) (wBlk V c t) (ix2 p j)
      = L (selfArr V c) (neighArr V c) (wArr V c) (((cfg5.win 3).blk t).view.emb (ix2 p j))
  rw [hemb]
  refine (pay_at (selfBlk V c t) (neighBlk V c t) (wBlk V c t) p j).trans ?_
  refine Eq.trans ?_ (Cert.Sage.Layers.L12800x500_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg5.N) (i : S12800x256.Idx) :
    i ∈ ((cfg5.win 3).blk t).view.set ↔ ∀ a : Fin 2, win5_3.index t a * S640x256.size a ≤ (i a).val ∧ (i a).val < win5_3.index t a * S640x256.size a + S640x256.size a := by
  show i ∈ ((View.whole main_v11).slice (win5_3.rect t)).set ↔ _
  rw [View.set_slice_whole, Rect.mem_set_unit]
  exact Iff.rfl

/-- The blocks tile the output: a row lies in the block of the point its quotient by the block height names. -/
theorem cover (i : S12800x256.Idx) :
    ∃ t : Fin cfg5.N, (cfg5.win 3).flush t = true ∧ i ∈ ((cfg5.win 3).blk t).view.set := by
  have hi0 : (i 0).val < 12800 := (i 0).isLt
  have hi1 : (i 1).val < 256 := (i 1).isLt
  let t : Fin cfg5.N := ⟨(i 0).val / 640, by rw [grid_n]; omega⟩
  obtain ⟨-, -, -, -, -, -, -, e0, e1⟩ := idx_facts t
  have ht : t.val = (i 0).val / 640 := rfl
  refine ⟨t, flush5_3 t, ?_⟩
  rw [mem_blk]
  intro a
  match a with
  | ⟨0, _⟩ => show win5_3.index t (0 : Fin 2) * 640 ≤ (i 0).val ∧ (i 0).val < win5_3.index t (0 : Fin 2) * 640 + 640; omega
  | ⟨1, _⟩ => show win5_3.index t (1 : Fin 2) * 256 ≤ (i 1).val ∧ (i 1).val < win5_3.index t (1 : Fin 2) * 256 + 256; omega

/-- So the output array ends holding the host's layer of the arrays the region found. -/
theorem out_eq (c : Dev nD) :
    (dat5 V c).arrAt 3 cfg5.N = L (selfArr V c) (neighArr V c) (wArr V c) :=
  (dat5 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v10) :
    W11 m ρ c (Proc.devRef .tc b) = W10 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W11 m ρ c (Proc.devRef .tc main_v10) : FVec Ideal S12800x10x500 .f32)
      = shapeCast Cert.ReferenceIdeal.S12800x10x500 (W10 m ρ c (Proc.devRef .tc main_arg8) : FVec Ideal S128000x500 .f32)
          Cert.ReferenceIdeal.Facts₀.shapeCasts_S128000x500_S12800x10x500 := by
  show StableHlo.after hostOps5 (W10 m ρ c) (Proc.devRef .tc main_v10) = _
  dsimp only [hostOps5]
  after_results
  rfl

/-- The call writes only its output array: its inputs end as it found them, and no other buffer is one of its arrays. -/
theorem reg_keep (c : Dev nD) (b : Ref sig .tc) (hb : b ≠ main_v11) :
    W12 m ρ c (Proc.devRef .tc b) = W11 m ρ c (Proc.devRef .tc b) := by
  by_cases h0 : b = main_arg7
  · subst h0; exact (W12_arr m ρ c 0).trans (((dat5 (V11 m ρ) c).arrAt_in 0 rfl _).trans (A_eq5 (V11 m ρ) c 0))
  by_cases h1 : b = main_v10
  · subst h1; exact (W12_arr m ρ c 1).trans (((dat5 (V11 m ρ) c).arrAt_in 1 rfl _).trans (A_eq5 (V11 m ρ) c 1))
  by_cases h2 : b = main_arg9
  · subst h2; exact (W12_arr m ρ c 2).trans (((dat5 (V11 m ρ) c).arrAt_in 2 rfl _).trans (A_eq5 (V11 m ρ) c 2))
  exact W12_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W12 m ρ c (Proc.devRef .tc main_v11) : FVec Ideal S12800x256 .f32)
      = L (W11 m ρ c (Proc.devRef .tc main_arg7)) (W11 m ρ c (Proc.devRef .tc main_v10)) (W11 m ρ c (Proc.devRef .tc main_arg9)) :=
  (W12_arr m ρ c 3).trans (out_eq (V11 m ρ) c)

end Cert.KernelIdeal.Region5

end
-- ==== Proof.Region6.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region6

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem klhs_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem krhs_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem krhs_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S256x256 .f32) (x1 : Vec Ideal S256x10x256 .f32) (x2 : Vec Ideal S512x128 .f32)
    (p : Fin 256) (j : Fin 128) :
    k6_pay1 (F := Ideal) x1 x0 x2 (ix2 p j)
      = rowLayer (fun k => x0 (ix2 p k)) (fun a k => x1 (ix3 p a k)) (fun k j => x2 (ix2 k j)) j := by
  have hc1 : ∀ (v : Vec Ideal S256x10x256 .f32) (h : S256x10x256.ShapeCasts S256x10x256), shapeCast S256x10x256 v h = v :=
    fun v h => shapeCast_self v h
  have hc0 : ∀ (v : Vec Ideal S256x256 .f32) (h : S256x256.ShapeCasts S256x256), shapeCast S256x256 v h = v :=
    fun v h => shapeCast_self v h
  unfold k6_pay1
  rw [hc1]
  try rw [hc0]
  exact kernel_at (R := 256) (n := 10) (d := 256) (K := 512) (o := 128) rfl reduces_S256x10x256_S256x256 (.inl rfl) rfl
    concatenates_S256x256_S256x256_S256x512_d1 dot_S256x512_S512x128_S256x128_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L256x256

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg6.N,
    win6_0.index t (0 : Fin 2) = t.val ∧ win6_0.index t (1 : Fin 2) = 0
    ∧ win6_1.index t (0 : Fin 3) = t.val ∧ win6_1.index t (1 : Fin 3) = 0 ∧ win6_1.index t (2 : Fin 3) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The number of grid points. -/
theorem grid_n : cfg6.N = 1 := rfl

/-- Row `p` of point `t`'s blocks is row `p` of block `t` of the arrays. -/
def row (t : Fin cfg6.N) (p : Fin 256) : Fin 256 :=
  ⟨t.val * 256 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg6.N) : Vec Ideal S256x256 .f32 := iblk6 V c 0 t
abbrev neighBlk (c : Dev nD) (t : Fin cfg6.N) : Vec Ideal S256x10x256 .f32 := iblk6 V c 1 t
abbrev wBlk (c : Dev nD) (t : Fin cfg6.N) : Vec Ideal S512x128 .f32 := iblk6 V c 2 t
abbrev selfArr (c : Dev nD) : FVec Ideal S256x256 .f32 := V c main_v1
abbrev neighArr (c : Dev nD) : FVec Ideal S256x10x256 .f32 := V c main_v12
abbrev wArr (c : Dev nD) : FVec Ideal S512x128 .f32 := V c main_arg10

theorem selfBlk_at (c : Dev nD) (t : Fin cfg6.N) (p : Fin 256) (k : Fin 256) :
    selfBlk V c t (ix2 p k) = selfArr V c (ix2 (row t p) k) := by
  obtain ⟨e0, e1, -⟩ := idx_facts t
  show V c main_v1 (((cfg6.win 0).blk t).view.emb (ix2 p k)) = V c main_v1 (ix2 (row t p) k)
  refine congrArg (V c main_v1) (funext fun a => Fin.ext ?_)
  match a with
  | ⟨0, _⟩ => show win6_0.index t (0 : Fin 2) * 256 + 1 * p.val = t.val * 256 + p.val; omega
  | ⟨1, _⟩ => show win6_0.index t (1 : Fin 2) * 256 + 1 * k.val = k.val; omega

theorem neighBlk_at (c : Dev nD) (t : Fin cfg6.N) (p : Fin 256) (a : Fin 10) (k : Fin 256) :
    neighBlk V c t (ix3 p a k) = neighArr V c (ix3 (row t p) a k) := by
  obtain ⟨-, -, e0, e1, e2, -⟩ := idx_facts t
  show V c main_v12 (((cfg6.win 1).blk t).view.emb (ix3 p a k)) = V c main_v12 (ix3 (row t p) a k)
  refine congrArg (V c main_v12) (funext fun b => Fin.ext ?_)
  match b with
  | ⟨0, _⟩ => show win6_1.index t (0 : Fin 3) * 256 + 1 * p.val = t.val * 256 + p.val; omega
  | ⟨1, _⟩ => show win6_1.index t (1 : Fin 3) * 10 + 1 * a.val = a.val; omega
  | ⟨2, _⟩ => show win6_1.index t (2 : Fin 3) * 256 + 1 * k.val = k.val; omega

theorem wBlk_at (c : Dev nD) (t : Fin cfg6.N) (k : Fin 512) (j : Fin 128) :
    wBlk V c t (ix2 k j) = wArr V c (ix2 k j) := by
  obtain ⟨-, -, -, -, -, e0, e1, -⟩ := idx_facts t
  show V c main_arg10 (((cfg6.win 2).blk t).view.emb (ix2 k j)) = V c main_arg10 (ix2 k j)
  refine congrArg (V c main_arg10) (funext fun b => Fin.ext ?_)
  match b with
  | ⟨0, _⟩ => show win6_2.index t (0 : Fin 2) * 512 + 1 * k.val = k.val; omega
  | ⟨1, _⟩ => show win6_2.index t (1 : Fin 2) * 128 + 1 * j.val = j.val; omega

/-! ## What a point writes back, and the array when the region ends -/

/-- Point `t` writes back block `t` of the host's layer of the arrays the region found. -/
theorem flushed_eq (c : Dev nD) (t : Fin cfg6.N) :
    (dat6 V c).flushed 3 t
      = ((cfg6.win 3).blk t).view.read (Elt Ideal) (L (selfArr V c) (neighArr V c) (wArr V c)) := by
  show (cfg6.win 3).cut (grid6.coords t) ((dat6 V c).after 3 t) = _
  rw [after6_3]
  unfold out6_3
  rw [View.canon_unit_zero hz]
  simp only [View.ld_unit_zero (S := S256x10x256) hz3, View.ld_unit_zero (S := S256x256) hz, View.ld_unit_zero (S := S512x128) hz]
  funext y
  obtain ⟨p, j, rfl⟩ : ∃ (p : Fin 256) (j : Fin 128), y = ix2 p j := ⟨y 0, y 1, eq_ix2 y⟩
  obtain ⟨-, -, -, -, -, -, -, e0, e1⟩ := idx_facts t
  have hemb : ((cfg6.win 3).blk t).view.emb (ix2 p j) = ix2 (row t p) j := funext fun b => Fin.ext (by
    match b with
    | ⟨0, _⟩ => show win6_3.index t (0 : Fin 2) * 256 + 1 * p.val = t.val * 256 + p.val; omega
    | ⟨1, _⟩ => show win6_3.index t (1 : Fin 2) * 128 + 1 * j.val = j.val; omega)
  show k6_pay1 (neighBlk V c t) (selfBlk V c t) (wBlk V c t) (ix2 p j)
      = L (selfArr V c) (neighArr V c) (wArr V c) (((cfg6.win 3).blk t).view.emb (ix2 p j))
  rw [hemb]
  refine (pay_at (selfBlk V c t) (neighBlk V c t) (wBlk V c t) p j).trans ?_
  refine Eq.trans ?_ (Cert.Sage.Layers.L256x256_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg6.N) (i : S256x128.Idx) :
    i ∈ ((cfg6.win 3).blk t).view.set ↔ ∀ a : Fin 2, win6_3.index t a * S256x128.size a ≤ (i a).val ∧ (i a).val < win6_3.index t a * S256x128.size a + S256x128.size a := by
  show i ∈ ((View.whole main_v13).slice (win6_3.rect t)).set ↔ _
  rw [View.set_slice_whole, Rect.mem_set_unit]
  exact Iff.rfl

/-- The blocks tile the output: a row lies in the block of the point its quotient by the block height names. -/
theorem cover (i : S256x128.Idx) :
    ∃ t : Fin cfg6.N, (cfg6.win 3).flush t = true ∧ i ∈ ((cfg6.win 3).blk t).view.set := by
  have hi0 : (i 0).val < 256 := (i 0).isLt
  have hi1 : (i 1).val < 128 := (i 1).isLt
  let t : Fin cfg6.N := ⟨(i 0).val / 256, by rw [grid_n]; omega⟩
  obtain ⟨-, -, -, -, -, -, -, e0, e1⟩ := idx_facts t
  have ht : t.val = (i 0).val / 256 := rfl
  refine ⟨t, flush6_3 t, ?_⟩
  rw [mem_blk]
  intro a
  match a with
  | ⟨0, _⟩ => show win6_3.index t (0 : Fin 2) * 256 ≤ (i 0).val ∧ (i 0).val < win6_3.index t (0 : Fin 2) * 256 + 256; omega
  | ⟨1, _⟩ => show win6_3.index t (1 : Fin 2) * 128 ≤ (i 1).val ∧ (i 1).val < win6_3.index t (1 : Fin 2) * 128 + 128; omega

/-- So the output array ends holding the host's layer of the arrays the region found. -/
theorem out_eq (c : Dev nD) :
    (dat6 V c).arrAt 3 cfg6.N = L (selfArr V c) (neighArr V c) (wArr V c) :=
  (dat6 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v12) :
    W13 m ρ c (Proc.devRef .tc b) = W12 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W13 m ρ c (Proc.devRef .tc main_v12) : FVec Ideal S256x10x256 .f32)
      = shapeCast Cert.ReferenceIdeal.S256x10x256 (W12 m ρ c (Proc.devRef .tc main_v7) : FVec Ideal S2560x256 .f32)
          Cert.ReferenceIdeal.Facts₀.shapeCasts_S2560x256_S256x10x256 := by
  show StableHlo.after hostOps6 (W12 m ρ c) (Proc.devRef .tc main_v12) = _
  dsimp only [hostOps6]
  after_results
  rfl

/-- The call writes only its output array: its inputs end as it found them, and no other buffer is one of its arrays. -/
theorem reg_keep (c : Dev nD) (b : Ref sig .tc) (hb : b ≠ main_v13) :
    W14 m ρ c (Proc.devRef .tc b) = W13 m ρ c (Proc.devRef .tc b) := by
  by_cases h0 : b = main_v1
  · subst h0; exact (W14_arr m ρ c 0).trans (((dat6 (V13 m ρ) c).arrAt_in 0 rfl _).trans (A_eq6 (V13 m ρ) c 0))
  by_cases h1 : b = main_v12
  · subst h1; exact (W14_arr m ρ c 1).trans (((dat6 (V13 m ρ) c).arrAt_in 1 rfl _).trans (A_eq6 (V13 m ρ) c 1))
  by_cases h2 : b = main_arg10
  · subst h2; exact (W14_arr m ρ c 2).trans (((dat6 (V13 m ρ) c).arrAt_in 2 rfl _).trans (A_eq6 (V13 m ρ) c 2))
  exact W14_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W14 m ρ c (Proc.devRef .tc main_v13) : FVec Ideal S256x128 .f32)
      = L (W13 m ρ c (Proc.devRef .tc main_v1)) (W13 m ρ c (Proc.devRef .tc main_v12)) (W13 m ρ c (Proc.devRef .tc main_arg10)) :=
  (W14_arr m ρ c 3).trans (out_eq (V13 m ρ) c)

end Cert.KernelIdeal.Region6

end
-- ==== Proof.Region7.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region7

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem klhs_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem krhs_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem krhs_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S256x256 .f32) (x1 : Vec Ideal S256x10x256 .f32) (x2 : Vec Ideal S512x128 .f32)
    (p : Fin 256) (j : Fin 128) :
    k7_pay1 (F := Ideal) x1 x0 x2 (ix2 p j)
      = rowLayer (fun k => x0 (ix2 p k)) (fun a k => x1 (ix3 p a k)) (fun k j => x2 (ix2 k j)) j := by
  have hc1 : ∀ (v : Vec Ideal S256x10x256 .f32) (h : S256x10x256.ShapeCasts S256x10x256), shapeCast S256x10x256 v h = v :=
    fun v h => shapeCast_self v h
  have hc0 : ∀ (v : Vec Ideal S256x256 .f32) (h : S256x256.ShapeCasts S256x256), shapeCast S256x256 v h = v :=
    fun v h => shapeCast_self v h
  unfold k7_pay1
  rw [hc1]
  try rw [hc0]
  exact kernel_at (R := 256) (n := 10) (d := 256) (K := 512) (o := 128) rfl reduces_S256x10x256_S256x256 (.inl rfl) rfl
    concatenates_S256x256_S256x256_S256x512_d1 dot_S256x512_S512x128_S256x128_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L256x256

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg7.N,
    win7_0.index t (0 : Fin 2) = t.val ∧ win7_0.index t (1 : Fin 2) = 0
    ∧ win7_1.index t (0 : Fin 3) = t.val ∧ win7_1.index t (1 : Fin 3) = 0 ∧ win7_1.index t (2 : Fin 3) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The number of grid points. -/
theorem grid_n : cfg7.N = 1 := rfl

/-- Row `p` of point `t`'s blocks is row `p` of block `t` of the arrays. -/
def row (t : Fin cfg7.N) (p : Fin 256) : Fin 256 :=
  ⟨t.val * 256 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg7.N) : Vec Ideal S256x256 .f32 := iblk7 V c 0 t
abbrev neighBlk (c : Dev nD) (t : Fin cfg7.N) : Vec Ideal S256x10x256 .f32 := iblk7 V c 1 t
abbrev wBlk (c : Dev nD) (t : Fin cfg7.N) : Vec Ideal S512x128 .f32 := iblk7 V c 2 t
abbrev selfArr (c : Dev nD) : FVec Ideal S256x256 .f32 := V c main_v3
abbrev neighArr (c : Dev nD) : FVec Ideal S256x10x256 .f32 := V c main_v14
abbrev wArr (c : Dev nD) : FVec Ideal S512x128 .f32 := V c main_arg10

theorem selfBlk_at (c : Dev nD) (t : Fin cfg7.N) (p : Fin 256) (k : Fin 256) :
    selfBlk V c t (ix2 p k) = selfArr V c (ix2 (row t p) k) := by
  obtain ⟨e0, e1, -⟩ := idx_facts t
  show V c main_v3 (((cfg7.win 0).blk t).view.emb (ix2 p k)) = V c main_v3 (ix2 (row t p) k)
  refine congrArg (V c main_v3) (funext fun a => Fin.ext ?_)
  match a with
  | ⟨0, _⟩ => show win7_0.index t (0 : Fin 2) * 256 + 1 * p.val = t.val * 256 + p.val; omega
  | ⟨1, _⟩ => show win7_0.index t (1 : Fin 2) * 256 + 1 * k.val = k.val; omega

theorem neighBlk_at (c : Dev nD) (t : Fin cfg7.N) (p : Fin 256) (a : Fin 10) (k : Fin 256) :
    neighBlk V c t (ix3 p a k) = neighArr V c (ix3 (row t p) a k) := by
  obtain ⟨-, -, e0, e1, e2, -⟩ := idx_facts t
  show V c main_v14 (((cfg7.win 1).blk t).view.emb (ix3 p a k)) = V c main_v14 (ix3 (row t p) a k)
  refine congrArg (V c main_v14) (funext fun b => Fin.ext ?_)
  match b with
  | ⟨0, _⟩ => show win7_1.index t (0 : Fin 3) * 256 + 1 * p.val = t.val * 256 + p.val; omega
  | ⟨1, _⟩ => show win7_1.index t (1 : Fin 3) * 10 + 1 * a.val = a.val; omega
  | ⟨2, _⟩ => show win7_1.index t (2 : Fin 3) * 256 + 1 * k.val = k.val; omega

theorem wBlk_at (c : Dev nD) (t : Fin cfg7.N) (k : Fin 512) (j : Fin 128) :
    wBlk V c t (ix2 k j) = wArr V c (ix2 k j) := by
  obtain ⟨-, -, -, -, -, e0, e1, -⟩ := idx_facts t
  show V c main_arg10 (((cfg7.win 2).blk t).view.emb (ix2 k j)) = V c main_arg10 (ix2 k j)
  refine congrArg (V c main_arg10) (funext fun b => Fin.ext ?_)
  match b with
  | ⟨0, _⟩ => show win7_2.index t (0 : Fin 2) * 512 + 1 * k.val = k.val; omega
  | ⟨1, _⟩ => show win7_2.index t (1 : Fin 2) * 128 + 1 * j.val = j.val; omega

/-! ## What a point writes back, and the array when the region ends -/

/-- Point `t` writes back block `t` of the host's layer of the arrays the region found. -/
theorem flushed_eq (c : Dev nD) (t : Fin cfg7.N) :
    (dat7 V c).flushed 3 t
      = ((cfg7.win 3).blk t).view.read (Elt Ideal) (L (selfArr V c) (neighArr V c) (wArr V c)) := by
  show (cfg7.win 3).cut (grid7.coords t) ((dat7 V c).after 3 t) = _
  rw [after7_3]
  unfold out7_3
  rw [View.canon_unit_zero hz]
  simp only [View.ld_unit_zero (S := S256x10x256) hz3, View.ld_unit_zero (S := S256x256) hz, View.ld_unit_zero (S := S512x128) hz]
  funext y
  obtain ⟨p, j, rfl⟩ : ∃ (p : Fin 256) (j : Fin 128), y = ix2 p j := ⟨y 0, y 1, eq_ix2 y⟩
  obtain ⟨-, -, -, -, -, -, -, e0, e1⟩ := idx_facts t
  have hemb : ((cfg7.win 3).blk t).view.emb (ix2 p j) = ix2 (row t p) j := funext fun b => Fin.ext (by
    match b with
    | ⟨0, _⟩ => show win7_3.index t (0 : Fin 2) * 256 + 1 * p.val = t.val * 256 + p.val; omega
    | ⟨1, _⟩ => show win7_3.index t (1 : Fin 2) * 128 + 1 * j.val = j.val; omega)
  show k7_pay1 (neighBlk V c t) (selfBlk V c t) (wBlk V c t) (ix2 p j)
      = L (selfArr V c) (neighArr V c) (wArr V c) (((cfg7.win 3).blk t).view.emb (ix2 p j))
  rw [hemb]
  refine (pay_at (selfBlk V c t) (neighBlk V c t) (wBlk V c t) p j).trans ?_
  refine Eq.trans ?_ (Cert.Sage.Layers.L256x256_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg7.N) (i : S256x128.Idx) :
    i ∈ ((cfg7.win 3).blk t).view.set ↔ ∀ a : Fin 2, win7_3.index t a * S256x128.size a ≤ (i a).val ∧ (i a).val < win7_3.index t a * S256x128.size a + S256x128.size a := by
  show i ∈ ((View.whole main_v15).slice (win7_3.rect t)).set ↔ _
  rw [View.set_slice_whole, Rect.mem_set_unit]
  exact Iff.rfl

/-- The blocks tile the output: a row lies in the block of the point its quotient by the block height names. -/
theorem cover (i : S256x128.Idx) :
    ∃ t : Fin cfg7.N, (cfg7.win 3).flush t = true ∧ i ∈ ((cfg7.win 3).blk t).view.set := by
  have hi0 : (i 0).val < 256 := (i 0).isLt
  have hi1 : (i 1).val < 128 := (i 1).isLt
  let t : Fin cfg7.N := ⟨(i 0).val / 256, by rw [grid_n]; omega⟩
  obtain ⟨-, -, -, -, -, -, -, e0, e1⟩ := idx_facts t
  have ht : t.val = (i 0).val / 256 := rfl
  refine ⟨t, flush7_3 t, ?_⟩
  rw [mem_blk]
  intro a
  match a with
  | ⟨0, _⟩ => show win7_3.index t (0 : Fin 2) * 256 ≤ (i 0).val ∧ (i 0).val < win7_3.index t (0 : Fin 2) * 256 + 256; omega
  | ⟨1, _⟩ => show win7_3.index t (1 : Fin 2) * 128 ≤ (i 1).val ∧ (i 1).val < win7_3.index t (1 : Fin 2) * 128 + 128; omega

/-- So the output array ends holding the host's layer of the arrays the region found. -/
theorem out_eq (c : Dev nD) :
    (dat7 V c).arrAt 3 cfg7.N = L (selfArr V c) (neighArr V c) (wArr V c) :=
  (dat7 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v14) :
    W15 m ρ c (Proc.devRef .tc b) = W14 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W15 m ρ c (Proc.devRef .tc main_v14) : FVec Ideal S256x10x256 .f32)
      = shapeCast Cert.ReferenceIdeal.S256x10x256 (W14 m ρ c (Proc.devRef .tc main_v9) : FVec Ideal S2560x256 .f32)
          Cert.ReferenceIdeal.Facts₀.shapeCasts_S2560x256_S256x10x256 := by
  show StableHlo.after hostOps7 (W14 m ρ c) (Proc.devRef .tc main_v14) = _
  dsimp only [hostOps7]
  after_results
  rfl

/-- The call writes only its output array: its inputs end as it found them, and no other buffer is one of its arrays. -/
theorem reg_keep (c : Dev nD) (b : Ref sig .tc) (hb : b ≠ main_v15) :
    W16 m ρ c (Proc.devRef .tc b) = W15 m ρ c (Proc.devRef .tc b) := by
  by_cases h0 : b = main_v3
  · subst h0; exact (W16_arr m ρ c 0).trans (((dat7 (V15 m ρ) c).arrAt_in 0 rfl _).trans (A_eq7 (V15 m ρ) c 0))
  by_cases h1 : b = main_v14
  · subst h1; exact (W16_arr m ρ c 1).trans (((dat7 (V15 m ρ) c).arrAt_in 1 rfl _).trans (A_eq7 (V15 m ρ) c 1))
  by_cases h2 : b = main_arg10
  · subst h2; exact (W16_arr m ρ c 2).trans (((dat7 (V15 m ρ) c).arrAt_in 2 rfl _).trans (A_eq7 (V15 m ρ) c 2))
  exact W16_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W16 m ρ c (Proc.devRef .tc main_v15) : FVec Ideal S256x128 .f32)
      = L (W15 m ρ c (Proc.devRef .tc main_v3)) (W15 m ρ c (Proc.devRef .tc main_v14)) (W15 m ρ c (Proc.devRef .tc main_arg10)) :=
  (W16_arr m ρ c 3).trans (out_eq (V15 m ρ) c)

end Cert.KernelIdeal.Region7

end
-- ==== Proof.Region8.lean ====
/-
  One pallas_call of the kernel program, read off its run: what its output array holds when it ends.

  At grid point `t` the call stages block `t` of rows of the node array and of the neighbour array (ten neighbour
  rows per node) and the whole weight matrix, and writes back block `t` of rows of the output. At Ideal the block
  a point writes is, entry by entry, the layer's row function of the staged rows, and so is the host's spelling
  of the layer over the whole arrays at the same row: the blocks tile the output, which therefore ends holding
  the host's layer of the arrays the call found. The last section says which buffers the call and the reshape
  before it leave alone, and what the reshape writes.
-/
import proofs.«107810_j58789512348198_1_alg».proof.Proof.Gen.KernelIdeal.Frame
import proofs.«107810_j58789512348198_1_alg».proof.Proof.Layers
import Idealize.ShloMosaic.Lib.Pipeline.Value
import Idealize.ShloMosaic.Lib.StableHlo.Run

set_option maxRecDepth 16384

noncomputable section

namespace Cert.KernelIdeal.Region8

open Idealize.ShloMosaic Idealize.ShloMosaic.TcCoe Idealize.ShloMosaic.ValueIdx Idealize.SL.Sem
open Cert.KernelIdeal Cert.KernelIdeal.Gen Cert.Sage
open Idealize.ShloMosaic.Pipeline (Dat)

/-! ## The kernel's product: which coordinate of each operand is the output's and which the contracted one -/

theorem klhs_0 (i : S1280x128.Idx) (q : dot_S1280x512_S512x128_S1280x128_1_0_0_1_n_n.contr.Idx) :
    (dot_S1280x512_S512x128_S1280x128_1_0_0_1_n_n.lhsIdx i q 0).val = (i 0).val := by
  unfold DotDims.lhsIdx
  rw [dif_neg (show ¬(0 : Fin S1280x512.rank) ∈ dot_S1280x512_S512x128_S1280x128_1_0_0_1_n_n.lhsBatch by decide), dif_pos (show (0 : Fin S1280x512.rank) ∈ dot_S1280x512_S512x128_S1280x128_1_0_0_1_n_n.lhsNonContracting by decide)]
  rfl
theorem klhs_1 (i : S1280x128.Idx) (q : dot_S1280x512_S512x128_S1280x128_1_0_0_1_n_n.contr.Idx) :
    (dot_S1280x512_S512x128_S1280x128_1_0_0_1_n_n.lhsIdx i q 1).val = (q ⟨0, by decide⟩).val :=
  dot_S1280x512_S512x128_S1280x128_1_0_0_1_n_n.lhsIdx_val_of_single rfl i q
theorem krhs_0 (i : S1280x128.Idx) (q : dot_S1280x512_S512x128_S1280x128_1_0_0_1_n_n.contr.Idx) :
    (dot_S1280x512_S512x128_S1280x128_1_0_0_1_n_n.rhsIdx i q 0).val = (q ⟨0, by decide⟩).val :=
  dot_S1280x512_S512x128_S1280x128_1_0_0_1_n_n.rhsIdx_val_of_single rfl i q
theorem krhs_1 (i : S1280x128.Idx) (q : dot_S1280x512_S512x128_S1280x128_1_0_0_1_n_n.contr.Idx) :
    (dot_S1280x512_S512x128_S1280x128_1_0_0_1_n_n.rhsIdx i q 1).val = (i 1).val := by
  unfold DotDims.rhsIdx
  rw [dif_neg (show ¬(1 : Fin S512x128.rank) ∈ dot_S1280x512_S512x128_S1280x128_1_0_0_1_n_n.rhsBatch by decide), dif_pos (show (1 : Fin S512x128.rank) ∈ dot_S1280x512_S512x128_S1280x128_1_0_0_1_n_n.rhsNonContracting by decide)]
  rfl

/-! ## One point's block, entry by entry -/

/-- The body's stored value at row `p`, column `j` of the block: the layer's row function of row `p` of the staged
    node rows and neighbour rows, and of the weights. -/
theorem pay_at (x0 : Vec Ideal S1280x256 .f32) (x1 : Vec Ideal S1280x10x256 .f32) (x2 : Vec Ideal S512x128 .f32)
    (p : Fin 1280) (j : Fin 128) :
    k8_pay1 (F := Ideal) x1 x0 x2 (ix2 p j)
      = rowLayer (fun k => x0 (ix2 p k)) (fun a k => x1 (ix3 p a k)) (fun k j => x2 (ix2 k j)) j := by
  have hc1 : ∀ (v : Vec Ideal S1280x10x256 .f32) (h : S1280x10x256.ShapeCasts S1280x10x256), shapeCast S1280x10x256 v h = v :=
    fun v h => shapeCast_self v h
  have hc0 : ∀ (v : Vec Ideal S1280x256 .f32) (h : S1280x256.ShapeCasts S1280x256), shapeCast S1280x256 v h = v :=
    fun v h => shapeCast_self v h
  unfold k8_pay1
  rw [hc1]
  try rw [hc0]
  exact kernel_at (R := 1280) (n := 10) (d := 256) (K := 512) (o := 128) rfl reduces_S1280x10x256_S1280x256 (.inl rfl) rfl
    concatenates_S1280x256_S1280x256_S1280x512_d1 dot_S1280x512_S512x128_S1280x128_1_0_0_1_n_n rfl rfl
    klhs_0 klhs_1 krhs_0 krhs_1 bitsLt_bf16_f32 x0 x1 x2 p j

/-! ## The host's spelling of this layer, over the whole arrays -/

/-- The layer of the region's whole node array, as the host program writes it. -/
abbrev L := Cert.Sage.Layers.L1280x256

/-! ## Where a point's blocks sit in their arrays -/

theorem hz : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the node, neighbour and output windows move one block of rows per point
    and stay at block zero on their other axes; the weights' window stays put. -/
theorem idx_facts : ∀ t : Fin cfg8.N,
    win8_0.index t (0 : Fin 2) = t.val ∧ win8_0.index t (1 : Fin 2) = 0
    ∧ win8_1.index t (0 : Fin 3) = t.val ∧ win8_1.index t (1 : Fin 3) = 0 ∧ win8_1.index t (2 : Fin 3) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The number of grid points. -/
theorem grid_n : cfg8.N = 1 := rfl

/-- Row `p` of point `t`'s blocks is row `p` of block `t` of the arrays. -/
def row (t : Fin cfg8.N) (p : Fin 1280) : Fin 1280 :=
  ⟨t.val * 1280 + p.val, by have ht := lt_of_lt_of_eq t.isLt grid_n; have := p.isLt; omega⟩

variable (V : (c : Dev nD) → (b : Ref sig .tc) → Buf (Elt Ideal) ((c : Thread nD τ).loc b))

/-- The staged blocks and the arrays they are read from, at their literal types. -/
abbrev selfBlk (c : Dev nD) (t : Fin cfg8.N) : Vec Ideal S1280x256 .f32 := iblk8 V c 0 t
abbrev neighBlk (c : Dev nD) (t : Fin cfg8.N) : Vec Ideal S1280x10x256 .f32 := iblk8 V c 1 t
abbrev wBlk (c : Dev nD) (t : Fin cfg8.N) : Vec Ideal S512x128 .f32 := iblk8 V c 2 t
abbrev selfArr (c : Dev nD) : FVec Ideal S1280x256 .f32 := V c main_v5
abbrev neighArr (c : Dev nD) : FVec Ideal S1280x10x256 .f32 := V c main_v16
abbrev wArr (c : Dev nD) : FVec Ideal S512x128 .f32 := V c main_arg10

theorem selfBlk_at (c : Dev nD) (t : Fin cfg8.N) (p : Fin 1280) (k : Fin 256) :
    selfBlk V c t (ix2 p k) = selfArr V c (ix2 (row t p) k) := by
  obtain ⟨e0, e1, -⟩ := idx_facts t
  show V c main_v5 (((cfg8.win 0).blk t).view.emb (ix2 p k)) = V c main_v5 (ix2 (row t p) k)
  refine congrArg (V c main_v5) (funext fun a => Fin.ext ?_)
  match a with
  | ⟨0, _⟩ => show win8_0.index t (0 : Fin 2) * 1280 + 1 * p.val = t.val * 1280 + p.val; omega
  | ⟨1, _⟩ => show win8_0.index t (1 : Fin 2) * 256 + 1 * k.val = k.val; omega

theorem neighBlk_at (c : Dev nD) (t : Fin cfg8.N) (p : Fin 1280) (a : Fin 10) (k : Fin 256) :
    neighBlk V c t (ix3 p a k) = neighArr V c (ix3 (row t p) a k) := by
  obtain ⟨-, -, e0, e1, e2, -⟩ := idx_facts t
  show V c main_v16 (((cfg8.win 1).blk t).view.emb (ix3 p a k)) = V c main_v16 (ix3 (row t p) a k)
  refine congrArg (V c main_v16) (funext fun b => Fin.ext ?_)
  match b with
  | ⟨0, _⟩ => show win8_1.index t (0 : Fin 3) * 1280 + 1 * p.val = t.val * 1280 + p.val; omega
  | ⟨1, _⟩ => show win8_1.index t (1 : Fin 3) * 10 + 1 * a.val = a.val; omega
  | ⟨2, _⟩ => show win8_1.index t (2 : Fin 3) * 256 + 1 * k.val = k.val; omega

theorem wBlk_at (c : Dev nD) (t : Fin cfg8.N) (k : Fin 512) (j : Fin 128) :
    wBlk V c t (ix2 k j) = wArr V c (ix2 k j) := by
  obtain ⟨-, -, -, -, -, e0, e1, -⟩ := idx_facts t
  show V c main_arg10 (((cfg8.win 2).blk t).view.emb (ix2 k j)) = V c main_arg10 (ix2 k j)
  refine congrArg (V c main_arg10) (funext fun b => Fin.ext ?_)
  match b with
  | ⟨0, _⟩ => show win8_2.index t (0 : Fin 2) * 512 + 1 * k.val = k.val; omega
  | ⟨1, _⟩ => show win8_2.index t (1 : Fin 2) * 128 + 1 * j.val = j.val; omega

/-! ## What a point writes back, and the array when the region ends -/

/-- Point `t` writes back block `t` of the host's layer of the arrays the region found. -/
theorem flushed_eq (c : Dev nD) (t : Fin cfg8.N) :
    (dat8 V c).flushed 3 t
      = ((cfg8.win 3).blk t).view.read (Elt Ideal) (L (selfArr V c) (neighArr V c) (wArr V c)) := by
  show (cfg8.win 3).cut (grid8.coords t) ((dat8 V c).after 3 t) = _
  rw [after8_3]
  unfold out8_3
  rw [View.canon_unit_zero hz]
  simp only [View.ld_unit_zero (S := S1280x10x256) hz3, View.ld_unit_zero (S := S1280x256) hz, View.ld_unit_zero (S := S512x128) hz]
  funext y
  obtain ⟨p, j, rfl⟩ : ∃ (p : Fin 1280) (j : Fin 128), y = ix2 p j := ⟨y 0, y 1, eq_ix2 y⟩
  obtain ⟨-, -, -, -, -, -, -, e0, e1⟩ := idx_facts t
  have hemb : ((cfg8.win 3).blk t).view.emb (ix2 p j) = ix2 (row t p) j := funext fun b => Fin.ext (by
    match b with
    | ⟨0, _⟩ => show win8_3.index t (0 : Fin 2) * 1280 + 1 * p.val = t.val * 1280 + p.val; omega
    | ⟨1, _⟩ => show win8_3.index t (1 : Fin 2) * 128 + 1 * j.val = j.val; omega)
  show k8_pay1 (neighBlk V c t) (selfBlk V c t) (wBlk V c t) (ix2 p j)
      = L (selfArr V c) (neighArr V c) (wArr V c) (((cfg8.win 3).blk t).view.emb (ix2 p j))
  rw [hemb]
  refine (pay_at (selfBlk V c t) (neighBlk V c t) (wBlk V c t) p j).trans ?_
  refine Eq.trans ?_ (Cert.Sage.Layers.L1280x256_at (selfArr V c) (neighArr V c) (wArr V c) (row t p) j).symm
  have h0 : (fun k => selfBlk V c t (ix2 p k)) = fun k => selfArr V c (ix2 (row t p) k) :=
    funext fun k => selfBlk_at V c t p k
  have h1 : (fun a k => neighBlk V c t (ix3 p a k)) = fun a k => neighArr V c (ix3 (row t p) a k) :=
    funext fun a => funext fun k => neighBlk_at V c t p a k
  have h2 : (fun k j => wBlk V c t (ix2 k j)) = fun k j => wArr V c (ix2 k j) :=
    funext fun k => funext fun j => wBlk_at V c t k j
  rw [h0, h1, h2]

/-- An index of the output array lies in point `t`'s block iff each coordinate is in the block's range. -/
theorem mem_blk (t : Fin cfg8.N) (i : S1280x128.Idx) :
    i ∈ ((cfg8.win 3).blk t).view.set ↔ ∀ a : Fin 2, win8_3.index t a * S1280x128.size a ≤ (i a).val ∧ (i a).val < win8_3.index t a * S1280x128.size a + S1280x128.size a := by
  show i ∈ ((View.whole main_v17).slice (win8_3.rect t)).set ↔ _
  rw [View.set_slice_whole, Rect.mem_set_unit]
  exact Iff.rfl

/-- The blocks tile the output: a row lies in the block of the point its quotient by the block height names. -/
theorem cover (i : S1280x128.Idx) :
    ∃ t : Fin cfg8.N, (cfg8.win 3).flush t = true ∧ i ∈ ((cfg8.win 3).blk t).view.set := by
  have hi0 : (i 0).val < 1280 := (i 0).isLt
  have hi1 : (i 1).val < 128 := (i 1).isLt
  let t : Fin cfg8.N := ⟨(i 0).val / 1280, by rw [grid_n]; omega⟩
  obtain ⟨-, -, -, -, -, -, -, e0, e1⟩ := idx_facts t
  have ht : t.val = (i 0).val / 1280 := rfl
  refine ⟨t, flush8_3 t, ?_⟩
  rw [mem_blk]
  intro a
  match a with
  | ⟨0, _⟩ => show win8_3.index t (0 : Fin 2) * 1280 ≤ (i 0).val ∧ (i 0).val < win8_3.index t (0 : Fin 2) * 1280 + 1280; omega
  | ⟨1, _⟩ => show win8_3.index t (1 : Fin 2) * 128 ≤ (i 1).val ∧ (i 1).val < win8_3.index t (1 : Fin 2) * 128 + 128; omega

/-- So the output array ends holding the host's layer of the arrays the region found. -/
theorem out_eq (c : Dev nD) :
    (dat8 V c).arrAt 3 cfg8.N = L (selfArr V c) (neighArr V c) (wArr V c) :=
  (dat8 V c).arrAt_eq_of_cover 3 (L (selfArr V c) (neighArr V c) (wArr V c)) (fun t _ => flushed_eq V c t) cover

/-! ## The boundary contents around the call: what the reshape before it and the call itself write -/

variable (m : (ℓ : Loc nD τ sig) → Buf (Elt Ideal) ℓ) (ρ : Dev nD → PrngReg)

/-- The reshape writes only its result buffer. -/
theorem host_keep (c : Dev nD) (b : Ref sig .tc) (hb : b ≠ main_v16) :
    W17 m ρ c (Proc.devRef .tc b) = W16 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.reshape_writes, Finset.mem_singleton]
    exact StableHlo.devRef_ne_of_ne hb))

/-- Its result is the neighbour array regrouped, ten rows per node. -/
theorem host_val (c : Dev nD) :
    (W17 m ρ c (Proc.devRef .tc main_v16) : FVec Ideal S1280x10x256 .f32)
      = shapeCast Cert.ReferenceIdeal.S1280x10x256 (W16 m ρ c (Proc.devRef .tc main_v11) : FVec Ideal S12800x256 .f32)
          Cert.ReferenceIdeal.Facts₀.shapeCasts_S12800x256_S1280x10x256 := by
  show StableHlo.after hostOps8 (W16 m ρ c) (Proc.devRef .tc main_v16) = _
  dsimp only [hostOps8]
  after_results
  rfl

/-- The call writes only its output array: its inputs end as it found them, and no other buffer is one of its arrays. -/
theorem reg_keep (c : Dev nD) (b : Ref sig .tc) (hb : b ≠ main_v17) :
    W18 m ρ c (Proc.devRef .tc b) = W17 m ρ c (Proc.devRef .tc b) := by
  by_cases h0 : b = main_v5
  · subst h0; exact (W18_arr m ρ c 0).trans (((dat8 (V17 m ρ) c).arrAt_in 0 rfl _).trans (A_eq8 (V17 m ρ) c 0))
  by_cases h1 : b = main_v16
  · subst h1; exact (W18_arr m ρ c 1).trans (((dat8 (V17 m ρ) c).arrAt_in 1 rfl _).trans (A_eq8 (V17 m ρ) c 1))
  by_cases h2 : b = main_arg10
  · subst h2; exact (W18_arr m ρ c 2).trans (((dat8 (V17 m ρ) c).arrAt_in 2 rfl _).trans (A_eq8 (V17 m ρ) c 2))
  exact W18_of_ne m ρ c b (fun w => by
    match w with
    | ⟨0, _⟩ => exact fun e => h0 e.symm
    | ⟨1, _⟩ => exact fun e => h1 e.symm
    | ⟨2, _⟩ => exact fun e => h2 e.symm
    | ⟨3, _⟩ => exact fun e => hb e.symm)

/-- Its output array ends at the host's layer of the contents it was entered with. -/
theorem reg_out (c : Dev nD) :
    (W18 m ρ c (Proc.devRef .tc main_v17) : FVec Ideal S1280x128 .f32)
      = L (W17 m ρ c (Proc.devRef .tc main_v5)) (W17 m ρ c (Proc.devRef .tc main_v16)) (W17 m ρ c (Proc.devRef .tc main_arg10)) :=
  (W18_arr m ρ c 3).trans (out_eq (V17 m ρ) c)

end Cert.KernelIdeal.Region8

end
-- ==== Proof.Boundaries.lean ====
import proofs.«107810_j58789512348198_1_alg».proof.Proof.Region0
import proofs.«107810_j58789512348198_1_alg».proof.Proof.Region1
import proofs.«107810_j58789512348198_1_alg».proof.Proof.Region2
import proofs.«107810_j58789512348198_1_alg».proof.Proof.Region3
import proofs.«107810_j58789512348198_1_alg».proof.Proof.Region4
import proofs.«107810_j58789512348198_1_alg».proof.Proof.Region5
import proofs.«107810_j58789512348198_1_alg».proof.Proof.Region6
import proofs.«107810_j58789512348198_1_alg».proof.Proof.Region7
import proofs.«107810_j58789512348198_1_alg».proof.Proof.Region8

set_option maxRecDepth 16384

noncomputable section

namespace Cert.KernelIdeal.ValueLeg

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The buffers the eighteen steps write, in order: step s writes main_v s. -/
abbrev written : List (Ref sig .tc) :=
  [main_v0, main_v1, main_v2, main_v3, main_v4, main_v5, main_v6, main_v7, main_v8, main_v9, main_v10, main_v11, main_v12, main_v13, main_v14, main_v15, main_v16, main_v17]

theorem at1 (c : Dev nD) (b : Ref sig .tc) (hb : ∀ v ∈ written, b ≠ v) :
    W1 m ρ c (Proc.devRef .tc b) = m ((c : Thread nD τ).loc b) :=
  (Region0.host_keep m ρ c b (hb main_v0 (by decide))).trans rfl
theorem at2 (c : Dev nD) (b : Ref sig .tc) (hb : ∀ v ∈ written, b ≠ v) :
    W2 m ρ c (Proc.devRef .tc b) = m ((c : Thread nD τ).loc b) :=
  (Region0.reg_keep m ρ c b (hb main_v1 (by decide))).trans (at1 m ρ c b hb)
theorem at3 (c : Dev nD) (b : Ref sig .tc) (hb : ∀ v ∈ written, b ≠ v) :
    W3 m ρ c (Proc.devRef .tc b) = m ((c : Thread nD τ).loc b) :=
  (Region1.host_keep m ρ c b (hb main_v2 (by decide))).trans (at2 m ρ c b hb)
theorem at4 (c : Dev nD) (b : Ref sig .tc) (hb : ∀ v ∈ written, b ≠ v) :
    W4 m ρ c (Proc.devRef .tc b) = m ((c : Thread nD τ).loc b) :=
  (Region1.reg_keep m ρ c b (hb main_v3 (by decide))).trans (at3 m ρ c b hb)
theorem at5 (c : Dev nD) (b : Ref sig .tc) (hb : ∀ v ∈ written, b ≠ v) :
    W5 m ρ c (Proc.devRef .tc b) = m ((c : Thread nD τ).loc b) :=
  (Region2.host_keep m ρ c b (hb main_v4 (by decide))).trans (at4 m ρ c b hb)
theorem at6 (c : Dev nD) (b : Ref sig .tc) (hb : ∀ v ∈ written, b ≠ v) :
    W6 m ρ c (Proc.devRef .tc b) = m ((c : Thread nD τ).loc b) :=
  (Region2.reg_keep m ρ c b (hb main_v5 (by decide))).trans (at5 m ρ c b hb)
theorem at7 (c : Dev nD) (b : Ref sig .tc) (hb : ∀ v ∈ written, b ≠ v) :
    W7 m ρ c (Proc.devRef .tc b) = m ((c : Thread nD τ).loc b) :=
  (Region3.host_keep m ρ c b (hb main_v6 (by decide))).trans (at6 m ρ c b hb)
theorem at8 (c : Dev nD) (b : Ref sig .tc) (hb : ∀ v ∈ written, b ≠ v) :
    W8 m ρ c (Proc.devRef .tc b) = m ((c : Thread nD τ).loc b) :=
  (Region3.reg_keep m ρ c b (hb main_v7 (by decide))).trans (at7 m ρ c b hb)
theorem at9 (c : Dev nD) (b : Ref sig .tc) (hb : ∀ v ∈ written, b ≠ v) :
    W9 m ρ c (Proc.devRef .tc b) = m ((c : Thread nD τ).loc b) :=
  (Region4.host_keep m ρ c b (hb main_v8 (by decide))).trans (at8 m ρ c b hb)
theorem at10 (c : Dev nD) (b : Ref sig .tc) (hb : ∀ v ∈ written, b ≠ v) :
    W10 m ρ c (Proc.devRef .tc b) = m ((c : Thread nD τ).loc b) :=
  (Region4.reg_keep m ρ c b (hb main_v9 (by decide))).trans (at9 m ρ c b hb)
theorem at11 (c : Dev nD) (b : Ref sig .tc) (hb : ∀ v ∈ written, b ≠ v) :
    W11 m ρ c (Proc.devRef .tc b) = m ((c : Thread nD τ).loc b) :=
  (Region5.host_keep m ρ c b (hb main_v10 (by decide))).trans (at10 m ρ c b hb)
theorem at12 (c : Dev nD) (b : Ref sig .tc) (hb : ∀ v ∈ written, b ≠ v) :
    W12 m ρ c (Proc.devRef .tc b) = m ((c : Thread nD τ).loc b) :=
  (Region5.reg_keep m ρ c b (hb main_v11 (by decide))).trans (at11 m ρ c b hb)
theorem at13 (c : Dev nD) (b : Ref sig .tc) (hb : ∀ v ∈ written, b ≠ v) :
    W13 m ρ c (Proc.devRef .tc b) = m ((c : Thread nD τ).loc b) :=
  (Region6.host_keep m ρ c b (hb main_v12 (by decide))).trans (at12 m ρ c b hb)
theorem at14 (c : Dev nD) (b : Ref sig .tc) (hb : ∀ v ∈ written, b ≠ v) :
    W14 m ρ c (Proc.devRef .tc b) = m ((c : Thread nD τ).loc b) :=
  (Region6.reg_keep m ρ c b (hb main_v13 (by decide))).trans (at13 m ρ c b hb)
theorem at15 (c : Dev nD) (b : Ref sig .tc) (hb : ∀ v ∈ written, b ≠ v) :
    W15 m ρ c (Proc.devRef .tc b) = m ((c : Thread nD τ).loc b) :=
  (Region7.host_keep m ρ c b (hb main_v14 (by decide))).trans (at14 m ρ c b hb)
theorem at16 (c : Dev nD) (b : Ref sig .tc) (hb : ∀ v ∈ written, b ≠ v) :
    W16 m ρ c (Proc.devRef .tc b) = m ((c : Thread nD τ).loc b) :=
  (Region7.reg_keep m ρ c b (hb main_v15 (by decide))).trans (at15 m ρ c b hb)
theorem at17 (c : Dev nD) (b : Ref sig .tc) (hb : ∀ v ∈ written, b ≠ v) :
    W17 m ρ c (Proc.devRef .tc b) = m ((c : Thread nD τ).loc b) :=
  (Region8.host_keep m ρ c b (hb main_v16 (by decide))).trans (at16 m ρ c b hb)

end Cert.KernelIdeal.ValueLeg

end
-- ==== Proof.KernelValue.lean ====
/-
  The kernel program's three results as functions of its argument arrays.

  @main is nine reshapes and nine calls in turn; the contents of the TensorCore's buffers at the boundaries between
  them are `W0` (launch) to `W18` (return). Step `s` (from boundary `s` to `s + 1`) writes the one buffer `main_v s`
  and nothing else: an even step is a reshape, an odd step a call whose output array ends at the host's layer of
  the contents it was entered with. So an argument array holds its launch contents at every boundary, a hop
  output holds its layer from the boundary after its call on, and reading the three result buffers back from the
  last boundary gives: second layer of (hop-0 layer, hop-1 layer regrouped ten rows per node), for the positive
  source, positive destination and negative node sets.
-/
import proofs.«107810_j58789512348198_1_alg».proof.Proof.KernelRun
import proofs.«107810_j58789512348198_1_alg».proof.Proof.Boundaries

set_option maxRecDepth 16384

noncomputable section

namespace Cert.KernelIdeal.ValueLeg

open Idealize.ShloMosaic Idealize.ShloMosaic.TcCoe Idealize.SL.Sem
open Cert.KernelIdeal Cert.KernelIdeal.Gen Cert.Sage.Layers

variable (m : (ℓ : Loc nD τ sig) → Buf (Elt Ideal) ℓ) (ρ : Dev nD → PrngReg)

/-! That a buffer no step writes holds its launch contents at boundary J is the lemma atJ of Proof/Boundaries.lean. -/

/-! ## The first layer's six outputs, at the boundary after their calls -/

theorem src0 (c : Dev nD) :
    (W2 m ρ c (Proc.devRef .tc main_v1) : FVec Ideal S256x256 .f32) = hop0 (m ((c : Thread nD τ).loc main_arg0)) (m ((c : Thread nD τ).loc main_arg1)) (m ((c : Thread nD τ).loc main_arg9)) := by
  refine (Region0.reg_out m ρ c).trans ?_
  rw [Region0.host_val m ρ c, at1 m ρ c main_arg0 (by decide), at1 m ρ c main_arg9 (by decide)]

theorem dst0 (c : Dev nD) :
    (W4 m ρ c (Proc.devRef .tc main_v3) : FVec Ideal S256x256 .f32) = hop0 (m ((c : Thread nD τ).loc main_arg3)) (m ((c : Thread nD τ).loc main_arg4)) (m ((c : Thread nD τ).loc main_arg9)) := by
  refine (Region1.reg_out m ρ c).trans ?_
  rw [Region1.host_val m ρ c, at2 m ρ c main_arg4 (by decide), at3 m ρ c main_arg3 (by decide), at3 m ρ c main_arg9 (by decide)]

theorem neg0 (c : Dev nD) :
    (W6 m ρ c (Proc.devRef .tc main_v5) : FVec Ideal S1280x256 .f32) = nhop0 (m ((c : Thread nD τ).loc main_arg6)) (m ((c : Thread nD τ).loc main_arg7)) (m ((c : Thread nD τ).loc main_arg9)) := by
  refine (Region2.reg_out m ρ c).trans ?_
  rw [Region2.host_val m ρ c, at4 m ρ c main_arg7 (by decide), at5 m ρ c main_arg6 (by decide), at5 m ρ c main_arg9 (by decide)]

theorem src1 (c : Dev nD) :
    (W8 m ρ c (Proc.devRef .tc main_v7) : FVec Ideal S2560x256 .f32) = hop1 (m ((c : Thread nD τ).loc main_arg1)) (m ((c : Thread nD τ).loc main_arg2)) (m ((c : Thread nD τ).loc main_arg9)) := by
  refine (Region3.reg_out m ρ c).trans ?_
  rw [Region3.host_val m ρ c, at6 m ρ c main_arg2 (by decide), at7 m ρ c main_arg1 (by decide), at7 m ρ c main_arg9 (by decide)]

theorem dst1 (c : Dev nD) :
    (W10 m ρ c (Proc.devRef .tc main_v9) : FVec Ideal S2560x256 .f32) = hop1 (m ((c : Thread nD τ).loc main_arg4)) (m ((c : Thread nD τ).loc main_arg5)) (m ((c : Thread nD τ).loc main_arg9)) := by
  refine (Region4.reg_out m ρ c).trans ?_
  rw [Region4.host_val m ρ c, at8 m ρ c main_arg5 (by decide), at9 m ρ c main_arg4 (by decide), at9 m ρ c main_arg9 (by decide)]

theorem neg1 (c : Dev nD) :
    (W12 m ρ c (Proc.devRef .tc main_v11) : FVec Ideal S12800x256 .f32) = nhop1 (m ((c : Thread nD τ).loc main_arg7)) (m ((c : Thread nD τ).loc main_arg8)) (m ((c : Thread nD τ).loc main_arg9)) := by
  refine (Region5.reg_out m ρ c).trans ?_
  rw [Region5.host_val m ρ c, at10 m ρ c main_arg8 (by decide), at11 m ρ c main_arg7 (by decide), at11 m ρ c main_arg9 (by decide)]

/-! ## The same outputs where the second layer reads them: the steps in between write other buffers -/

theorem src0_at13 (c : Dev nD) : W13 m ρ c (Proc.devRef .tc main_v1) = W2 m ρ c (Proc.devRef .tc main_v1) :=
  (Region6.host_keep m ρ c main_v1 (by decide)).trans <| (Region5.reg_keep m ρ c main_v1 (by decide)).trans <|
  (Region5.host_keep m ρ c main_v1 (by decide)).trans <| (Region4.reg_keep m ρ c main_v1 (by decide)).trans <|
  (Region4.host_keep m ρ c main_v1 (by decide)).trans <| (Region3.reg_keep m ρ c main_v1 (by decide)).trans <|
  (Region3.host_keep m ρ c main_v1 (by decide)).trans <| (Region2.reg_keep m ρ c main_v1 (by decide)).trans <|
  (Region2.host_keep m ρ c main_v1 (by decide)).trans <| (Region1.reg_keep m ρ c main_v1 (by decide)).trans <|
  Region1.host_keep m ρ c main_v1 (by decide)

theorem dst0_at15 (c : Dev nD) : W15 m ρ c (Proc.devRef .tc main_v3) = W4 m ρ c (Proc.devRef .tc main_v3) :=
  (Region7.host_keep m ρ c main_v3 (by decide)).trans <| (Region6.reg_keep m ρ c main_v3 (by decide)).trans <|
  (Region6.host_keep m ρ c main_v3 (by decide)).trans <| (Region5.reg_keep m ρ c main_v3 (by decide)).trans <|
  (Region5.host_keep m ρ c main_v3 (by decide)).trans <| (Region4.reg_keep m ρ c main_v3 (by decide)).trans <|
  (Region4.host_keep m ρ c main_v3 (by decide)).trans <| (Region3.reg_keep m ρ c main_v3 (by decide)).trans <|
  (Region3.host_keep m ρ c main_v3 (by decide)).trans <| (Region2.reg_keep m ρ c main_v3 (by decide)).trans <|
  Region2.host_keep m ρ c main_v3 (by decide)

theorem neg0_at17 (c : Dev nD) : W17 m ρ c (Proc.devRef .tc main_v5) = W6 m ρ c (Proc.devRef .tc main_v5) :=
  (Region8.host_keep m ρ c main_v5 (by decide)).trans <| (Region7.reg_keep m ρ c main_v5 (by decide)).trans <|
  (Region7.host_keep m ρ c main_v5 (by decide)).trans <| (Region6.reg_keep m ρ c main_v5 (by decide)).trans <|
  (Region6.host_keep m ρ c main_v5 (by decide)).trans <| (Region5.reg_keep m ρ c main_v5 (by decide)).trans <|
  (Region5.host_keep m ρ c main_v5 (by decide)).trans <| (Region4.reg_keep m ρ c main_v5 (by decide)).trans <|
  (Region4.host_keep m ρ c main_v5 (by decide)).trans <| (Region3.reg_keep m ρ c main_v5 (by decide)).trans <|
  Region3.host_keep m ρ c main_v5 (by decide)

theorem src1_at12 (c : Dev nD) : W12 m ρ c (Proc.devRef .tc main_v7) = W8 m ρ c (Proc.devRef .tc main_v7) :=
  (Region5.reg_keep m ρ c main_v7 (by decide)).trans <| (Region5.host_keep m ρ c main_v7 (by decide)).trans <|
  (Region4.reg_keep m ρ c main_v7 (by decide)).trans <| Region4.host_keep m ρ c main_v7 (by decide)

theorem dst1_at14 (c : Dev nD) : W14 m ρ c (Proc.devRef .tc main_v9) = W10 m ρ c (Proc.devRef .tc main_v9) :=
  (Region6.reg_keep m ρ c main_v9 (by decide)).trans <| (Region6.host_keep m ρ c main_v9 (by decide)).trans <|
  (Region5.reg_keep m ρ c main_v9 (by decide)).trans <| Region5.host_keep m ρ c main_v9 (by decide)

theorem neg1_at16 (c : Dev nD) : W16 m ρ c (Proc.devRef .tc main_v11) = W12 m ρ c (Proc.devRef .tc main_v11) :=
  (Region7.reg_keep m ρ c main_v11 (by decide)).trans <| (Region7.host_keep m ρ c main_v11 (by decide)).trans <|
  (Region6.reg_keep m ρ c main_v11 (by decide)).trans <| Region6.host_keep m ρ c main_v11 (by decide)

/-! ## The three results at the last boundary -/

theorem res_src (c : Dev nD) :
    (W18 m ρ c (Proc.devRef .tc main_v13) : FVec Ideal S256x128 .f32)
      = posResult (m ((c : Thread nD τ).loc main_arg0)) (m ((c : Thread nD τ).loc main_arg1)) (m ((c : Thread nD τ).loc main_arg2)) (m ((c : Thread nD τ).loc main_arg9)) (m ((c : Thread nD τ).loc main_arg10)) := by
  have k : W18 m ρ c (Proc.devRef .tc main_v13) = W14 m ρ c (Proc.devRef .tc main_v13) :=
    (Region8.reg_keep m ρ c main_v13 (by decide)).trans <| (Region8.host_keep m ρ c main_v13 (by decide)).trans <|
    (Region7.reg_keep m ρ c main_v13 (by decide)).trans <| Region7.host_keep m ρ c main_v13 (by decide)
  refine k.trans ((Region6.reg_out m ρ c).trans ?_)
  rw [Region6.host_val m ρ c, src1_at12 m ρ c, src1 m ρ c, src0_at13 m ρ c, src0 m ρ c, at13 m ρ c main_arg10 (by decide)]
  rfl

theorem res_dst (c : Dev nD) :
    (W18 m ρ c (Proc.devRef .tc main_v15) : FVec Ideal S256x128 .f32)
      = posResult (m ((c : Thread nD τ).loc main_arg3)) (m ((c : Thread nD τ).loc main_arg4)) (m ((c : Thread nD τ).loc main_arg5)) (m ((c : Thread nD τ).loc main_arg9)) (m ((c : Thread nD τ).loc main_arg10)) := by
  have k : W18 m ρ c (Proc.devRef .tc main_v15) = W16 m ρ c (Proc.devRef .tc main_v15) :=
    (Region8.reg_keep m ρ c main_v15 (by decide)).trans <| Region8.host_keep m ρ c main_v15 (by decide)
  refine k.trans ((Region7.reg_out m ρ c).trans ?_)
  rw [Region7.host_val m ρ c, dst1_at14 m ρ c, dst1 m ρ c, dst0_at15 m ρ c, dst0 m ρ c, at15 m ρ c main_arg10 (by decide)]
  rfl

theorem res_neg (c : Dev nD) :
    (W18 m ρ c (Proc.devRef .tc main_v17) : FVec Ideal S1280x128 .f32)
      = negResult (m ((c : Thread nD τ).loc main_arg6)) (m ((c : Thread nD τ).loc main_arg7)) (m ((c : Thread nD τ).loc main_arg8)) (m ((c : Thread nD τ).loc main_arg9)) (m ((c : Thread nD τ).loc main_arg10)) := by
  refine (Region8.reg_out m ρ c).trans ?_
  rw [Region8.host_val m ρ c, neg1_at16 m ρ c, neg1 m ρ c, neg0_at17 m ρ c, neg0 m ρ c, at17 m ρ c main_arg10 (by decide)]
  rfl

/-! ## The run -/

/-- Every weakly fair execution of the kernel program terminates, nothing faulting, with the three results at the
    second layer of the first layer's outputs and the argument arrays as launched. -/
theorem run_value : θ_run defs (onTc (τ := τ) (main (F := Ideal))) ⟨m, fun _ => 0, ρ⟩ (fun r => ∀ c : Dev nD,
      r.2.mem ((c.tc : Thread nD τ).loc main_v13)
        = posResult (m ((c : Thread nD τ).loc main_arg0)) (m ((c : Thread nD τ).loc main_arg1)) (m ((c : Thread nD τ).loc main_arg2)) (m ((c : Thread nD τ).loc main_arg9)) (m ((c : Thread nD τ).loc main_arg10))
      ∧ r.2.mem ((c.tc : Thread nD τ).loc main_v15)
        = posResult (m ((c : Thread nD τ).loc main_arg3)) (m ((c : Thread nD τ).loc main_arg4)) (m ((c : Thread nD τ).loc main_arg5)) (m ((c : Thread nD τ).loc main_arg9)) (m ((c : Thread nD τ).loc main_arg10))
      ∧ r.2.mem ((c.tc : Thread nD τ).loc main_v17)
        = negResult (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (res_src m ρ c), (h c).2.1.trans (res_dst m ρ c),
      (h c).2.2.1.trans (res_neg m ρ c), (h c).2.2.2⟩)
    (Cert.KernelIdeal.RunResults.run_results m ρ)

end Cert.KernelIdeal.ValueLeg

end
-- ==== Proof.RefValue.lean ====
/-
  The host program's three results as the same functions of its argument arrays.

  Its run ends with each result buffer at the composed term of its operations, which is, as written, the second
  layer applied to the first layer's hop-0 output and the regrouped hop-1 output: the definitions of
  `posResult` and `negResult` unfold to exactly that term.
-/
import proofs.«107810_j58789512348198_1_alg».proof.Defs
import proofs.«107810_j58789512348198_1_alg».proof.Proof.Gen.ReferenceIdeal.Run
import proofs.«107810_j58789512348198_1_alg».proof.Proof.Layers

set_option maxRecDepth 16384

noncomputable section

namespace Cert.ReferenceIdeal.RefValue

open Idealize.ShloMosaic Idealize.ShloMosaic.TcCoe Idealize.SL.Sem
open Cert.ReferenceIdeal Cert.Sage.Layers

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v48)
        = posResult (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_v55)
        = posResult (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))
      ∧ r.2.mem ((c.tc : Thread nD τ).loc main_v62)
        = negResult (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1, (h c).2.1, (h c).2.2.1, (h c).2.2.2⟩)
    (Cert.ReferenceIdeal.Value.run (F := Ideal) m ρ)

end Cert.ReferenceIdeal.RefValue

end
-- ==== Proof.lean ====
/-
  The certificate of the two-layer mean-aggregator network (nine pallas_calls) against its jnp reference.

  The three frames are generated: the kernel program's at both instances, and the host program's as its generated
  run with the results dropped. The idealization rewrote nothing, so `preserves` is trivial. For the value claim
  both programs end with each result at ONE function of the argument arrays (`posResult` for the two positive node
  sets, `negResult` for the negative one): the second layer of the hop-0 layer and the regrouped hop-1 layer. The
  host program's run is that term as written (Proof/RefValue.lean); the kernel program's nine calls each leave
  the host's layer of the arrays they found, block by block (Proof/Region0 … Region8.lean over Proof/Spec.lean's
  row function), and its results are read back through @main's boundaries (Proof/KernelValue.lean).
-/
import proofs.«107810_j58789512348198_1_alg».proof.Defs
import proofs.«107810_j58789512348198_1_alg».proof.Proof.Gen.Kernel
import proofs.«107810_j58789512348198_1_alg».proof.Proof.Gen.Kernel.Frame
import proofs.«107810_j58789512348198_1_alg».proof.Proof.Gen.KernelIdeal
import proofs.«107810_j58789512348198_1_alg».proof.Proof.Gen.KernelIdeal.Frame
import proofs.«107810_j58789512348198_1_alg».proof.Proof.Gen.ReferenceIdeal
import proofs.«107810_j58789512348198_1_alg».proof.Proof.Gen.Pre_finite_inputs
import proofs.«107810_j58789512348198_1_alg».proof.Proof.KernelValue
import proofs.«107810_j58789512348198_1_alg».proof.Proof.RefValue
import Idealize.ShloMosaic.Adequacy
import Idealize.ShloMosaic.Init

noncomputable section

namespace Cert.Proof

open Idealize.ShloMosaic Idealize.ShloMosaic.TcCoe Idealize.SL.Sem Cert.Sage.Layers

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.RefValue.run_value m ρ)

/-- Both programs, from memories agreeing on the arguments, end with each result at the same function of the
    arguments: the kernel program's run and the host program's run, the latter rewritten along the agreement. -/
theorem algebraic : Cert.algebraic_KernelIdeal_ReferenceIdeal := by
  intro m ρ m' ρ' _ hagree
  refine ⟨fun c => posResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => posResult (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => negResult (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.ValueLeg.run_value m ρ, ?_⟩
  refine (θ_run Cert.ReferenceIdeal.defs _ _).mono (fun r h c => ?_) (Cert.ReferenceIdeal.RefValue.run_value m' ρ')
  obtain ⟨h0, h1, h2, h3, h4, h5, h6, h7, h8, h9, h10⟩ := hagree c
  refine ⟨(h c).1.trans ?_, (h c).2.1.trans ?_, (h c).2.2.1.trans ?_, (h c).2.2.2⟩
  · rw [h0, h1, h2, h9, h10]
  · rw [h3, h4, h5, h9, h10]
  · rw [h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
